-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32 : Shape := ⟨2, ![32, 32]⟩
abbrev S4096 : Shape := ⟨1, ![4096]⟩
abbrev S32x32x128 : Shape := ⟨3, ![32, 32, 128]⟩
abbrev S32x32x32000 : Shape := ⟨3, ![32, 32, 32000]⟩
abbrev S32x32x4096 : Shape := ⟨3, ![32, 32, 4096]⟩
abbrev S_ : Shape := ⟨0, ![]⟩

class Facts : Prop where
  bcast_S_S32x32x128 : S_.BroadcastsInDim S32x32x128 (![] : Fin 0 → Fin S32x32x128.rank)
  reducesTo_S32x32x128_S_d0_1_2 : S32x32x128.ReducesTo [0, 1, 2] S_
  h_S_ : 0 < S_.numel
  bcast_S_S32x32x32000 : S_.BroadcastsInDim S32x32x32000 (![] : Fin 0 → Fin S32x32x32000.rank)
  reducesTo_S32x32x32000_S_d0_1_2 : S32x32x32000.ReducesTo [0, 1, 2] S_
  bcast_S_S32x32x4096 : S_.BroadcastsInDim S32x32x4096 (![] : Fin 0 → Fin S32x32x4096.rank)
  reducesTo_S32x32x4096_S_d0_1_2 : S32x32x4096.ReducesTo [0, 1, 2] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg0 : IVec S32x32 32) (main_arg3 : FVec F S32x32x128 .f32) (main_v13 : IVec S_ 1) (main_v16 : IVec S32x32x4096 1) : IVec S_ 1 :=
  let main_c_5 : IVec S_ 1 := constantI S_ 1 1#1
  let main_v17 : IVec S_ 1 := (fun x v => Host.reduce IntOp.andi x v reducesTo_S32x32x4096_S_d0_1_2 h_S_) main_v16 main_c_5
  let main_v18 : IVec S_ 1 := andi main_v13 main_v17
  let main_c_6 : IVec S_ 32 := constantI S_ 32 0#32
  let main_v19 : IVec S32x32 32 := broadcastInDim S32x32 ![] bcast_S_S32x32 main_c_6
  let main_v20 : IVec S32x32 1 := cmpi .sge main_arg0 main_v19
  let main_c_7 : IVec S_ 32 := constantI S_ 32 32000#32
  let main_v21 : IVec S32x32 32 := broadcastInDim S32x32 ![] bcast_S_S32x32 main_c_7
  let main_v22 : IVec S32x32 1 := cmpi .slt main_arg0 main_v21
  let main_v23 : IVec S32x32 1 := andi main_v20 main_v22
  let main_c_8 : IVec S_ 1 := constantI S_ 1 1#1
  let main_v24 : IVec S_ 1 := (fun x v => Host.reduce IntOp.andi x v reducesTo_S32x32_S_d0_1 h_S_) main_v23 main_c_8
  let main_v25 : IVec S_ 1 := andi main_v18 main_v24
  let main_cst_9 : FVec F S_ .f32 := constant S_ .f32 0x00000000#32
  let main_v26 : FVec F S32x32x128 .f32 := broadcastInDim S32x32x128 ![] bcast_S_S32x32x128 main_cst_9
  let main_v27 : IVec S32x32x128 1 := cmpf .oge main_arg3 main_v26
  let main_c_10 : IVec S_ 1 := constantI S_ 1 1#1
  let main_v28 : IVec S_ 1 := (fun x v => Host.reduce IntOp.andi x v reducesTo_S32x32x128_S_d0_1_2 h_S_) main_v27 main_c_10
  let main_v29 : IVec S_ 1 := andi main_v25 main_v28
  main_v29

def fn {F : FTy → Type} [FloatOps F] (main_arg0 : IVec S32x32 32) (main_arg1 : IVec S4096 32) (main_arg2 : FVec F S32x32x128 .f32) (main_arg3 : FVec F S32x32x128 .f32) (main_arg4 : FVec F S32x32x32000 .f32) (main_arg5 : FVec F S32x32x4096 .f32) : IVec S_ 1 :=
  let main_v0 : FVec F S32x32x128 .f32 := Host.absf main_arg2
  let main_cst : FVec F S_ .f32 := constant S_ .f32 0x7F800000#32
  let main_v1 : FVec F S32x32x128 .f32 := broadcastInDim S32x32x128 ![] bcast_S_S32x32x128 main_cst
  let main_v2 : IVec S32x32x128 1 := cmpf .olt main_v0 main_v1
  let main_c : IVec S_ 1 := constantI S_ 1 1#1
  let main_v3 : IVec S_ 1 := (fun x v => Host.reduce IntOp.andi x v reducesTo_S32x32x128_S_d0_1_2 h_S_) main_v2 main_c
  let main_v4 : FVec F S32x32x128 .f32 := Host.absf main_arg3
  let main_cst_0 : FVec F S_ .f32 := constant S_ .f32 0x7F800000#32
  let main_v5 : FVec F S32x32x128 .f32 := broadcastInDim S32x32x128 ![] bcast_S_S32x32x128 main_cst_0
  let main_v6 : IVec S32x32x128 1 := cmpf .olt main_v4 main_v5
  let main_c_1 : IVec S_ 1 := constantI S_ 1 1#1
  let main_v7 : IVec S_ 1 := (fun x v => Host.reduce IntOp.andi x v reducesTo_S32x32x128_S_d0_1_2 h_S_) main_v6 main_c_1
  let main_v8 : IVec S_ 1 := andi main_v3 main_v7
  let main_v9 : FVec F S32x32x32000 .f32 := Host.absf main_arg4
  let main_cst_2 : FVec F S_ .f32 := constant S_ .f32 0x7F800000#32
  let main_v10 : FVec F S32x32x32000 .f32 := broadcastInDim S32x32x32000 ![] bcast_S_S32x32x32000 main_cst_2
  let main_v11 : IVec S32x32x32000 1 := cmpf .olt main_v9 main_v10
  let main_c_3 : IVec S_ 1 := constantI S_ 1 1#1
  let main_v12 : IVec S_ 1 := (fun x v => Host.reduce IntOp.andi x v reducesTo_S32x32x32000_S_d0_1_2 h_S_) main_v11 main_c_3
  let main_v13 : IVec S_ 1 := andi main_v8 main_v12
  let main_v14 : FVec F S32x32x4096 .f32 := Host.absf main_arg5
  let main_cst_4 : FVec F S_ .f32 := constant S_ .f32 0x7F800000#32
  let main_v15 : FVec F S32x32x4096 .f32 := broadcastInDim S32x32x4096 ![] bcast_S_S32x32x4096 main_cst_4
  let main_v16 : IVec S32x32x4096 1 := cmpf .olt main_v14 main_v15
  fn_part1 (F := F) main_arg0 main_arg3 main_v13 main_v16
-- ==== Kernel.lean ====
abbrev S32x32 : Shape := ⟨2, ![32, 32]⟩
abbrev S4096 : Shape := ⟨1, ![4096]⟩
abbrev S32x32x128 : Shape := ⟨3, ![32, 32, 128]⟩
abbrev S32x32x32000 : Shape := ⟨3, ![32, 32, 32000]⟩
abbrev S32x32x4096 : Shape := ⟨3, ![32, 32, 4096]⟩
abbrev S1x1 : Shape := ⟨2, ![1, 1]⟩
abbrev S32x32x1280 : Shape := ⟨3, ![32, 32, 1280]⟩
abbrev S32x32x1 : Shape := ⟨3, ![32, 32, 1]⟩
abbrev S32 : Shape := ⟨1, ![32]⟩
abbrev S32x1 : Shape := ⟨2, ![32, 1]⟩
abbrev S1 : Shape := ⟨1, ![1]⟩
abbrev S_ : Shape := ⟨0, ![]⟩
abbrev S32x32x1024 : Shape := ⟨3, ![32, 32, 1024]⟩
abbrev S32x1024 : Shape := ⟨2, ![32, 1024]⟩
abbrev S32x1x1 : Shape := ⟨3, ![32, 1, 1]⟩
abbrev S1x1x1 : Shape := ⟨3, ![1, 1, 1]⟩

abbrev nBuf : Space → Nat
  | .hbm => 14
  | .vmem => 12
  | .smem => 0
  | _ => 0

abbrev bufTy : (tb : Table) → Fin (tcTables nBuf tb) → BufTy
  | .hbm, ⟨0, _⟩ => ⟨S32x32, .i32⟩
  | .hbm, ⟨1, _⟩ => ⟨S4096, .i32⟩
  | .hbm, ⟨2, _⟩ => ⟨S32x32x128, .f32⟩
  | .hbm, ⟨3, _⟩ => ⟨S32x32x128, .f32⟩
  | .hbm, ⟨4, _⟩ => ⟨S32x32x32000, .f32⟩
  | .hbm, ⟨5, _⟩ => ⟨S32x32x4096, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S32x32x1280, .f32⟩
  | .local _ .vmem, ⟨1, _⟩ => ⟨S32x32x1280, .f32⟩
  | .local _ .vmem, ⟨2, _⟩ => ⟨S32x32, .i32⟩
  | .local _ .vmem, ⟨3, _⟩ => ⟨S1x1, .f32⟩
  | .local _ .vmem, ⟨4, _⟩ => ⟨S32x32, .f32⟩
  | .local _ .vmem, ⟨5, _⟩ => ⟨S32x32x1024, .f32⟩
  | .local _ .vmem, ⟨6, _⟩ => ⟨S32x32x1024, .f32⟩
  | .local _ .vmem, ⟨7, _⟩ => ⟨S1x1, .f32⟩
  | .local _ .vmem, ⟨8, _⟩ => ⟨S1x1, .f32⟩
  | .local _ .vmem, ⟨9, _⟩ => ⟨S32x32x128, .f32⟩
  | .local _ .vmem, ⟨10, _⟩ => ⟨S32x32x128, .f32⟩
  | .local _ .vmem, ⟨11, _⟩ => ⟨S1x1, .f32⟩
  | _, _ => ⟨S32x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc2_sem0_0 : DmaSem sig := 7
abbrev cc2_sem1_0 : DmaSem sig := 8
abbrev cc2_sem2_0 : DmaSem sig := 9

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_10 : BitVec 32 := 0#32
  let v22 : BitVec 1 := Scalar.cmpi .ne v21 c0_i32_10
  v22

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_10 : BitVec 32 := 0#32
  let v19 : BitVec 1 := Scalar.cmpi .ne v18 c0_i32_10
  v19

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S32x32x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S32x32_S32x32_0_0 : ∀ a, (![0, 0] : Fin 2 → Nat) a + S32x32.size a ≤ S32x32.size a
  h_S32x32 : 0 < S32x32.numel
  shapeCasts_S32x32_S32x32 : S32x32.ShapeCasts S32x32
  iota_S32x32x1280_d2_w32 : S32x32x1280.Iotas .tc 32 [2]
  shapeCasts_S32x32_S32x32x1 : S32x32.ShapeCasts S32x32x1
  broadcasts_S32x32x1_S32x32x1280 : S32x32x1.Broadcasts S32x32x1280
  inb_S32x32x1280_S32x32x1280_0_0_0 : ∀ a, (![0, 0, 0] : Fin 3 → Nat) a + S32x32x1280.size a ≤ S32x32x1280.size a
  h_S32x32x1280 : 0 < S32x32x1280.numel
  reduces_S32x32x1280_S32x32 : S32x32x1280.Reduces [2] S32x32
  reduces_S32x32_S32 : S32x32.Reduces [1] S32
  shapeCasts_S32_S32x1 : S32.ShapeCasts S32x1
  reduces_S32x1_S1 : S32x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  shapeCasts_S1x1_S1x1 : S1x1.ShapeCasts S1x1
  inb_S32x32x1024_S32x32x1024_0_0_0 : ∀ a, (![0, 0, 0] : Fin 3 → Nat) a + S32x32x1024.size a ≤ S32x32x1024.size a
  h_S32x32x1024 : 0 < S32x32x1024.numel
  reduces_S32x32x1024_S32x1024 : S32x32x1024.Reduces [1] S32x1024
  reduces_S32x1024_S32 : S32x1024.Reduces [1] S32
  inb_S32x32x128_S32x32x128_0_0_0 : ∀ a, (![0, 0, 0] : Fin 3 → Nat) a + S32x32x128.size a ≤ S32x32x128.size a
  h_S32x32x128 : 0 < S32x32x128.numel
  reduces_S32x32x128_S32x32 : S32x32x128.Reduces [2] S32x32
  reduces_S32x32x1_S32x1 : S32x32x1.Reduces [1] S32x1
  shapeCasts_S32x1_S32x1x1 : S32x1.ShapeCasts S32x1x1
  reduces_S32x1x1_S1x1 : S32x1x1.Reduces [0] S1x1
  shapeCasts_S1x1_S1x1x1 : S1x1.ShapeCasts S1x1x1
  shapeCasts_S1x1x1_S1x1 : S1x1x1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x1280.size a ≤ S32x32x32000.size a
  hwx0_0 : ∀ i : grid0.Coords, EltTy.bits .f32 = 32 ∨ (Rect.block (s := S32x32x32000) S32x32x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .i32 = 32 ∨ (Rect.block (s := S32x32) S32x32.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x32x1024.size a ≤ S32x32x4096.size a
  hwx1_0 : ∀ i : grid1.Coords, EltTy.bits .f32 = 32 ∨ (Rect.block (s := S32x32x4096) S32x32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S32x32x128.size a ≤ S32x32x128.size a
  hwx2_0 : ∀ i : grid2.Coords, EltTy.bits .f32 = 32 ∨ (Rect.block (s := S32x32x128) S32x32x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32x128.size a ≤ S32x32x128.size a
  hwx2_1 : ∀ i : grid2.Coords, EltTy.bits .f32 = 32 ∨ (Rect.block (s := S32x32x128) S32x32x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

abbrev win0_0 : Pipeline.Window sig grid0 :=
  Pipeline.Window.ofSpec (Memref.whole main_arg4) S32x32x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg5) S32x32x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_arg2) S32x32x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S32x32x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x32 : Shape := ⟨2, ![32, 32]⟩
abbrev S4096 : Shape := ⟨1, ![4096]⟩
abbrev S32x32x128 : Shape := ⟨3, ![32, 32, 128]⟩
abbrev S32x32x32000 : Shape := ⟨3, ![32, 32, 32000]⟩
abbrev S32x32x4096 : Shape := ⟨3, ![32, 32, 4096]⟩
abbrev S32x32x1 : Shape := ⟨3, ![32, 32, 1]⟩
abbrev S_ : Shape := ⟨0, ![]⟩
abbrev S32x32x1x1 : Shape := ⟨4, ![32, 32, 1, 1]⟩
abbrev S1 : Shape := ⟨1, ![1]⟩
abbrev S1x1x1x1 : Shape := ⟨4, ![1, 1, 1, 1]⟩
abbrev S32x4096 : Shape := ⟨2, ![32, 4096]⟩

abbrev nBuf : Space → Nat
  | .hbm => 58
  | .vmem => 0
  | .smem => 0
  | _ => 0

abbrev bufTy : (tb : Table) → Fin (tcTables nBuf tb) → BufTy
  | .hbm, ⟨0, _⟩ => ⟨S32x32, .i32⟩
  | .hbm, ⟨1, _⟩ => ⟨S4096, .i32⟩
  | .hbm, ⟨2, _⟩ => ⟨S32x32x128, .f32⟩
  | .hbm, ⟨3, _⟩ => ⟨S32x32x128, .f32⟩
  | .hbm, ⟨4, _⟩ => ⟨S32x32x32000, .f32⟩
  | .hbm, ⟨5, _⟩ => ⟨S32x32x4096, .f32⟩
  | .hbm, ⟨6, _⟩ => ⟨S32x32x1, .i32⟩
  | .hbm, ⟨7, _⟩ => ⟨S_, .i32⟩
  | .hbm, ⟨8, _⟩ => ⟨S32x32x1, .i32⟩
  | .hbm, ⟨9, _⟩ => ⟨S32x32x1, .i1⟩
  | .hbm, ⟨10, _⟩ => ⟨S_, .i32⟩
  | .hbm, ⟨11, _⟩ => ⟨S32x32x1, .i32⟩
  | .hbm, ⟨12, _⟩ => ⟨S32x32x1, .i32⟩
  | .hbm, ⟨13, _⟩ => ⟨S32x32x1, .i32⟩
  | .hbm, ⟨14, _⟩ => ⟨S32x32x1x1, .i32⟩
  | .hbm, ⟨15, _⟩ => ⟨S1, .i32⟩
  | .hbm, ⟨16, _⟩ => ⟨S_, .i32⟩
  | .hbm, ⟨17, _⟩ => ⟨S32x32x1x1, .i32⟩
  | .hbm, ⟨18, _⟩ => ⟨S32x32x1x1, .i1⟩
  | .hbm, ⟨19, _⟩ => ⟨S1x1x1x1, .i32⟩
  | .hbm, ⟨20, _⟩ => ⟨S32x32x1x1, .i32⟩
  | .hbm, ⟨21, _⟩ => ⟨S32x32x1x1, .i1⟩
  | .hbm, ⟨22, _⟩ => ⟨S32x32x1x1, .i1⟩
  | .hbm, ⟨23, _⟩ => ⟨S_, .i1⟩
  | .hbm, ⟨24, _⟩ => ⟨S32x32x1, .i1⟩
  | .hbm, ⟨25, _⟩ => ⟨S32x32x1, .f32⟩
  | .hbm, ⟨26, _⟩ => ⟨S_, .f32⟩
  | .hbm, ⟨27, _⟩ => ⟨S32x32x1, .f32⟩
  | .hbm, ⟨28, _⟩ => ⟨S32x32x1, .f32⟩
  | .hbm, ⟨29, _⟩ => ⟨S32x32x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x4096, .f32⟩
  | .hbm, ⟨34, _⟩ => ⟨S_, .f32⟩
  | .hbm, ⟨35, _⟩ => ⟨S32x4096, .f32⟩
  | .hbm, ⟨36, _⟩ => ⟨S32x4096, .f32⟩
  | .hbm, ⟨37, _⟩ => ⟨S32x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32x32x128, .f32⟩
  | .hbm, ⟨42, _⟩ => ⟨S32x32x128, .f32⟩
  | .hbm, ⟨43, _⟩ => ⟨S32x32x128, .f32⟩
  | .hbm, ⟨44, _⟩ => ⟨S32x32x128, .f32⟩
  | .hbm, ⟨45, _⟩ => ⟨S32x32x128, .f32⟩
  | .hbm, ⟨46, _⟩ => ⟨S32x32x128, .f32⟩
  | .hbm, ⟨47, _⟩ => ⟨S_, .f32⟩
  | .hbm, ⟨48, _⟩ => ⟨S32x32x128, .f32⟩
  | .hbm, ⟨49, _⟩ => ⟨S32x32x128, .f32⟩
  | .hbm, ⟨50, _⟩ => ⟨S32x32x128, .f32⟩
  | .hbm, ⟨51, _⟩ => ⟨S_, .f32⟩
  | .hbm, ⟨52, _⟩ => ⟨S32x32x128, .f32⟩
  | .hbm, ⟨53, _⟩ => ⟨S32x32x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S32x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_2 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_5 : Ref sig .tc := ⟨.hbm, 51, rfl⟩
abbrev main_v18 : Ref sig .tc := ⟨.hbm, 52, rfl⟩
abbrev main_v19 : Ref sig .tc := ⟨.hbm, 53, rfl⟩
abbrev main_cst_6 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩

abbrev nD : Nat := 1
abbrev τ : Topo := Topo.v7x

variable {F : FTy → Type} [FloatOps F]

class Facts₀ : Prop where
  bcast_S32x32_S32x32x1_0_1 : S32x32.BroadcastsInDim S32x32x1 (![0, 1] : Fin 2 → Fin S32x32x1.rank)
  bcast_S_S32x32x1 : S_.BroadcastsInDim S32x32x1 (![] : Fin 0 → Fin S32x32x1.rank)
  shapeCasts_S32x32x1_S32x32x1x1 : S32x32x1.ShapeCasts S32x32x1x1
  bcast_S_S32x32x1x1 : S_.BroadcastsInDim S32x32x1x1 (![] : Fin 0 → Fin S32x32x1x1.rank)
  bcast_S1_S1x1x1x1_3 : S1.BroadcastsInDim S1x1x1x1 (![3] : Fin 1 → Fin S1x1x1x1.rank)
  bcast_S1x1x1x1_S32x32x1x1_0_1_2_3 : S1x1x1x1.BroadcastsInDim S32x32x1x1 (![0, 1, 2, 3] : Fin 4 → Fin S32x32x1x1.rank)
  reducesTo_S32x32x1x1_S32x32x1_d3 : S32x32x1x1.ReducesTo [3] S32x32x1
  h_S_ : 0 < S_.numel
  reducesTo_S32x32x1_S_d0_1_2 : S32x32x1.ReducesTo [0, 1, 2] S_
  reducesTo_S32x32x4096_S32x4096_d1 : S32x32x4096.ReducesTo [1] S32x4096
  bcast_S_S32x4096 : S_.BroadcastsInDim S32x4096 (![] : Fin 0 → Fin S32x4096.rank)
  reducesTo_S32x4096_S_d0_1 : S32x4096.ReducesTo [0, 1] S_
  bcast_S_S32x32x128 : S_.BroadcastsInDim S32x32x128 (![] : Fin 0 → Fin S32x32x128.rank)
  reducesTo_S32x32x128_S_d0_1_2 : S32x32x128.ReducesTo [0, 1, 2] S_
  gather_S32x32x32000_S32x32x1x1_S32x32x1_n_2_01_01_2_3_111_wf : GatherDims.WF S32x32x32000 S32x32x1x1 S32x32x1 [] [2] [0, 1] [2] [0, 1] 3 ![1, 1, 1]

variable [Facts₀]

def gather_S32x32x32000_S32x32x1x1_S32x32x1_n_2_01_01_2_3_111 : GatherDims S32x32x32000 S32x32x1x1 S32x32x1 where
  offsetDims := []
  collapsedSliceDims := [2]
  operandBatchingDims := [0, 1]
  startIndicesBatchingDims := [0, 1]
  startIndexMap := [2]
  indexVectorDim := 3
  sliceSizes := ![1, 1, 1]
  wf := gather_S32x32x32000_S32x32x1x1_S32x32x1_n_2_01_01_2_3_111_wf

class Facts : Prop extends Facts₀ where

variable [Facts]
-- ==== Proof.Kernel.Acc.lean ====
/-
  What the two accumulating kernels carry from grid point to grid point, as pure functions of the blocks they are handed.

  The English kernel keeps a [32,32] running sum: zero at the first point, and at point `k` it adds that tile's masked row
  sums. The French kernel keeps a [1,1] running sum of its tiles' log-mean totals. `enAcc … k` and `frAcc … k` are what the
  scratch holds after `k` points (at `k = 0`: the zero the first point stores before it accumulates).
-/
import proofs.«410933_j24077586661495_3_alg».proof.Proof.Gen.Kernel.Skeleton

noncomputable section

namespace Cert.Kernel.Elbo

open Cert.Kernel Cert.Kernel.Gen Idealize.ShloMosaic

variable {F : FTy → Type} [FloatOps F]

/-- The English kernel's running sum after `k` points, from the word ids and the tiles of probabilities. -/
def enAcc (w : Vec F S32x32 .i32) (blk : Fin grid0.N → Vec F S32x32x1280 .f32) : ℕ → Vec F S32x32 .f32
  | 0 => k0_pay1
  | k + 1 => if h : k < grid0.N then k0_pay2 (grid0.coords ⟨k, h⟩) w (blk ⟨k, h⟩) (enAcc w blk k) else enAcc w blk k

/-- The French kernel's running sum after `k` points, from the tiles of probabilities. -/
def frAcc (blk : Fin grid1.N → Vec F S32x32x1024 .f32) : ℕ → Vec F S1x1 .f32
  | 0 => k1_pay1
  | k + 1 => if h : k < grid1.N then k1_pay2 (blk ⟨k, h⟩) (frAcc blk k) else frAcc blk k

end Cert.Kernel.Elbo

end
-- ==== Proof.Kernel.RegionEn.lean ====
/-
  The English region (the first pallas_call): 25 grid points over the tiles of the vocabulary axis, the word ids as one
  whole-array input window, a [1,1] output window stored at the last point only, and a [32,32] scratch that carries the
  running sum of the masked row sums from point to point. The first point zeroes the scratch before it accumulates; every
  point adds its tile's masked row sums; the last point stores the total of the logarithms of the sums. The invariant
  between points says what the scratch holds: after `k` points, the running sum `enAcc … k` of the first `k` tiles
  (before the first point: anything).
-/
import proofs.«410933_j24077586661495_3_alg».proof.Proof.Gen.Kernel.Launch
import proofs.«410933_j24077586661495_3_alg».proof.Proof.Gen.Kernel.Skeleton
import proofs.«410933_j24077586661495_3_alg».proof.Proof.Gen.Kernel.Points
import proofs.«410933_j24077586661495_3_alg».proof.Proof.Kernel.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Elbo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: the tile's, fetched at every point, and
    the word ids', fetched at the first point and kept since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- The body's first condition: the grid coordinate is zero. -/
abbrev enFirst (i : grid0.Coords) : Prop := (Scalar.cmpi .ne (Scalar.extui (Scalar.cmpi .eq (BitVec.ofNat 32 (i 0).val) 0#32)) 0#32) = 1#1
/-- It holds at the first point only, and the second (`k0_cond2`) at the last point only. -/
theorem enFirst_iff : ∀ t : Fin cfg0.N, enFirst (grid0.coords t) ↔ t.val = 0 :=
  (by decide +kernel : ∀ t : Fin grid0.N, enFirst (grid0.coords t) ↔ t.val = 0)
theorem enLast_iff : ∀ t : Fin cfg0.N, k0_cond2 (grid0.coords t) = 1#1 ↔ t.val = 24 :=
  (by decide +kernel : ∀ t : Fin grid0.N, k0_cond2 (grid0.coords t) = 1#1 ↔ t.val = 24)

theorem hzOut : (![0, 0] : Fin S1x1.rank → Nat) = fun _ => 0 := by
  funext a; match a with | ⟨0, _⟩ => rfl | ⟨1, _⟩ => rfl
theorem hz32 : (![0, 0] : Fin S32x32.rank → Nat) = fun _ => 0 := by
  funext a; match a with | ⟨0, _⟩ => rfl | ⟨1, _⟩ => rfl
theorem hzEn : (![0, 0, 0] : Fin S32x32x1280.rank → Nat) = fun _ => 0 := by
  funext a; match a with | ⟨0, _⟩ => rfl | ⟨1, _⟩ => rfl | ⟨2, _⟩ => rfl

/-! ## The body on whole memrefs, case by case

`x0` is the tile, `w` the word ids, `o` what the output's buffer holds, `a` what the scratch holds. At the first point
the scratch is zeroed and then accumulated into; at the others it is accumulated into as found; at the last the total
of the logarithms of the sums is stored. -/

set_option maxHeartbeats 1000000 in
theorem enKernelFirst (c : Dev nD) (E : Set ℕ) (i : grid0.Coords) (arg1 : Memref sig .tc .vmem S32x32x1280 .f32) (harg1 : arg1.IsWhole)
    (arg2 : Memref sig .tc .vmem S32x32 .i32) (harg2 : arg2.IsWhole) (arg3 : Memref sig .tc .vmem S1x1 .f32) (harg3 : arg3.IsWhole)
    (arg4 : Memref sig .tc .vmem S32x32 .f32) (harg4 : arg4.IsWhole)
    (hc1 : enFirst i) (hc2 : ¬ k0_cond2 i = 1#1)
    (x0 : Vec F S32x32x1280 .f32) (w : Vec F S32x32 .i32) (o : Vec F S1x1 .f32) (a : Vec F S32x32 .f32) (K : PUnit → sProp 𝕄) :
    iprop(owns (c : Thread nD τ) arg1 fullShare x0 ∗ owns (c : Thread nD τ) arg2 fullShare w ∗ owns (c : Thread nD τ) arg3 fullShare o
        ∗ owns (c : Thread nD τ) arg4 fullShare a
        ∗ (iprop(owns (c : Thread nD τ) arg1 fullShare x0 ∗ owns (c : Thread nD τ) arg2 fullShare w
            ∗ owns (c : Thread nD τ) arg3 fullShare (o)
            ∗ owns (c : Thread nD τ) arg4 fullShare (k0_pay2 i w x0 (k0_pay1 (F := F)))) -∗ K ⟨⟩))
      ⊢ wp frame (wpE (defs₀ (F := F)) Variants.none c none) E (cc0__en_kernel i arg1 harg1 arg2 harg2 arg3 harg3 arg4 harg4) K := by
  simp only [cc0__en_kernel_eq_skeleton]; unfold cc0__en_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  sl_unfold_words
  rw [View.read_writes_eq_canon _ _ _ (fun y => ⟨_, List.mem_cons_self, View.mem_set_unit_zero (S := S32x32) hz32 inb_S32x32_S32x32_0_0 y⟩), View.canon_cons_unit_zero (S := S32x32) hz32]
  simp only [View.readCov_unit_zero (S := S32x32) _ hz32, View.readAt_eq_ld, harg1.read_unread, harg2.read_unread, harg4.read_unread, View.ld_unit_zero (S := S32x32x1280) hzEn, View.ld_unit_zero (S := S32x32) hz32]

set_option maxHeartbeats 1000000 in
theorem enKernelMid (c : Dev nD) (E : Set ℕ) (i : grid0.Coords) (arg1 : Memref sig .tc .vmem S32x32x1280 .f32) (harg1 : arg1.IsWhole)
    (arg2 : Memref sig .tc .vmem S32x32 .i32) (harg2 : arg2.IsWhole) (arg3 : Memref sig .tc .vmem S1x1 .f32) (harg3 : arg3.IsWhole)
    (arg4 : Memref sig .tc .vmem S32x32 .f32) (harg4 : arg4.IsWhole)
    (hc1 : ¬ enFirst i) (hc2 : ¬ k0_cond2 i = 1#1)
    (x0 : Vec F S32x32x1280 .f32) (w : Vec F S32x32 .i32) (o : Vec F S1x1 .f32) (a : Vec F S32x32 .f32) (K : PUnit → sProp 𝕄) :
    iprop(owns (c : Thread nD τ) arg1 fullShare x0 ∗ owns (c : Thread nD τ) arg2 fullShare w ∗ owns (c : Thread nD τ) arg3 fullShare o
        ∗ owns (c : Thread nD τ) arg4 fullShare a
        ∗ (iprop(owns (c : Thread nD τ) arg1 fullShare x0 ∗ owns (c : Thread nD τ) arg2 fullShare w
            ∗ owns (c : Thread nD τ) arg3 fullShare (o)
            ∗ owns (c : Thread nD τ) arg4 fullShare (k0_pay2 i w x0 a)) -∗ K ⟨⟩))
      ⊢ wp frame (wpE (defs₀ (F := F)) Variants.none c none) E (cc0__en_kernel i arg1 harg1 arg2 harg2 arg3 harg3 arg4 harg4) K := by
  simp only [cc0__en_kernel_eq_skeleton]; unfold cc0__en_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  sl_unfold_words
  rw [View.read_writes_eq_canon _ _ _ (fun y => ⟨_, List.mem_cons_self, View.mem_set_unit_zero (S := S32x32) hz32 inb_S32x32_S32x32_0_0 y⟩), View.canon_cons_unit_zero (S := S32x32) hz32]
  simp only [View.readCov_unit_zero (S := S32x32) _ hz32, View.readAt_eq_ld, harg1.read_unread, harg2.read_unread, harg4.read_unread, View.ld_unit_zero (S := S32x32x1280) hzEn, View.ld_unit_zero (S := S32x32) hz32]

set_option maxHeartbeats 1000000 in
theorem enKernelLast (c : Dev nD) (E : Set ℕ) (i : grid0.Coords) (arg1 : Memref sig .tc .vmem S32x32x1280 .f32) (harg1 : arg1.IsWhole)
    (arg2 : Memref sig .tc .vmem S32x32 .i32) (harg2 : arg2.IsWhole) (arg3 : Memref sig .tc .vmem S1x1 .f32) (harg3 : arg3.IsWhole)
    (arg4 : Memref sig .tc .vmem S32x32 .f32) (harg4 : arg4.IsWhole)
    (hc1 : ¬ enFirst i) (hc2 : k0_cond2 i = 1#1)
    (x0 : Vec F S32x32x1280 .f32) (w : Vec F S32x32 .i32) (o : Vec F S1x1 .f32) (a : Vec F S32x32 .f32) (K : PUnit → sProp 𝕄) :
    iprop(owns (c : Thread nD τ) arg1 fullShare x0 ∗ owns (c : Thread nD τ) arg2 fullShare w ∗ owns (c : Thread nD τ) arg3 fullShare o
        ∗ owns (c : Thread nD τ) arg4 fullShare a
        ∗ (iprop(owns (c : Thread nD τ) arg1 fullShare x0 ∗ owns (c : Thread nD τ) arg2 fullShare w
            ∗ owns (c : Thread nD τ) arg3 fullShare (k0_pay3 (k0_pay2 i w x0 a))
            ∗ owns (c : Thread nD τ) arg4 fullShare (k0_pay2 i w x0 a)) -∗ K ⟨⟩))
      ⊢ wp frame (wpE (defs₀ (F := F)) Variants.none c none) E (cc0__en_kernel i arg1 harg1 arg2 harg2 arg3 harg3 arg4 harg4) K := by
  simp only [cc0__en_kernel_eq_skeleton]; unfold cc0__en_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (fun y => ⟨_, List.mem_cons_self, View.mem_set_unit_zero (S := S1x1) hzOut inb_S1x1_S1x1_0_0 y⟩), View.canon_cons_unit_zero (S := S1x1) hzOut]
    simp only [View.readCov_unit_zero (S := S32x32) _ hz32, View.readAt_eq_ld, harg1.read_unread, harg2.read_unread, harg4.read_unread, View.ld_unit_zero (S := S32x32x1280) hzEn, View.ld_unit_zero (S := S32x32) hz32]
  iexists _; isplitr
  swap; · iexact H3
  ipureintro
  sl_unfold_words
  rw [View.read_writes_eq_canon _ _ _ (fun y => ⟨_, List.mem_cons_self, View.mem_set_unit_zero (S := S32x32) hz32 inb_S32x32_S32x32_0_0 y⟩), View.canon_cons_unit_zero (S := S32x32) hz32]
  simp only [View.readCov_unit_zero (S := S32x32) _ hz32, View.readAt_eq_ld, harg1.read_unread, harg2.read_unread, harg4.read_unread, View.ld_unit_zero (S := S32x32x1280) hzEn, View.ld_unit_zero (S := S32x32) hz32]

/-! ## The running sum, and the proof data -/

/-- The tiles as the region finds them. -/
def enBlk (c : Dev nD) : Fin grid0.N → Vec F S32x32x1280 .f32 := fun t => iblk0 V c 0 t

/-- The word ids as the region finds them. -/
def enW (c : Dev nD) : Vec F S32x32 .i32 := iblk0 V c 1 ⟨0, by decide⟩

/-- The word ids' window is the whole array at every point. -/
theorem iblk0_1_const (c : Dev nD) (t : Fin cfg0.N) : iblk0 V c 1 t = enW V c := rfl

theorem enAcc_step (w : Vec F S32x32 .i32) (blk : Fin grid0.N → Vec F S32x32x1280 .f32) (t : Fin grid0.N) :
    enAcc w blk (t.val + 1) = k0_pay2 (grid0.coords t) w (blk t) (enAcc w blk t.val) := by
  show (if h : t.val < grid0.N then k0_pay2 (grid0.coords ⟨t.val, h⟩) w (blk ⟨t.val, h⟩) (enAcc w blk t.val) else enAcc w blk t.val) = _
  rw [dif_pos t.isLt]

/-- The scratch. -/
abbrev enScratch : Memref sig .tc .vmem S32x32 .f32 := Memref.whole cc0_scratch0

/-- The invariant after `k` points: the scratch holds the running sum of the first `k` tiles (anything before the
    first), beside the core's other scoped buffers, untouched. -/
def enΦ (c : Dev nD) (k : ℕ) : sProp 𝕄 :=
  iprop((∃ X, ⌜k ≠ 0 → X = enAcc (enW V c) (enBlk V c) k⌝ ∗ owns (c : Thread nD τ) enScratch fullShare X)
    ∗ Pipeline.scopedRestBut (Ix := Unit) (Name := ℕ) (U := UR sig nD τ) (Lvl := ℕ) (Val := Elt F) spec0 c [cc0_scratch0])

/-- The region's proof data on core `c`. -/
def enDat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (enAcc (enW V c) (enBlk V c) 25)
  Φ k := enΦ V c k.val
  q _ := fullShare
  owed _ := 0

theorem enA_eq (c : Dev nD) (w : Fin cfg0.W) : (enDat V c).A w = V c (Pipeline.arrRef spec0 w) := by
  dsimp only [enDat]
theorem enAfter_0 (c : Dev nD) (t : Fin cfg0.N) : (enDat V c).after 0 t = iblk0 V c 0 t := by dsimp only [enDat]
theorem enAfter_1 (c : Dev nD) (t : Fin cfg0.N) : (enDat V c).after 1 t = iblk0 V c 1 t := by dsimp only [enDat]
theorem enAfter_2 (c : Dev nD) (t : Fin cfg0.N) : (enDat V c).after 2 t = k0_pay3 (enAcc (enW V c) (enBlk V c) 25) := by
  dsimp only [enDat]
theorem enBefore_0 (c : Dev nD) (t : Fin cfg0.N) (d) : (enDat V c).before 0 t d = iblk0 V c 0 t :=
  before0_0_of V (enDat V c) (enA_eq V c 0) (enAfter_0 V c) t d
theorem enBefore_1 (c : Dev nD) (t : Fin cfg0.N) (d) : (enDat V c).before 1 t d = iblk0 V c 1 t :=
  before0_1_of V (enDat V c) (enA_eq V c 1) (enAfter_1 V c) t d

/-! ## The body obligation -/

/-- A point other than the last: the output's buffer comes back as found. -/
theorem enSoundNotLast (c : Dev nD) (t : Fin cfg0.N) (hl : t.val ≠ 24) :
    iprop((enDat V c).Φ t.castSucc ∗ (enDat V c).owesAt () t.castSucc
        ∗ (∃ d, owns (c : Thread nD τ) (st0_0 t) fullShare ((enDat V c).before 0 t d))
        ∗ (∃ d, owns (c : Thread nD τ) (st0_1 t) fullShare ((enDat V c).before 1 t d))
        ∗ (∃ d, owns (c : Thread nD τ) (st0_2 t) fullShare ((enDat V c).before 2 t d)))
      ⊢ wp frame (wpE (defs₀ (F := F)) Variants.none c none) Set.univ (bodyAt0 t) (fun _ =>
          iprop((enDat V c).Φ t.succ ∗ (enDat V c).owesAt () t.succ
            ∗ owns (c : Thread nD τ) (st0_0 t) fullShare ((enDat V c).after 0 t)
            ∗ owns (c : Thread nD τ) (st0_1 t) fullShare ((enDat V c).after 1 t)
            ∗ (∃ d, owns (c : Thread nD τ) (st0_2 t) fullShare ((enDat V c).before 2 t d)))) := by
  unfold bodyAt0
  simp only [enBefore_0, enBefore_1]
  rw [show (enDat V c).Φ t.succ = enΦ V c (t.val + 1) from rfl, show (enDat V c).Φ t.castSucc = enΦ V c t.val from rfl,
    show (enDat V c).owesAt () t.succ = (enDat V c).owesAt () t.castSucc from rfl, enAfter_0, enAfter_1]
  unfold enΦ
  iintro ⟨⟨⟨%X, %hX, Hs⟩, Hrest⟩, Ho, ⟨%d0, H0⟩, ⟨%d1, H1⟩, ⟨%d2, H2⟩⟩
  have hnl : ¬ k0_cond2 (grid0.coords t) = 1#1 := fun h => hl ((enLast_iff t).mp h)
  by_cases h0 : t.val = 0
  · iapply (enKernelFirst c Set.univ _ _ _ _ _ _ _ _ _ ((enFirst_iff t).mpr h0) hnl (iblk0 V c 0 t) (iblk0 V c 1 t) _ X _)
    isplitl [H0]; · iexact H0
    isplitl [H1]; · iexact H1
    isplitl [H2]; · iexact H2
    isplitl [Hs]; · iexact Hs
    iintro ⟨H0, H1, H2, Hs⟩
    isplitl [Hs Hrest]
    · isplitl [Hs]
      · iexists _; isplitr
        swap; · iexact Hs
        ipureintro; intro _
        have e : enAcc (enW V c) (enBlk V c) t.val = k0_pay1 (F := F) := by rw [h0]; rfl
        rw [enAcc_step, e, iblk0_1_const]; rfl
      · iexact Hrest
    isplitl [Ho]; · iexact Ho
    isplitl [H0]; · iexact H0
    isplitl [H1]; · iexact H1
    iexists _; iexact H2
  · iapply (enKernelMid c Set.univ _ _ _ _ _ _ _ _ _ (fun h => h0 ((enFirst_iff t).mp h)) hnl (iblk0 V c 0 t) (iblk0 V c 1 t) _ X _)
    isplitl [H0]; · iexact H0
    isplitl [H1]; · iexact H1
    isplitl [H2]; · iexact H2
    isplitl [Hs]; · iexact Hs
    iintro ⟨H0, H1, H2, Hs⟩
    isplitl [Hs Hrest]
    · isplitl [Hs]
      · iexists _; isplitr
        swap; · iexact Hs
        ipureintro; intro _
        rw [enAcc_step, hX h0, iblk0_1_const]; rfl
      · iexact Hrest
    isplitl [Ho]; · iexact Ho
    isplitl [H0]; · iexact H0
    isplitl [H1]; · iexact H1
    iexists _; iexact H2

/-- The last point: the output's buffer holds the total of the logarithms of the 25 tiles' sums. -/
theorem enSoundLast (c : Dev nD) (t : Fin cfg0.N) (hl : t.val = 24) :
    iprop((enDat V c).Φ t.castSucc ∗ (enDat V c).owesAt () t.castSucc
        ∗ (∃ d, owns (c : Thread nD τ) (st0_0 t) fullShare ((enDat V c).before 0 t d))
        ∗ (∃ d, owns (c : Thread nD τ) (st0_1 t) fullShare ((enDat V c).before 1 t d))
        ∗ (∃ d, owns (c : Thread nD τ) (st0_2 t) fullShare ((enDat V c).before 2 t d)))
      ⊢ wp frame (wpE (defs₀ (F := F)) Variants.none c none) Set.univ (bodyAt0 t) (fun _ =>
          iprop((enDat V c).Φ t.succ ∗ (enDat V c).owesAt () t.succ
            ∗ owns (c : Thread nD τ) (st0_0 t) fullShare ((enDat V c).after 0 t)
            ∗ owns (c : Thread nD τ) (st0_1 t) fullShare ((enDat V c).after 1 t)
            ∗ owns (c : Thread nD τ) (st0_2 t) fullShare ((enDat V c).after 2 t))) := by
  unfold bodyAt0
  simp only [enBefore_0, enBefore_1]
  rw [show (enDat V c).Φ t.succ = enΦ V c (t.val + 1) from rfl, show (enDat V c).Φ t.castSucc = enΦ V c t.val from rfl,
    show (enDat V c).owesAt () t.succ = (enDat V c).owesAt () t.castSucc from rfl, enAfter_0, enAfter_1, enAfter_2]
  unfold enΦ
  iintro ⟨⟨⟨%X, %hX, Hs⟩, Hrest⟩, Ho, ⟨%d0, H0⟩, ⟨%d1, H1⟩, ⟨%d2, H2⟩⟩
  have h0 : t.val ≠ 0 := by omega
  have e25 : k0_pay2 (grid0.coords t) (iblk0 V c 1 t) (iblk0 V c 0 t) X = enAcc (enW V c) (enBlk V c) 25 := by
    have hs := enAcc_step (enW V c) (enBlk V c) t
    have h25 : t.val + 1 = 25 := by omega
    rw [h25] at hs
    rw [hs, hX h0, iblk0_1_const]; rfl
  iapply (enKernelLast c Set.univ _ _ _ _ _ _ _ _ _ (fun h => h0 ((enFirst_iff t).mp h)) ((enLast_iff t).mpr hl) (iblk0 V c 0 t) (iblk0 V c 1 t) _ X _)
  isplitl [H0]; · iexact H0
  isplitl [H1]; · iexact H1
  isplitl [H2]; · iexact H2
  isplitl [Hs]; · iexact Hs
  rw [e25]
  iintro ⟨H0, H1, H2, Hs⟩
  isplitl [Hs Hrest]
  · isplitl [Hs]
    · iexists _; isplitr
      swap; · iexact Hs
      ipureintro; intro _
      rw [hl]
    · iexact Hrest
  isplitl [Ho]; · iexact Ho
  isplitl [H0]; · iexact H0
  isplitl [H1]; · iexact H1
  iexact H2

/-- The library's body obligation, at every point: the output window is idle but at the last point. -/
theorem enBodyObligation (c : Dev nD) : BodyObligation (enDat (F := F) V c) (defs₀ (F := F)) Variants.none () Set.univ := fun t => by
  rw [bigSep_W0, bigSep_W0]
  by_cases hl : t.val = 24
  · have hid : idle0 2 (grid0.coords t) = false := by
      show (!(k0_cond2 (grid0.coords t) == 1#1)) = false
      rw [(enLast_iff t).mpr hl]; rfl
    simp only [hid]
    exact enSoundLast V c t hl
  · have hid : idle0 2 (grid0.coords t) = true := by
      show (!(k0_cond2 (grid0.coords t) == 1#1)) = true
      have : ¬ k0_cond2 (grid0.coords t) = 1#1 := fun h => hl ((enLast_iff t).mp h)
      simp [this]
    have hfl : (win0 2).flush t = false := by
      have h1 := flush0_2 t
      have hN := N_0
      have ht : t.val < grid0.N := t.isLt
      cases h : (win0 2).flush t
      · rfl
      · exfalso; have := h1.mp h; omega
    simp only [hid, hfl]
    exact enSoundNotLast V c t hl

/-! ## Into the invariant and out of it -/

theorem enScopedSplit (c : Dev nD) :
    (Pipeline.scopedRest (Ix := Unit) (Name := ℕ) (U := UR sig nD τ) (Lvl := ℕ) (Val := Elt F) spec0 c : sProp 𝕄)
      = iprop((∃ X, owns (c : Thread nD τ) enScratch fullShare X)
          ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [bigSepL, owns_whole]
  rfl

theorem enΦ_in (c : Dev nD) :
    (Pipeline.scopedRest (Ix := Unit) (Name := ℕ) (U := UR sig nD τ) (Lvl := ℕ) (Val := Elt F) spec0 c : sProp 𝕄) ⊢ (enDat V c).Φ 0 := by
  rw [enScopedSplit, show (enDat V c).Φ 0 = enΦ V c 0 from rfl]; unfold enΦ
  iintro ⟨⟨%X, Hs⟩, Hr⟩
  isplitl [Hs]
  · iexists X; isplitr; · ipureintro; intro h; exact absurd rfl h
    iexact Hs
  iexact Hr

theorem enΦ_out (c : Dev nD) :
    (enDat V c).Φ (Fin.last cfg0.N) ⊢ (Pipeline.scopedRest (Ix := Unit) (Name := ℕ) (U := UR sig nD τ) (Lvl := ℕ) (Val := Elt F) spec0 c : sProp 𝕄) := by
  rw [enScopedSplit, show (enDat V c).Φ (Fin.last cfg0.N) = enΦ V c (Fin.last cfg0.N).val from rfl]; unfold enΦ
  iintro ⟨⟨%X, -, Hs⟩, Hr⟩
  isplitl [Hs]
  · iexists X; iexact Hs
  iexact Hr

end Cert.Kernel.Elbo

end
-- ==== Proof.Kernel.RegionFr.lean ====
/-
  The French region (the second pallas_call): four grid points over the tiles of the French axis, a [1,1] output window
  stored at the last point only, and a [1,1] scratch that carries the running sum from point to point. The first point
  zeroes the scratch before it accumulates; every point adds its tile's total; the last point copies the sum out. The
  invariant between points says what the scratch holds: after `k` points, the running sum `frAcc … k` of the first `k`
  tiles (before the first point: anything).
-/
import proofs.«410933_j24077586661495_3_alg».proof.Proof.Gen.Kernel.Launch
import proofs.«410933_j24077586661495_3_alg».proof.Proof.Gen.Kernel.Skeleton
import proofs.«410933_j24077586661495_3_alg».proof.Proof.Gen.Kernel.Points
import proofs.«410933_j24077586661495_3_alg».proof.Proof.Kernel.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Elbo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The body's first condition: the grid coordinate is zero. -/
abbrev frFirst (i : grid1.Coords) : Prop := (Scalar.cmpi .ne (Scalar.extui (Scalar.cmpi .eq (BitVec.ofNat 32 (i 0).val) 0#32)) 0#32) = 1#1
/-- It holds at the first point only, and the second (`k1_cond2`) at the last point only. -/
theorem frFirst_iff : ∀ t : Fin cfg1.N, frFirst (grid1.coords t) ↔ t.val = 0 :=
  (by decide +kernel : ∀ t : Fin grid1.N, frFirst (grid1.coords t) ↔ t.val = 0)
theorem frLast_iff : ∀ t : Fin cfg1.N, k1_cond2 (grid1.coords t) = 1#1 ↔ t.val = 3 :=
  (by decide +kernel : ∀ t : Fin grid1.N, k1_cond2 (grid1.coords t) = 1#1 ↔ t.val = 3)

theorem hz11 : (![0, 0] : Fin S1x1.rank → Nat) = fun _ => 0 := by
  funext a; match a with | ⟨0, _⟩ => rfl | ⟨1, _⟩ => rfl
theorem hzFr : (![0, 0, 0] : Fin S32x32x1024.rank → Nat) = fun _ => 0 := by
  funext a; match a with | ⟨0, _⟩ => rfl | ⟨1, _⟩ => rfl | ⟨2, _⟩ => rfl

/-! ## The body on whole memrefs, case by case

`x0` is the tile, `o` what the output's buffer holds, `a` what the scratch holds. At the first point the scratch is
zeroed and then accumulated into; at the others it is accumulated into as found; at the last the sum is copied out. -/

set_option maxHeartbeats 1000000 in
theorem frKernelFirst (c : Dev nD) (E : Set ℕ) (i : grid1.Coords) (arg1 : Memref sig .tc .vmem S32x32x1024 .f32) (harg1 : arg1.IsWhole)
    (arg2 : Memref sig .tc .vmem S1x1 .f32) (harg2 : arg2.IsWhole) (arg3 : Memref sig .tc .vmem S1x1 .f32) (harg3 : arg3.IsWhole)
    (hc1 : frFirst i) (hc2 : ¬ k1_cond2 i = 1#1)
    (x0 : Vec F S32x32x1024 .f32) (o a : Vec F S1x1 .f32) (K : PUnit → sProp 𝕄) :
    iprop(owns (c : Thread nD τ) arg1 fullShare x0 ∗ owns (c : Thread nD τ) arg2 fullShare o ∗ owns (c : Thread nD τ) arg3 fullShare a
        ∗ (iprop(owns (c : Thread nD τ) arg1 fullShare x0 ∗ owns (c : Thread nD τ) arg2 fullShare (o)
            ∗ owns (c : Thread nD τ) arg3 fullShare (k1_pay2 x0 (k1_pay1 (F := F)))) -∗ K ⟨⟩))
      ⊢ wp frame (wpE (defs₀ (F := F)) Variants.none c none) E (cc1__fr_kernel i arg1 harg1 arg2 harg2 arg3 harg3) K := by
  simp only [cc1__fr_kernel_eq_skeleton]; unfold cc1__fr_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr
    swap; · iexact H1
    ipureintro
    exact harg2.read_unread _
  iexists _; isplitr
  swap; · iexact H2
  ipureintro
  sl_unfold_words
  rw [View.read_writes_eq_canon _ _ _ (fun y => ⟨_, List.mem_cons_self, View.mem_set_unit_zero (S := S1x1) hz11 inb_S1x1_S1x1_0_0 y⟩), View.canon_cons_unit_zero (S := S1x1) hz11]
  simp only [View.readCov_unit_zero (S := S1x1) _ hz11, View.readAt_eq_ld, harg1.read_unread, harg3.read_unread, View.ld_unit_zero (S := S32x32x1024) hzFr, View.ld_unit_zero (S := S1x1) hz11]

set_option maxHeartbeats 1000000 in
theorem frKernelMid (c : Dev nD) (E : Set ℕ) (i : grid1.Coords) (arg1 : Memref sig .tc .vmem S32x32x1024 .f32) (harg1 : arg1.IsWhole)
    (arg2 : Memref sig .tc .vmem S1x1 .f32) (harg2 : arg2.IsWhole) (arg3 : Memref sig .tc .vmem S1x1 .f32) (harg3 : arg3.IsWhole)
    (hc1 : ¬ frFirst i) (hc2 : ¬ k1_cond2 i = 1#1)
    (x0 : Vec F S32x32x1024 .f32) (o a : Vec F S1x1 .f32) (K : PUnit → sProp 𝕄) :
    iprop(owns (c : Thread nD τ) arg1 fullShare x0 ∗ owns (c : Thread nD τ) arg2 fullShare o ∗ owns (c : Thread nD τ) arg3 fullShare a
        ∗ (iprop(owns (c : Thread nD τ) arg1 fullShare x0 ∗ owns (c : Thread nD τ) arg2 fullShare (o)
            ∗ owns (c : Thread nD τ) arg3 fullShare (k1_pay2 x0 a)) -∗ K ⟨⟩))
      ⊢ wp frame (wpE (defs₀ (F := F)) Variants.none c none) E (cc1__fr_kernel i arg1 harg1 arg2 harg2 arg3 harg3) K := by
  simp only [cc1__fr_kernel_eq_skeleton]; unfold cc1__fr_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr
    swap; · iexact H1
    ipureintro
    exact harg2.read_unread _
  iexists _; isplitr
  swap; · iexact H2
  ipureintro
  sl_unfold_words
  rw [View.read_writes_eq_canon _ _ _ (fun y => ⟨_, List.mem_cons_self, View.mem_set_unit_zero (S := S1x1) hz11 inb_S1x1_S1x1_0_0 y⟩), View.canon_cons_unit_zero (S := S1x1) hz11]
  simp only [View.readCov_unit_zero (S := S1x1) _ hz11, View.readAt_eq_ld, harg1.read_unread, harg3.read_unread, View.ld_unit_zero (S := S32x32x1024) hzFr, View.ld_unit_zero (S := S1x1) hz11]

set_option maxHeartbeats 1000000 in
theorem frKernelLast (c : Dev nD) (E : Set ℕ) (i : grid1.Coords) (arg1 : Memref sig .tc .vmem S32x32x1024 .f32) (harg1 : arg1.IsWhole)
    (arg2 : Memref sig .tc .vmem S1x1 .f32) (harg2 : arg2.IsWhole) (arg3 : Memref sig .tc .vmem S1x1 .f32) (harg3 : arg3.IsWhole)
    (hc1 : ¬ frFirst i) (hc2 : k1_cond2 i = 1#1)
    (x0 : Vec F S32x32x1024 .f32) (o a : Vec F S1x1 .f32) (K : PUnit → sProp 𝕄) :
    iprop(owns (c : Thread nD τ) arg1 fullShare x0 ∗ owns (c : Thread nD τ) arg2 fullShare o ∗ owns (c : Thread nD τ) arg3 fullShare a
        ∗ (iprop(owns (c : Thread nD τ) arg1 fullShare x0 ∗ owns (c : Thread nD τ) arg2 fullShare (k1_pay2 x0 a)
            ∗ owns (c : Thread nD τ) arg3 fullShare (k1_pay2 x0 a)) -∗ K ⟨⟩))
      ⊢ wp frame (wpE (defs₀ (F := F)) Variants.none c none) E (cc1__fr_kernel i arg1 harg1 arg2 harg2 arg3 harg3) K := by
  simp only [cc1__fr_kernel_eq_skeleton]; unfold cc1__fr_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (fun y => ⟨_, List.mem_cons_self, View.mem_set_unit_zero (S := S1x1) hz11 inb_S1x1_S1x1_0_0 y⟩), View.canon_cons_unit_zero (S := S1x1) hz11]
    simp only [View.readCov_unit_zero (S := S1x1) _ hz11, View.readAt_eq_ld, harg1.read_unread, harg3.read_unread, View.ld_unit_zero (S := S32x32x1024) hzFr, View.ld_unit_zero (S := S1x1) hz11]
  iexists _; isplitr
  swap; · iexact H2
  ipureintro
  sl_unfold_words
  rw [View.read_writes_eq_canon _ _ _ (fun y => ⟨_, List.mem_cons_self, View.mem_set_unit_zero (S := S1x1) hz11 inb_S1x1_S1x1_0_0 y⟩), View.canon_cons_unit_zero (S := S1x1) hz11]
  simp only [View.readCov_unit_zero (S := S1x1) _ hz11, View.readAt_eq_ld, harg1.read_unread, harg3.read_unread, View.ld_unit_zero (S := S32x32x1024) hzFr, View.ld_unit_zero (S := S1x1) hz11]

/-! ## The running sum, and the proof data -/

/-- The tiles as the region finds them. -/
def frBlk (c : Dev nD) : Fin grid1.N → Vec F S32x32x1024 .f32 := fun t => iblk1 V c 0 t

theorem frAcc_step (blk : Fin grid1.N → Vec F S32x32x1024 .f32) (t : Fin grid1.N) :
    frAcc blk (t.val + 1) = k1_pay2 (blk t) (frAcc blk t.val) := by
  show (if h : t.val < grid1.N then k1_pay2 (blk ⟨t.val, h⟩) (frAcc blk t.val) else frAcc blk t.val) = _
  rw [dif_pos t.isLt]

/-- The scratch. -/
abbrev frScratch : Memref sig .tc .vmem S1x1 .f32 := Memref.whole cc1_scratch0

/-- The invariant after `k` points: the scratch holds the running sum of the first `k` tiles (anything before the
    first), beside the core's other scoped buffers, untouched. -/
def frΦ (c : Dev nD) (k : ℕ) : sProp 𝕄 :=
  iprop((∃ X, ⌜k ≠ 0 → X = frAcc (frBlk V c) k⌝ ∗ owns (c : Thread nD τ) frScratch fullShare X)
    ∗ Pipeline.scopedRestBut (Ix := Unit) (Name := ℕ) (U := UR sig nD τ) (Lvl := ℕ) (Val := Elt F) spec1 c [cc1_scratch0])

/-- The region's proof data on core `c`. -/
def frDat (c : Dev nD) : Dat τ (Elt F) Unit ℕ (UR sig nD τ) ℕ cfg1 c where
  A w := V c (Pipeline.arrRef spec1 w)
  after w t := match w with
    | ⟨0, _⟩ => iblk1 V c 0 t
    | ⟨1, _⟩ => frAcc (frBlk V c) 4
  Φ k := frΦ V c k.val
  q _ := fullShare
  owed _ := 0

theorem frA_eq (c : Dev nD) (w : Fin cfg1.W) : (frDat V c).A w = V c (Pipeline.arrRef spec1 w) := by
  dsimp only [frDat]
theorem frAfter_0 (c : Dev nD) (t : Fin cfg1.N) : (frDat V c).after 0 t = iblk1 V c 0 t := by dsimp only [frDat]
theorem frAfter_1 (c : Dev nD) (t : Fin cfg1.N) : (frDat V c).after 1 t = frAcc (frBlk V c) 4 := by dsimp only [frDat]
theorem frBefore_0 (c : Dev nD) (t : Fin cfg1.N) (d) : (frDat V c).before 0 t d = iblk1 V c 0 t :=
  before1_0_of V (frDat V c) (frA_eq V c 0) (frAfter_0 V c) t d

/-! ## The body obligation -/

/-- A point other than the last: the output's buffer comes back as found. -/
theorem frSoundNotLast (c : Dev nD) (t : Fin cfg1.N) (hl : t.val ≠ 3) :
    iprop((frDat V c).Φ t.castSucc ∗ (frDat V c).owesAt () t.castSucc
        ∗ (∃ d, owns (c : Thread nD τ) (st1_0 t) fullShare ((frDat V c).before 0 t d))
        ∗ (∃ d, owns (c : Thread nD τ) (st1_1 t) fullShare ((frDat V c).before 1 t d)))
      ⊢ wp frame (wpE (defs₀ (F := F)) Variants.none c none) Set.univ (bodyAt1 t) (fun _ =>
          iprop((frDat V c).Φ t.succ ∗ (frDat V c).owesAt () t.succ
            ∗ owns (c : Thread nD τ) (st1_0 t) fullShare ((frDat V c).after 0 t)
            ∗ (∃ d, owns (c : Thread nD τ) (st1_1 t) fullShare ((frDat V c).before 1 t d)))) := by
  unfold bodyAt1
  simp only [frBefore_0]
  rw [show (frDat V c).Φ t.succ = frΦ V c (t.val + 1) from rfl, show (frDat V c).Φ t.castSucc = frΦ V c t.val from rfl,
    show (frDat V c).owesAt () t.succ = (frDat V c).owesAt () t.castSucc from rfl, frAfter_0]
  unfold frΦ
  iintro ⟨⟨⟨%X, %hX, Hs⟩, Hrest⟩, Ho, ⟨%d0, H0⟩, ⟨%d1, H1⟩⟩
  have hnl : ¬ k1_cond2 (grid1.coords t) = 1#1 := fun h => hl ((frLast_iff t).mp h)
  by_cases h0 : t.val = 0
  · iapply (frKernelFirst c Set.univ _ _ _ _ _ _ _ ((frFirst_iff t).mpr h0) hnl (iblk1 V c 0 t) _ X _)
    isplitl [H0]; · iexact H0
    isplitl [H1]; · iexact H1
    isplitl [Hs]; · iexact Hs
    iintro ⟨H0, H1, Hs⟩
    isplitl [Hs Hrest]
    · isplitl [Hs]
      · iexists _; isplitr
        swap; · iexact Hs
        ipureintro; intro _
        have e : frAcc (frBlk V c) t.val = k1_pay1 (F := F) := by rw [h0]; rfl
        rw [frAcc_step, e]; rfl
      · iexact Hrest
    isplitl [Ho]; · iexact Ho
    isplitl [H0]; · iexact H0
    iexists _; iexact H1
  · iapply (frKernelMid c Set.univ _ _ _ _ _ _ _ (fun h => h0 ((frFirst_iff t).mp h)) hnl (iblk1 V c 0 t) _ X _)
    isplitl [H0]; · iexact H0
    isplitl [H1]; · iexact H1
    isplitl [Hs]; · iexact Hs
    iintro ⟨H0, H1, Hs⟩
    isplitl [Hs Hrest]
    · isplitl [Hs]
      · iexists _; isplitr
        swap; · iexact Hs
        ipureintro; intro _
        rw [frAcc_step, hX h0]; rfl
      · iexact Hrest
    isplitl [Ho]; · iexact Ho
    isplitl [H0]; · iexact H0
    iexists _; iexact H1

/-- The last point: the output's buffer holds the sum of the four tiles. -/
theorem frSoundLast (c : Dev nD) (t : Fin cfg1.N) (hl : t.val = 3) :
    iprop((frDat V c).Φ t.castSucc ∗ (frDat V c).owesAt () t.castSucc
        ∗ (∃ d, owns (c : Thread nD τ) (st1_0 t) fullShare ((frDat V c).before 0 t d))
        ∗ (∃ d, owns (c : Thread nD τ) (st1_1 t) fullShare ((frDat V c).before 1 t d)))
      ⊢ wp frame (wpE (defs₀ (F := F)) Variants.none c none) Set.univ (bodyAt1 t) (fun _ =>
          iprop((frDat V c).Φ t.succ ∗ (frDat V c).owesAt () t.succ
            ∗ owns (c : Thread nD τ) (st1_0 t) fullShare ((frDat V c).after 0 t)
            ∗ owns (c : Thread nD τ) (st1_1 t) fullShare ((frDat V c).after 1 t))) := by
  unfold bodyAt1
  simp only [frBefore_0]
  rw [show (frDat V c).Φ t.succ = frΦ V c (t.val + 1) from rfl, show (frDat V c).Φ t.castSucc = frΦ V c t.val from rfl,
    show (frDat V c).owesAt () t.succ = (frDat V c).owesAt () t.castSucc from rfl, frAfter_0, frAfter_1]
  unfold frΦ
  iintro ⟨⟨⟨%X, %hX, Hs⟩, Hrest⟩, Ho, ⟨%d0, H0⟩, ⟨%d1, H1⟩⟩
  have h0 : t.val ≠ 0 := by omega
  have e4 : k1_pay2 (iblk1 V c 0 t) X = frAcc (frBlk V c) 4 := by
    have := frAcc_step (frBlk V c) t
    rw [hl] at this
    rw [this, hX h0, hl]; rfl
  iapply (frKernelLast c Set.univ _ _ _ _ _ _ _ (fun h => h0 ((frFirst_iff t).mp h)) ((frLast_iff t).mpr hl) (iblk1 V c 0 t) _ X _)
  isplitl [H0]; · iexact H0
  isplitl [H1]; · iexact H1
  isplitl [Hs]; · iexact Hs
  rw [e4]
  iintro ⟨H0, H1, Hs⟩
  isplitl [Hs Hrest]
  · isplitl [Hs]
    · iexists _; isplitr
      swap; · iexact Hs
      ipureintro; intro _
      rw [hl]
    · iexact Hrest
  isplitl [Ho]; · iexact Ho
  isplitl [H0]; · iexact H0
  iexact H1

/-- The library's body obligation, at every point: the output window is idle but at the last point. -/
theorem frBodyObligation (c : Dev nD) : BodyObligation (frDat (F := F) V c) (defs₀ (F := F)) Variants.none () Set.univ := fun t => by
  rw [bigSep_W1, bigSep_W1]
  by_cases hl : t.val = 3
  · have hid : idle1 1 (grid1.coords t) = false := by
      show (!(k1_cond2 (grid1.coords t) == 1#1)) = false
      rw [(frLast_iff t).mpr hl]; rfl
    simp only [hid]
    exact frSoundLast V c t hl
  · have hid : idle1 1 (grid1.coords t) = true := by
      show (!(k1_cond2 (grid1.coords t) == 1#1)) = true
      have : ¬ k1_cond2 (grid1.coords t) = 1#1 := fun h => hl ((frLast_iff t).mp h)
      simp [this]
    have hfl : (win1 1).flush t = false := by
      have h1 := flush1_1 t
      have hN := N_1
      have ht : t.val < grid1.N := t.isLt
      cases h : (win1 1).flush t
      · rfl
      · exfalso; have := h1.mp h; omega
    simp only [hid, hfl]
    exact frSoundNotLast V c t hl

/-! ## Into the invariant and out of it -/

theorem frScopedSplit (c : Dev nD) :
    (Pipeline.scopedRest (Ix := Unit) (Name := ℕ) (U := UR sig nD τ) (Lvl := ℕ) (Val := Elt F) spec1 c : sProp 𝕄)
      = iprop((∃ X, owns (c : Thread nD τ) frScratch fullShare X)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [bigSepL, owns_whole]
  rfl

theorem frΦ_in (c : Dev nD) :
    (Pipeline.scopedRest (Ix := Unit) (Name := ℕ) (U := UR sig nD τ) (Lvl := ℕ) (Val := Elt F) spec1 c : sProp 𝕄) ⊢ (frDat V c).Φ 0 := by
  rw [frScopedSplit, show (frDat V c).Φ 0 = frΦ V c 0 from rfl]; unfold frΦ
  iintro ⟨⟨%X, Hs⟩, Hr⟩
  isplitl [Hs]
  · iexists X; isplitr; · ipureintro; intro h; exact absurd rfl h
    iexact Hs
  iexact Hr

theorem frΦ_out (c : Dev nD) :
    (frDat V c).Φ (Fin.last cfg1.N) ⊢ (Pipeline.scopedRest (Ix := Unit) (Name := ℕ) (U := UR sig nD τ) (Lvl := ℕ) (Val := Elt F) spec1 c : sProp 𝕄) := by
  rw [frScopedSplit, show (frDat V c).Φ (Fin.last cfg1.N) = frΦ V c (Fin.last cfg1.N).val from rfl]; unfold frΦ
  iintro ⟨⟨%X, -, Hs⟩, Hr⟩
  isplitl [Hs]
  · iexists X; iexact Hs
  iexact Hr

end Cert.Kernel.Elbo

end
-- ==== Proof.Kernel.RegionKl.lean ====
/-
  The Kullback–Leibler region (the third pallas_call): one grid point over two whole-array input windows (the means and
  the standard deviations) and a [1,1] output window. The body loads both arrays, computes the summed term and stores it
  whole; so the output's buffer after the body is that one value, and the region's proof data are the plain ones: the
  arrays as the region finds them, the inputs' buffers at their blocks, the invariant the scoped rest, nothing owed.
-/
import proofs.«410933_j24077586661495_3_alg».proof.Proof.Gen.Kernel.Launch
import proofs.«410933_j24077586661495_3_alg».proof.Proof.Gen.Kernel.Skeleton
import proofs.«410933_j24077586661495_3_alg».proof.Proof.Gen.Kernel.Points
import proofs.«410933_j24077586661495_3_alg».proof.Proof.Kernel.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Elbo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each whole buffer. -/
abbrev rKlIn : Rect S32x32x128 := Rect.unit (s := S32x32x128) ![0, 0, 0] S32x32x128.size inb_S32x32x128_S32x32x128_0_0_0
abbrev rKlOut : Rect S1x1 := Rect.unit (s := S1x1) ![0, 0] S1x1.size inb_S1x1_S1x1_0_0

/-- What the body leaves in the output's buffer, from the two input blocks: its one store. -/
def klOut (x0 x1 : Vec F S32x32x128 .f32) : Vec F S1x1 .f32 :=
  View.canon [⟨rKlOut, k2_pay1 (View.ld x0 rKlIn) (View.ld x1 rKlIn)⟩]

theorem klCover (p0 : Vec F S1x1 .f32) (y : S1x1.Idx) :
    ∃ pc ∈ ([⟨rKlOut, p0⟩] : List (View.Piece (Elt F) S1x1 .f32)), y ∈ pc.1.set :=
  View.cover_of_tiled [⟨rKlOut, p0⟩] S1x1.size (by rfl) y

set_option maxHeartbeats 1000000 in
/-- The body on whole staging memrefs: the inputs come back as they were, the output holds `klOut` of them. -/
theorem klKernel (c : Dev nD) (E : Set ℕ) (i : grid2.Coords) (arg1 : Memref sig .tc .vmem S32x32x128 .f32) (harg1 : arg1.IsWhole)
    (arg2 : Memref sig .tc .vmem S32x32x128 .f32) (harg2 : arg2.IsWhole) (arg3 : Memref sig .tc .vmem S1x1 .f32) (harg3 : arg3.IsWhole)
    (x0 x1 : Vec F S32x32x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (klOut x0 x1)) -∗ K ⟨⟩))
      ⊢ wp frame (wpE (defs₀ (F := F)) Variants.none c none) E (cc2__kl_kernel i arg1 harg1 arg2 harg2 arg3 harg3) K := by
  simp only [cc2__kl_kernel_eq_skeleton]; unfold cc2__kl_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (klCover _)

/-- The region's proof data on core `c`. -/
def klDat (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => klOut (iblk2 V c 0 t) (iblk2 V c 1 t)
  Φ _ := Pipeline.scopedRest (Ix := Unit) (Name := ℕ) (U := UR sig nD τ) (Lvl := ℕ) (Val := Elt F) spec2 c
  q _ := fullShare
  owed _ := 0

theorem klA_eq (c : Dev nD) (w : Fin cfg2.W) : (klDat V c).A w = V c (Pipeline.arrRef spec2 w) := by
  dsimp only [klDat]
theorem klAfter_0 (c : Dev nD) (t : Fin cfg2.N) : (klDat V c).after 0 t = iblk2 V c 0 t := by dsimp only [klDat]
theorem klAfter_1 (c : Dev nD) (t : Fin cfg2.N) : (klDat V c).after 1 t = iblk2 V c 1 t := by dsimp only [klDat]
theorem klAfter_2 (c : Dev nD) (t : Fin cfg2.N) : (klDat V c).after 2 t = klOut (iblk2 V c 0 t) (iblk2 V c 1 t) := by dsimp only [klDat]
theorem klBefore_0 (c : Dev nD) (t : Fin cfg2.N) (d) : (klDat V c).before 0 t d = iblk2 V c 0 t :=
  before2_0_of V (klDat V c) (klA_eq V c 0) (klAfter_0 V c) t d
theorem klBefore_1 (c : Dev nD) (t : Fin cfg2.N) (d) : (klDat V c).before 1 t d = iblk2 V c 1 t :=
  before2_1_of V (klDat V c) (klA_eq V c 1) (klAfter_1 V c) t d

/-- What the body is called with at point `t`, -/
def klBodyPre (c : Dev nD) (t : Fin cfg2.N) : sProp 𝕄 :=
  iprop((klDat V c).Φ t.castSucc ∗ (klDat V c).owesAt () t.castSucc
    ∗ (∃ d, owns (c : Thread nD τ) (st2_0 t) fullShare ((klDat V c).before 0 t d))
    ∗ (∃ d, owns (c : Thread nD τ) (st2_1 t) fullShare ((klDat V c).before 1 t d))
    ∗ (∃ d, owns (c : Thread nD τ) (st2_2 t) fullShare ((klDat V c).before 2 t d)))

/-- and what it returns. -/
def klBodyPost (c : Dev nD) (t : Fin cfg2.N) : sProp 𝕄 :=
  iprop((klDat V c).Φ t.succ ∗ (klDat V c).owesAt () t.succ
    ∗ owns (c : Thread nD τ) (st2_0 t) fullShare ((klDat V c).after 0 t)
    ∗ owns (c : Thread nD τ) (st2_1 t) fullShare ((klDat V c).after 1 t)
    ∗ owns (c : Thread nD τ) (st2_2 t) fullShare ((klDat V c).after 2 t))

theorem klSoundBody (c : Dev nD) (t : Fin cfg2.N) :
    klBodyPre V c t ⊢ wp frame (wpE (defs₀ (F := F)) Variants.none c none) Set.univ (bodyAt2 t) (fun _ => klBodyPost V c t) := by
  unfold klBodyPre klBodyPost bodyAt2
  simp only [klBefore_0, klBefore_1]
  rw [show (klDat V c).Φ t.succ = (klDat V c).Φ t.castSucc from rfl,
    show (klDat V c).owesAt () t.succ = (klDat V c).owesAt () t.castSucc from rfl,
    klAfter_0, klAfter_1, klAfter_2]
  iintro ⟨HΦ, Ho, ⟨%d0, H0⟩, ⟨%d1, H1⟩, ⟨%d2, H2⟩⟩
  iapply (klKernel c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem klBodyObligation (c : Dev nD) : BodyObligation (klDat (F := F) V c) (defs₀ (F := F)) Variants.none () Set.univ := fun t => by
  rw [bigSep_W2, bigSep_W2]
  exact klSoundBody V c t

/-- Into the invariant and out of it: it is the scoped rest itself. -/
theorem klΦ_in (c : Dev nD) :
    (Pipeline.scopedRest (Ix := Unit) (Name := ℕ) (U := UR sig nD τ) (Lvl := ℕ) (Val := Elt F) spec2 c : sProp 𝕄) ⊢ (klDat V c).Φ 0 := .rfl
theorem klΦ_out (c : Dev nD) :
    (klDat V c).Φ (Fin.last cfg2.N) ⊢ (Pipeline.scopedRest (Ix := Unit) (Name := ℕ) (U := UR sig nD τ) (Lvl := ℕ) (Val := Elt F) spec2 c : sProp 𝕄) := .rfl

end Cert.Kernel.Elbo

end
-- ==== Proof.Kernel.Run.lean ====
/-
  The whole program's run, from the launch to the return: three kernel regions (the English, the French and the
  Kullback–Leibler pallas_calls) with a reshape after each, then the final sum and difference. Between two items every
  unscoped buffer of the core is held at named contents: the launch memory, then each region's arrays at what its
  pipeline leaves and each host stretch's results. Every weakly fair execution terminates, and at the end every
  unscoped buffer holds the last of those contents.
-/
import proofs.«410933_j24077586661495_3_alg».proof.Proof.Kernel.RegionEn
import proofs.«410933_j24077586661495_3_alg».proof.Proof.Kernel.RegionFr
import proofs.«410933_j24077586661495_3_alg».proof.Proof.Kernel.RegionKl
set_option maxRecDepth 16384

noncomputable section

namespace Cert.Kernel.Elbo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (enDat (V0 m ρ) c).arrAt w cfg0.N
theorem W1_arr (c : Dev nD) (w : Fin cfg0.W) :
    W1 m ρ c (Proc.devRef .tc (Pipeline.arrRef spec0 w)) = (enDat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (enDat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first reshape. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (frDat (V2 m ρ) c).arrAt w cfg1.N
theorem W3_arr (c : Dev nD) (w : Fin cfg1.W) :
    W3 m ρ c (Proc.devRef .tc (Pipeline.arrRef spec1 w)) = (frDat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (frDat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second reshape. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves, every other buffer as entered. -/
def W5 (c : Dev nD) : Valuation τ sig (Elt F) :=
  Pipeline.withArrays spec2 c (W4 m ρ c) fun w => (klDat (V4 m ρ) c).arrAt w cfg2.N
theorem W5_arr (c : Dev nD) (w : Fin cfg2.W) :
    W5 m ρ c (Proc.devRef .tc (Pipeline.arrRef spec2 w)) = (klDat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (klDat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the third reshape, the sum and the difference: the end. -/
abbrev W6 : Dev nD → Valuation τ sig (Elt F) := fun c => StableHlo.after hostOps3 (W5 m ρ c)

/-! ## The proof data family and the thread state -/

/-- No host operation allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => enDat (V0 m ρ) c
  | ⟨1, _⟩ => fun c => frDat (V2 m ρ) c
  | ⟨2, _⟩ => fun c => klDat (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at the exit contents; the scoped
    rest goes into the region's invariant and comes back out of it; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (enBodyObligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := BI.emp
  Y _ := BI.emp
  Z c := iprop(Pipeline.unscopedRest (Ix := Unit) (Name := ℕ) (U := UR sig nD τ) (Lvl := ℕ) spec0 c (V0 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (enDat (V0 m ρ) c).Φ 0 from rfl]
    iintro ⟨-, -, Hr⟩
    iapply (enΦ_in (V0 m ρ) c)
    iexact Hr
  hout c := by
    rw [Pipeline.ownSems0_none, show (pdats m ρ 0 c).Φ (Fin.last _) = (enDat (V0 m ρ) c).Φ (Fin.last cfg0.N) from rfl]
    iintro Hr
    isplitr; · iempintro
    isplitr; · iempintro
    iapply (enΦ_out (V0 m ρ) c)
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the scoped
    rest goes into the region's invariant and comes back out of it; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (frBodyObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (frDat (V2 m ρ) c).Φ 0 from rfl]
    iintro ⟨-, -, Hr⟩
    iapply (frΦ_in (V2 m ρ) c)
    iexact Hr
  hout c := by
    rw [Pipeline.ownSems0_none, show (pdats m ρ 1 c).Φ (Fin.last _) = (frDat (V2 m ρ) c).Φ (Fin.last cfg1.N) from rfl]
    iintro Hr
    isplitr; · iempintro
    isplitr; · iempintro
    iapply (frΦ_out (V2 m ρ) c)
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the scoped
    rest goes into the region's invariant and comes back out of it; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (klBodyObligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X _ := BI.emp
  Y _ := BI.emp
  Z c := iprop(Pipeline.unscopedRest (Ix := Unit) (Name := ℕ) (U := UR sig nD τ) (Lvl := ℕ) spec2 c (V4 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = (klDat (V4 m ρ) c).Φ 0 from rfl]
    iintro ⟨-, -, Hr⟩
    iapply (klΦ_in (V4 m ρ) c)
    iexact Hr
  hout c := by
    rw [Pipeline.ownSems0_none, show (pdats m ρ 2 c).Φ (Fin.last _) = (klDat (V4 m ρ) c).Φ (Fin.last cfg2.N) from rfl]
    iintro Hr
    isplitr; · iempintro
    isplitr; · iempintro
    iapply (klΦ_out (V4 m ρ) c)
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.Elbo

end
-- ==== Proof.Kernel.RunArgs.lean ====
/-
  The fold of buffer contents through @main, read at the argument arrays.

  No host stretch and no region writes an argument array (a region reads it through an input window or leaves it alone),
  so at every boundary an argument's buffer holds its launch contents. The result is the last host stretch's difference
  of the Kullback–Leibler region's output and the sum of the English and French regions' outputs, each reshaped from
  [1,1] to a scalar.
-/
import proofs.«410933_j24077586661495_3_alg».proof.Proof.Kernel.Run
set_option maxRecDepth 16384

noncomputable section

namespace Cert.Kernel.Elbo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves of a buffer it does not write -/

/-- The first reshape writes `main_v1` only. -/
private theorem writes1 : (hostOps1 : List (HloOp τ sig (Elt F))).Forall fun op =>
    op.writes ⊆ (([main_v1] : List (Ref sig .tc)).map (Proc.devRef (τ := τ) .tc)).toFinset := by
  simp only [List.Forall, StableHlo.reshape_writes, Finset.singleton_subset_iff, List.mem_toFinset]
  exact List.mem_map_of_mem (by decide)
/-- The second reshape writes `main_v3` only. -/
private theorem writes2 : (hostOps2 : List (HloOp τ sig (Elt F))).Forall fun op =>
    op.writes ⊆ (([main_v3] : List (Ref sig .tc)).map (Proc.devRef (τ := τ) .tc)).toFinset := by
  simp only [List.Forall, StableHlo.reshape_writes, Finset.singleton_subset_iff, List.mem_toFinset]
  exact List.mem_map_of_mem (by decide)
/-- The last stretch writes `main_v5`, `main_v6` and `main_v7` only. -/
private theorem writes3 : (hostOps3 : List (HloOp τ sig (Elt F))).Forall fun op =>
    op.writes ⊆ (([main_v5, main_v6, main_v7] : List (Ref sig .tc)).map (Proc.devRef (τ := τ) .tc)).toFinset := by
  simp only [List.Forall, StableHlo.reshape_writes, StableHlo.binary_writes, Finset.singleton_subset_iff, List.mem_toFinset]
  exact ⟨List.mem_map_of_mem (by decide), List.mem_map_of_mem (by decide), List.mem_map_of_mem (by decide)⟩

/-- A host stretch leaves a reference it does not write. -/
private theorem W2_of (c : Dev nD) (r : Ref sig .tc) (h : r ∉ ([main_v1] : List (Ref sig .tc))) :
    W2 m ρ c (Proc.devRef .tc r) = W1 m ρ c (Proc.devRef .tc r) :=
  StableHlo.after_of_writes_sub hostOps1 _ writes1 h
private theorem W4_of (c : Dev nD) (r : Ref sig .tc) (h : r ∉ ([main_v3] : List (Ref sig .tc))) :
    W4 m ρ c (Proc.devRef .tc r) = W3 m ρ c (Proc.devRef .tc r) :=
  StableHlo.after_of_writes_sub hostOps2 _ writes2 h
private theorem W6_of (c : Dev nD) (r : Ref sig .tc) (h : r ∉ ([main_v5, main_v6, main_v7] : List (Ref sig .tc))) :
    W6 m ρ c (Proc.devRef .tc r) = W5 m ρ c (Proc.devRef .tc r) :=
  StableHlo.after_of_writes_sub hostOps3 _ writes3 h

/-- A region leaves the array of an input window as it found it. -/
private theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((enDat (V0 m ρ) c).arrAt_in w hin _).trans (enA_eq (V0 m ρ) c w))
private theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((frDat (V2 m ρ) c).arrAt_in w hin _).trans (frA_eq (V2 m ρ) c w))
private theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((klDat (V4 m ρ) c).arrAt_in w hin _).trans (klA_eq (V4 m ρ) c w))

/-! ## The arguments after each reshape -/

/-- After the first reshape: the English region staged `main_arg4` and `main_arg0` through input windows and has no
    window on the others. -/
private theorem W2_arg0 (c : Dev nD) : W2 m ρ c (Proc.devRef .tc main_arg0) = m ((c : Thread nD τ).loc main_arg0) :=
  (W2_of m ρ c main_arg0 (by decide)).trans (W1_in m ρ c 1 rfl)
private theorem W2_arg1 (c : Dev nD) : W2 m ρ c (Proc.devRef .tc main_arg1) = m ((c : Thread nD τ).loc main_arg1) :=
  (W2_of m ρ c main_arg1 (by decide)).trans (W1_of_ne m ρ c main_arg1 (by decide))
private theorem W2_arg2 (c : Dev nD) : W2 m ρ c (Proc.devRef .tc main_arg2) = m ((c : Thread nD τ).loc main_arg2) :=
  (W2_of m ρ c main_arg2 (by decide)).trans (W1_of_ne m ρ c main_arg2 (by decide))
private theorem W2_arg3 (c : Dev nD) : W2 m ρ c (Proc.devRef .tc main_arg3) = m ((c : Thread nD τ).loc main_arg3) :=
  (W2_of m ρ c main_arg3 (by decide)).trans (W1_of_ne m ρ c main_arg3 (by decide))
private theorem W2_arg4 (c : Dev nD) : W2 m ρ c (Proc.devRef .tc main_arg4) = m ((c : Thread nD τ).loc main_arg4) :=
  (W2_of m ρ c main_arg4 (by decide)).trans (W1_in m ρ c 0 rfl)
private theorem W2_arg5 (c : Dev nD) : W2 m ρ c (Proc.devRef .tc main_arg5) = m ((c : Thread nD τ).loc main_arg5) :=
  (W2_of m ρ c main_arg5 (by decide)).trans (W1_of_ne m ρ c main_arg5 (by decide))

/-- After the second reshape: the French region staged `main_arg5` through an input window and has no window on the others. -/
private theorem W4_arg0 (c : Dev nD) : W4 m ρ c (Proc.devRef .tc main_arg0) = m ((c : Thread nD τ).loc main_arg0) :=
  (W4_of m ρ c main_arg0 (by decide)).trans ((W3_of_ne m ρ c main_arg0 (by decide)).trans (W2_arg0 m ρ c))
private theorem W4_arg1 (c : Dev nD) : W4 m ρ c (Proc.devRef .tc main_arg1) = m ((c : Thread nD τ).loc main_arg1) :=
  (W4_of m ρ c main_arg1 (by decide)).trans ((W3_of_ne m ρ c main_arg1 (by decide)).trans (W2_arg1 m ρ c))
private theorem W4_arg2 (c : Dev nD) : W4 m ρ c (Proc.devRef .tc main_arg2) = m ((c : Thread nD τ).loc main_arg2) :=
  (W4_of m ρ c main_arg2 (by decide)).trans ((W3_of_ne m ρ c main_arg2 (by decide)).trans (W2_arg2 m ρ c))
private theorem W4_arg3 (c : Dev nD) : W4 m ρ c (Proc.devRef .tc main_arg3) = m ((c : Thread nD τ).loc main_arg3) :=
  (W4_of m ρ c main_arg3 (by decide)).trans ((W3_of_ne m ρ c main_arg3 (by decide)).trans (W2_arg3 m ρ c))
private theorem W4_arg4 (c : Dev nD) : W4 m ρ c (Proc.devRef .tc main_arg4) = m ((c : Thread nD τ).loc main_arg4) :=
  (W4_of m ρ c main_arg4 (by decide)).trans ((W3_of_ne m ρ c main_arg4 (by decide)).trans (W2_arg4 m ρ c))
private theorem W4_arg5 (c : Dev nD) : W4 m ρ c (Proc.devRef .tc main_arg5) = m ((c : Thread nD τ).loc main_arg5) :=
  (W4_of m ρ c main_arg5 (by decide)).trans ((W3_in m ρ c 0 rfl).trans (W2_arg5 m ρ c))

/-- The arguments at the end. -/
theorem W6_main_arg0 (c : Dev nD) : W6 m ρ c (Proc.devRef .tc main_arg0) = m ((c : Thread nD τ).loc main_arg0) :=
  (W6_of m ρ c main_arg0 (by decide)).trans ((W5_of_ne m ρ c main_arg0 (by decide)).trans (W4_arg0 m ρ c))
theorem W6_main_arg1 (c : Dev nD) : W6 m ρ c (Proc.devRef .tc main_arg1) = m ((c : Thread nD τ).loc main_arg1) :=
  (W6_of m ρ c main_arg1 (by decide)).trans ((W5_of_ne m ρ c main_arg1 (by decide)).trans (W4_arg1 m ρ c))
theorem W6_main_arg2 (c : Dev nD) : W6 m ρ c (Proc.devRef .tc main_arg2) = m ((c : Thread nD τ).loc main_arg2) :=
  (W6_of m ρ c main_arg2 (by decide)).trans ((W5_in m ρ c 0 rfl).trans (W4_arg2 m ρ c))
theorem W6_main_arg3 (c : Dev nD) : W6 m ρ c (Proc.devRef .tc main_arg3) = m ((c : Thread nD τ).loc main_arg3) :=
  (W6_of m ρ c main_arg3 (by decide)).trans ((W5_in m ρ c 1 rfl).trans (W4_arg3 m ρ c))
theorem W6_main_arg4 (c : Dev nD) : W6 m ρ c (Proc.devRef .tc main_arg4) = m ((c : Thread nD τ).loc main_arg4) :=
  (W6_of m ρ c main_arg4 (by decide)).trans ((W5_of_ne m ρ c main_arg4 (by decide)).trans (W4_arg4 m ρ c))
theorem W6_main_arg5 (c : Dev nD) : W6 m ρ c (Proc.devRef .tc main_arg5) = m ((c : Thread nD τ).loc main_arg5) :=
  (W6_of m ρ c main_arg5 (by decide)).trans ((W5_of_ne m ρ c main_arg5 (by decide)).trans (W4_arg5 m ρ c))

/-- The arguments each region finds. -/
theorem V0_main_arg0 (c : Dev nD) : V0 m ρ c main_arg0 = m ((c : Thread nD τ).loc main_arg0) := rfl
theorem V0_main_arg4 (c : Dev nD) : V0 m ρ c main_arg4 = m ((c : Thread nD τ).loc main_arg4) := rfl
theorem V2_main_arg5 (c : Dev nD) : V2 m ρ c main_arg5 = m ((c : Thread nD τ).loc main_arg5) := by
  exact W2_arg5 m ρ c
theorem V4_main_arg2 (c : Dev nD) : V4 m ρ c main_arg2 = m ((c : Thread nD τ).loc main_arg2) := by
  exact W4_arg2 m ρ c
theorem V4_main_arg3 (c : Dev nD) : V4 m ρ c main_arg3 = m ((c : Thread nD τ).loc main_arg3) := by
  exact W4_arg3 m ρ c

end Cert.Kernel.Elbo

end
-- ==== Proof.KernelIdeal.Acc.lean ====
/-
  What the two accumulating kernels carry from grid point to grid point, as pure functions of the blocks they are handed.

  The English kernel keeps a [32,32] running sum: zero at the first point, and at point `k` it adds that tile's masked row
  sums. The French kernel keeps a [1,1] running sum of its tiles' log-mean totals. `enAcc … k` and `frAcc … k` are what the
  scratch holds after `k` points (at `k = 0`: the zero the first point stores before it accumulates).
-/
import proofs.«410933_j24077586661495_3_alg».proof.Proof.Gen.KernelIdeal.Skeleton

noncomputable section

namespace Cert.KernelIdeal.Elbo

open Cert.KernelIdeal Cert.KernelIdeal.Gen Idealize.ShloMosaic

variable {F : FTy → Type} [FloatOps F]

/-- The English kernel's running sum after `k` points, from the word ids and the tiles of probabilities. -/
def enAcc (w : Vec F S32x32 .i32) (blk : Fin grid0.N → Vec F S32x32x1280 .f32) : ℕ → Vec F S32x32 .f32
  | 0 => k0_pay1
  | k + 1 => if h : k < grid0.N then k0_pay2 (grid0.coords ⟨k, h⟩) w (blk ⟨k, h⟩) (enAcc w blk k) else enAcc w blk k

/-- The French kernel's running sum after `k` points, from the tiles of probabilities. -/
def frAcc (blk : Fin grid1.N → Vec F S32x32x1024 .f32) : ℕ → Vec F S1x1 .f32
  | 0 => k1_pay1
  | k + 1 => if h : k < grid1.N then k1_pay2 (blk ⟨k, h⟩) (frAcc blk k) else frAcc blk k

end Cert.KernelIdeal.Elbo

end
-- ==== Proof.KernelIdeal.RegionEn.lean ====
/-
  The English region (the first pallas_call): 25 grid points over the tiles of the vocabulary axis, the word ids as one
  whole-array input window, a [1,1] output window stored at the last point only, and a [32,32] scratch that carries the
  running sum of the masked row sums from point to point. The first point zeroes the scratch before it accumulates; every
  point adds its tile's masked row sums; the last point stores the total of the logarithms of the sums. The invariant
  between points says what the scratch holds: after `k` points, the running sum `enAcc … k` of the first `k` tiles
  (before the first point: anything).
-/
import proofs.«410933_j24077586661495_3_alg».proof.Proof.Gen.KernelIdeal.Launch
import proofs.«410933_j24077586661495_3_alg».proof.Proof.Gen.KernelIdeal.Skeleton
import proofs.«410933_j24077586661495_3_alg».proof.Proof.Gen.KernelIdeal.Points
import proofs.«410933_j24077586661495_3_alg».proof.Proof.KernelIdeal.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Elbo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: the tile's, fetched at every point, and
    the word ids', fetched at the first point and kept since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- The body's first condition: the grid coordinate is zero. -/
abbrev enFirst (i : grid0.Coords) : Prop := (Scalar.cmpi .ne (Scalar.extui (Scalar.cmpi .eq (BitVec.ofNat 32 (i 0).val) 0#32)) 0#32) = 1#1
/-- It holds at the first point only, and the second (`k0_cond2`) at the last point only. -/
theorem enFirst_iff : ∀ t : Fin cfg0.N, enFirst (grid0.coords t) ↔ t.val = 0 :=
  (by decide +kernel : ∀ t : Fin grid0.N, enFirst (grid0.coords t) ↔ t.val = 0)
theorem enLast_iff : ∀ t : Fin cfg0.N, k0_cond2 (grid0.coords t) = 1#1 ↔ t.val = 24 :=
  (by decide +kernel : ∀ t : Fin grid0.N, k0_cond2 (grid0.coords t) = 1#1 ↔ t.val = 24)

theorem hzOut : (![0, 0] : Fin S1x1.rank → Nat) = fun _ => 0 := by
  funext a; match a with | ⟨0, _⟩ => rfl | ⟨1, _⟩ => rfl
theorem hz32 : (![0, 0] : Fin S32x32.rank → Nat) = fun _ => 0 := by
  funext a; match a with | ⟨0, _⟩ => rfl | ⟨1, _⟩ => rfl
theorem hzEn : (![0, 0, 0] : Fin S32x32x1280.rank → Nat) = fun _ => 0 := by
  funext a; match a with | ⟨0, _⟩ => rfl | ⟨1, _⟩ => rfl | ⟨2, _⟩ => rfl

/-! ## The body on whole memrefs, case by case

`x0` is the tile, `w` the word ids, `o` what the output's buffer holds, `a` what the scratch holds. At the first point
the scratch is zeroed and then accumulated into; at the others it is accumulated into as found; at the last the total
of the logarithms of the sums is stored. -/

set_option maxHeartbeats 1000000 in
theorem enKernelFirst (c : Dev nD) (E : Set ℕ) (i : grid0.Coords) (arg1 : Memref sig .tc .vmem S32x32x1280 .f32) (harg1 : arg1.IsWhole)
    (arg2 : Memref sig .tc .vmem S32x32 .i32) (harg2 : arg2.IsWhole) (arg3 : Memref sig .tc .vmem S1x1 .f32) (harg3 : arg3.IsWhole)
    (arg4 : Memref sig .tc .vmem S32x32 .f32) (harg4 : arg4.IsWhole)
    (hc1 : enFirst i) (hc2 : ¬ k0_cond2 i = 1#1)
    (x0 : Vec F S32x32x1280 .f32) (w : Vec F S32x32 .i32) (o : Vec F S1x1 .f32) (a : Vec F S32x32 .f32) (K : PUnit → sProp 𝕄) :
    iprop(owns (c : Thread nD τ) arg1 fullShare x0 ∗ owns (c : Thread nD τ) arg2 fullShare w ∗ owns (c : Thread nD τ) arg3 fullShare o
        ∗ owns (c : Thread nD τ) arg4 fullShare a
        ∗ (iprop(owns (c : Thread nD τ) arg1 fullShare x0 ∗ owns (c : Thread nD τ) arg2 fullShare w
            ∗ owns (c : Thread nD τ) arg3 fullShare (o)
            ∗ owns (c : Thread nD τ) arg4 fullShare (k0_pay2 i w x0 (k0_pay1 (F := F)))) -∗ K ⟨⟩))
      ⊢ wp frame (wpE (defs₀ (F := F)) Variants.none c none) E (cc0__en_kernel i arg1 harg1 arg2 harg2 arg3 harg3 arg4 harg4) K := by
  simp only [cc0__en_kernel_eq_skeleton]; unfold cc0__en_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  sl_unfold_words
  rw [View.read_writes_eq_canon _ _ _ (fun y => ⟨_, List.mem_cons_self, View.mem_set_unit_zero (S := S32x32) hz32 inb_S32x32_S32x32_0_0 y⟩), View.canon_cons_unit_zero (S := S32x32) hz32]
  simp only [View.readCov_unit_zero (S := S32x32) _ hz32, View.readAt_eq_ld, harg1.read_unread, harg2.read_unread, harg4.read_unread, View.ld_unit_zero (S := S32x32x1280) hzEn, View.ld_unit_zero (S := S32x32) hz32]

set_option maxHeartbeats 1000000 in
theorem enKernelMid (c : Dev nD) (E : Set ℕ) (i : grid0.Coords) (arg1 : Memref sig .tc .vmem S32x32x1280 .f32) (harg1 : arg1.IsWhole)
    (arg2 : Memref sig .tc .vmem S32x32 .i32) (harg2 : arg2.IsWhole) (arg3 : Memref sig .tc .vmem S1x1 .f32) (harg3 : arg3.IsWhole)
    (arg4 : Memref sig .tc .vmem S32x32 .f32) (harg4 : arg4.IsWhole)
    (hc1 : ¬ enFirst i) (hc2 : ¬ k0_cond2 i = 1#1)
    (x0 : Vec F S32x32x1280 .f32) (w : Vec F S32x32 .i32) (o : Vec F S1x1 .f32) (a : Vec F S32x32 .f32) (K : PUnit → sProp 𝕄) :
    iprop(owns (c : Thread nD τ) arg1 fullShare x0 ∗ owns (c : Thread nD τ) arg2 fullShare w ∗ owns (c : Thread nD τ) arg3 fullShare o
        ∗ owns (c : Thread nD τ) arg4 fullShare a
        ∗ (iprop(owns (c : Thread nD τ) arg1 fullShare x0 ∗ owns (c : Thread nD τ) arg2 fullShare w
            ∗ owns (c : Thread nD τ) arg3 fullShare (o)
            ∗ owns (c : Thread nD τ) arg4 fullShare (k0_pay2 i w x0 a)) -∗ K ⟨⟩))
      ⊢ wp frame (wpE (defs₀ (F := F)) Variants.none c none) E (cc0__en_kernel i arg1 harg1 arg2 harg2 arg3 harg3 arg4 harg4) K := by
  simp only [cc0__en_kernel_eq_skeleton]; unfold cc0__en_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  sl_unfold_words
  rw [View.read_writes_eq_canon _ _ _ (fun y => ⟨_, List.mem_cons_self, View.mem_set_unit_zero (S := S32x32) hz32 inb_S32x32_S32x32_0_0 y⟩), View.canon_cons_unit_zero (S := S32x32) hz32]
  simp only [View.readCov_unit_zero (S := S32x32) _ hz32, View.readAt_eq_ld, harg1.read_unread, harg2.read_unread, harg4.read_unread, View.ld_unit_zero (S := S32x32x1280) hzEn, View.ld_unit_zero (S := S32x32) hz32]

set_option maxHeartbeats 1000000 in
theorem enKernelLast (c : Dev nD) (E : Set ℕ) (i : grid0.Coords) (arg1 : Memref sig .tc .vmem S32x32x1280 .f32) (harg1 : arg1.IsWhole)
    (arg2 : Memref sig .tc .vmem S32x32 .i32) (harg2 : arg2.IsWhole) (arg3 : Memref sig .tc .vmem S1x1 .f32) (harg3 : arg3.IsWhole)
    (arg4 : Memref sig .tc .vmem S32x32 .f32) (harg4 : arg4.IsWhole)
    (hc1 : ¬ enFirst i) (hc2 : k0_cond2 i = 1#1)
    (x0 : Vec F S32x32x1280 .f32) (w : Vec F S32x32 .i32) (o : Vec F S1x1 .f32) (a : Vec F S32x32 .f32) (K : PUnit → sProp 𝕄) :
    iprop(owns (c : Thread nD τ) arg1 fullShare x0 ∗ owns (c : Thread nD τ) arg2 fullShare w ∗ owns (c : Thread nD τ) arg3 fullShare o
        ∗ owns (c : Thread nD τ) arg4 fullShare a
        ∗ (iprop(owns (c : Thread nD τ) arg1 fullShare x0 ∗ owns (c : Thread nD τ) arg2 fullShare w
            ∗ owns (c : Thread nD τ) arg3 fullShare (k0_pay3 (k0_pay2 i w x0 a))
            ∗ owns (c : Thread nD τ) arg4 fullShare (k0_pay2 i w x0 a)) -∗ K ⟨⟩))
      ⊢ wp frame (wpE (defs₀ (F := F)) Variants.none c none) E (cc0__en_kernel i arg1 harg1 arg2 harg2 arg3 harg3 arg4 harg4) K := by
  simp only [cc0__en_kernel_eq_skeleton]; unfold cc0__en_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (fun y => ⟨_, List.mem_cons_self, View.mem_set_unit_zero (S := S1x1) hzOut inb_S1x1_S1x1_0_0 y⟩), View.canon_cons_unit_zero (S := S1x1) hzOut]
    simp only [View.readCov_unit_zero (S := S32x32) _ hz32, View.readAt_eq_ld, harg1.read_unread, harg2.read_unread, harg4.read_unread, View.ld_unit_zero (S := S32x32x1280) hzEn, View.ld_unit_zero (S := S32x32) hz32]
  iexists _; isplitr
  swap; · iexact H3
  ipureintro
  sl_unfold_words
  rw [View.read_writes_eq_canon _ _ _ (fun y => ⟨_, List.mem_cons_self, View.mem_set_unit_zero (S := S32x32) hz32 inb_S32x32_S32x32_0_0 y⟩), View.canon_cons_unit_zero (S := S32x32) hz32]
  simp only [View.readCov_unit_zero (S := S32x32) _ hz32, View.readAt_eq_ld, harg1.read_unread, harg2.read_unread, harg4.read_unread, View.ld_unit_zero (S := S32x32x1280) hzEn, View.ld_unit_zero (S := S32x32) hz32]

/-! ## The running sum, and the proof data -/

/-- The tiles as the region finds them. -/
def enBlk (c : Dev nD) : Fin grid0.N → Vec F S32x32x1280 .f32 := fun t => iblk0 V c 0 t

/-- The word ids as the region finds them. -/
def enW (c : Dev nD) : Vec F S32x32 .i32 := iblk0 V c 1 ⟨0, by decide⟩

/-- The word ids' window is the whole array at every point. -/
theorem iblk0_1_const (c : Dev nD) (t : Fin cfg0.N) : iblk0 V c 1 t = enW V c := rfl

theorem enAcc_step (w : Vec F S32x32 .i32) (blk : Fin grid0.N → Vec F S32x32x1280 .f32) (t : Fin grid0.N) :
    enAcc w blk (t.val + 1) = k0_pay2 (grid0.coords t) w (blk t) (enAcc w blk t.val) := by
  show (if h : t.val < grid0.N then k0_pay2 (grid0.coords ⟨t.val, h⟩) w (blk ⟨t.val, h⟩) (enAcc w blk t.val) else enAcc w blk t.val) = _
  rw [dif_pos t.isLt]

/-- The scratch. -/
abbrev enScratch : Memref sig .tc .vmem S32x32 .f32 := Memref.whole cc0_scratch0

/-- The invariant after `k` points: the scratch holds the running sum of the first `k` tiles (anything before the
    first), beside the core's other scoped buffers, untouched. -/
def enΦ (c : Dev nD) (k : ℕ) : sProp 𝕄 :=
  iprop((∃ X, ⌜k ≠ 0 → X = enAcc (enW V c) (enBlk V c) k⌝ ∗ owns (c : Thread nD τ) enScratch fullShare X)
    ∗ Pipeline.scopedRestBut (Ix := Unit) (Name := ℕ) (U := UR sig nD τ) (Lvl := ℕ) (Val := Elt F) spec0 c [cc0_scratch0])

/-- The region's proof data on core `c`. -/
def enDat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (enAcc (enW V c) (enBlk V c) 25)
  Φ k := enΦ V c k.val
  q _ := fullShare
  owed _ := 0

theorem enA_eq (c : Dev nD) (w : Fin cfg0.W) : (enDat V c).A w = V c (Pipeline.arrRef spec0 w) := by
  dsimp only [enDat]
theorem enAfter_0 (c : Dev nD) (t : Fin cfg0.N) : (enDat V c).after 0 t = iblk0 V c 0 t := by dsimp only [enDat]
theorem enAfter_1 (c : Dev nD) (t : Fin cfg0.N) : (enDat V c).after 1 t = iblk0 V c 1 t := by dsimp only [enDat]
theorem enAfter_2 (c : Dev nD) (t : Fin cfg0.N) : (enDat V c).after 2 t = k0_pay3 (enAcc (enW V c) (enBlk V c) 25) := by
  dsimp only [enDat]
theorem enBefore_0 (c : Dev nD) (t : Fin cfg0.N) (d) : (enDat V c).before 0 t d = iblk0 V c 0 t :=
  before0_0_of V (enDat V c) (enA_eq V c 0) (enAfter_0 V c) t d
theorem enBefore_1 (c : Dev nD) (t : Fin cfg0.N) (d) : (enDat V c).before 1 t d = iblk0 V c 1 t :=
  before0_1_of V (enDat V c) (enA_eq V c 1) (enAfter_1 V c) t d

/-! ## The body obligation -/

/-- A point other than the last: the output's buffer comes back as found. -/
theorem enSoundNotLast (c : Dev nD) (t : Fin cfg0.N) (hl : t.val ≠ 24) :
    iprop((enDat V c).Φ t.castSucc ∗ (enDat V c).owesAt () t.castSucc
        ∗ (∃ d, owns (c : Thread nD τ) (st0_0 t) fullShare ((enDat V c).before 0 t d))
        ∗ (∃ d, owns (c : Thread nD τ) (st0_1 t) fullShare ((enDat V c).before 1 t d))
        ∗ (∃ d, owns (c : Thread nD τ) (st0_2 t) fullShare ((enDat V c).before 2 t d)))
      ⊢ wp frame (wpE (defs₀ (F := F)) Variants.none c none) Set.univ (bodyAt0 t) (fun _ =>
          iprop((enDat V c).Φ t.succ ∗ (enDat V c).owesAt () t.succ
            ∗ owns (c : Thread nD τ) (st0_0 t) fullShare ((enDat V c).after 0 t)
            ∗ owns (c : Thread nD τ) (st0_1 t) fullShare ((enDat V c).after 1 t)
            ∗ (∃ d, owns (c : Thread nD τ) (st0_2 t) fullShare ((enDat V c).before 2 t d)))) := by
  unfold bodyAt0
  simp only [enBefore_0, enBefore_1]
  rw [show (enDat V c).Φ t.succ = enΦ V c (t.val + 1) from rfl, show (enDat V c).Φ t.castSucc = enΦ V c t.val from rfl,
    show (enDat V c).owesAt () t.succ = (enDat V c).owesAt () t.castSucc from rfl, enAfter_0, enAfter_1]
  unfold enΦ
  iintro ⟨⟨⟨%X, %hX, Hs⟩, Hrest⟩, Ho, ⟨%d0, H0⟩, ⟨%d1, H1⟩, ⟨%d2, H2⟩⟩
  have hnl : ¬ k0_cond2 (grid0.coords t) = 1#1 := fun h => hl ((enLast_iff t).mp h)
  by_cases h0 : t.val = 0
  · iapply (enKernelFirst c Set.univ _ _ _ _ _ _ _ _ _ ((enFirst_iff t).mpr h0) hnl (iblk0 V c 0 t) (iblk0 V c 1 t) _ X _)
    isplitl [H0]; · iexact H0
    isplitl [H1]; · iexact H1
    isplitl [H2]; · iexact H2
    isplitl [Hs]; · iexact Hs
    iintro ⟨H0, H1, H2, Hs⟩
    isplitl [Hs Hrest]
    · isplitl [Hs]
      · iexists _; isplitr
        swap; · iexact Hs
        ipureintro; intro _
        have e : enAcc (enW V c) (enBlk V c) t.val = k0_pay1 (F := F) := by rw [h0]; rfl
        rw [enAcc_step, e, iblk0_1_const]; rfl
      · iexact Hrest
    isplitl [Ho]; · iexact Ho
    isplitl [H0]; · iexact H0
    isplitl [H1]; · iexact H1
    iexists _; iexact H2
  · iapply (enKernelMid c Set.univ _ _ _ _ _ _ _ _ _ (fun h => h0 ((enFirst_iff t).mp h)) hnl (iblk0 V c 0 t) (iblk0 V c 1 t) _ X _)
    isplitl [H0]; · iexact H0
    isplitl [H1]; · iexact H1
    isplitl [H2]; · iexact H2
    isplitl [Hs]; · iexact Hs
    iintro ⟨H0, H1, H2, Hs⟩
    isplitl [Hs Hrest]
    · isplitl [Hs]
      · iexists _; isplitr
        swap; · iexact Hs
        ipureintro; intro _
        rw [enAcc_step, hX h0, iblk0_1_const]; rfl
      · iexact Hrest
    isplitl [Ho]; · iexact Ho
    isplitl [H0]; · iexact H0
    isplitl [H1]; · iexact H1
    iexists _; iexact H2

/-- The last point: the output's buffer holds the total of the logarithms of the 25 tiles' sums. -/
theorem enSoundLast (c : Dev nD) (t : Fin cfg0.N) (hl : t.val = 24) :
    iprop((enDat V c).Φ t.castSucc ∗ (enDat V c).owesAt () t.castSucc
        ∗ (∃ d, owns (c : Thread nD τ) (st0_0 t) fullShare ((enDat V c).before 0 t d))
        ∗ (∃ d, owns (c : Thread nD τ) (st0_1 t) fullShare ((enDat V c).before 1 t d))
        ∗ (∃ d, owns (c : Thread nD τ) (st0_2 t) fullShare ((enDat V c).before 2 t d)))
      ⊢ wp frame (wpE (defs₀ (F := F)) Variants.none c none) Set.univ (bodyAt0 t) (fun _ =>
          iprop((enDat V c).Φ t.succ ∗ (enDat V c).owesAt () t.succ
            ∗ owns (c : Thread nD τ) (st0_0 t) fullShare ((enDat V c).after 0 t)
            ∗ owns (c : Thread nD τ) (st0_1 t) fullShare ((enDat V c).after 1 t)
            ∗ owns (c : Thread nD τ) (st0_2 t) fullShare ((enDat V c).after 2 t))) := by
  unfold bodyAt0
  simp only [enBefore_0, enBefore_1]
  rw [show (enDat V c).Φ t.succ = enΦ V c (t.val + 1) from rfl, show (enDat V c).Φ t.castSucc = enΦ V c t.val from rfl,
    show (enDat V c).owesAt () t.succ = (enDat V c).owesAt () t.castSucc from rfl, enAfter_0, enAfter_1, enAfter_2]
  unfold enΦ
  iintro ⟨⟨⟨%X, %hX, Hs⟩, Hrest⟩, Ho, ⟨%d0, H0⟩, ⟨%d1, H1⟩, ⟨%d2, H2⟩⟩
  have h0 : t.val ≠ 0 := by omega
  have e25 : k0_pay2 (grid0.coords t) (iblk0 V c 1 t) (iblk0 V c 0 t) X = enAcc (enW V c) (enBlk V c) 25 := by
    have hs := enAcc_step (enW V c) (enBlk V c) t
    have h25 : t.val + 1 = 25 := by omega
    rw [h25] at hs
    rw [hs, hX h0, iblk0_1_const]; rfl
  iapply (enKernelLast c Set.univ _ _ _ _ _ _ _ _ _ (fun h => h0 ((enFirst_iff t).mp h)) ((enLast_iff t).mpr hl) (iblk0 V c 0 t) (iblk0 V c 1 t) _ X _)
  isplitl [H0]; · iexact H0
  isplitl [H1]; · iexact H1
  isplitl [H2]; · iexact H2
  isplitl [Hs]; · iexact Hs
  rw [e25]
  iintro ⟨H0, H1, H2, Hs⟩
  isplitl [Hs Hrest]
  · isplitl [Hs]
    · iexists _; isplitr
      swap; · iexact Hs
      ipureintro; intro _
      rw [hl]
    · iexact Hrest
  isplitl [Ho]; · iexact Ho
  isplitl [H0]; · iexact H0
  isplitl [H1]; · iexact H1
  iexact H2

/-- The library's body obligation, at every point: the output window is idle but at the last point. -/
theorem enBodyObligation (c : Dev nD) : BodyObligation (enDat (F := F) V c) (defs₀ (F := F)) Variants.none () Set.univ := fun t => by
  rw [bigSep_W0, bigSep_W0]
  by_cases hl : t.val = 24
  · have hid : idle0 2 (grid0.coords t) = false := by
      show (!(k0_cond2 (grid0.coords t) == 1#1)) = false
      rw [(enLast_iff t).mpr hl]; rfl
    simp only [hid]
    exact enSoundLast V c t hl
  · have hid : idle0 2 (grid0.coords t) = true := by
      show (!(k0_cond2 (grid0.coords t) == 1#1)) = true
      have : ¬ k0_cond2 (grid0.coords t) = 1#1 := fun h => hl ((enLast_iff t).mp h)
      simp [this]
    have hfl : (win0 2).flush t = false := by
      have h1 := flush0_2 t
      have hN := N_0
      have ht : t.val < grid0.N := t.isLt
      cases h : (win0 2).flush t
      · rfl
      · exfalso; have := h1.mp h; omega
    simp only [hid, hfl]
    exact enSoundNotLast V c t hl

/-! ## Into the invariant and out of it -/

theorem enScopedSplit (c : Dev nD) :
    (Pipeline.scopedRest (Ix := Unit) (Name := ℕ) (U := UR sig nD τ) (Lvl := ℕ) (Val := Elt F) spec0 c : sProp 𝕄)
      = iprop((∃ X, owns (c : Thread nD τ) enScratch fullShare X)
          ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [bigSepL, owns_whole]
  rfl

theorem enΦ_in (c : Dev nD) :
    (Pipeline.scopedRest (Ix := Unit) (Name := ℕ) (U := UR sig nD τ) (Lvl := ℕ) (Val := Elt F) spec0 c : sProp 𝕄) ⊢ (enDat V c).Φ 0 := by
  rw [enScopedSplit, show (enDat V c).Φ 0 = enΦ V c 0 from rfl]; unfold enΦ
  iintro ⟨⟨%X, Hs⟩, Hr⟩
  isplitl [Hs]
  · iexists X; isplitr; · ipureintro; intro h; exact absurd rfl h
    iexact Hs
  iexact Hr

theorem enΦ_out (c : Dev nD) :
    (enDat V c).Φ (Fin.last cfg0.N) ⊢ (Pipeline.scopedRest (Ix := Unit) (Name := ℕ) (U := UR sig nD τ) (Lvl := ℕ) (Val := Elt F) spec0 c : sProp 𝕄) := by
  rw [enScopedSplit, show (enDat V c).Φ (Fin.last cfg0.N) = enΦ V c (Fin.last cfg0.N).val from rfl]; unfold enΦ
  iintro ⟨⟨%X, -, Hs⟩, Hr⟩
  isplitl [Hs]
  · iexists X; iexact Hs
  iexact Hr

end Cert.KernelIdeal.Elbo

end
-- ==== Proof.KernelIdeal.RegionFr.lean ====
/-
  The French region (the second pallas_call): four grid points over the tiles of the French axis, a [1,1] output window
  stored at the last point only, and a [1,1] scratch that carries the running sum from point to point. The first point
  zeroes the scratch before it accumulates; every point adds its tile's total; the last point copies the sum out. The
  invariant between points says what the scratch holds: after `k` points, the running sum `frAcc … k` of the first `k`
  tiles (before the first point: anything).
-/
import proofs.«410933_j24077586661495_3_alg».proof.Proof.Gen.KernelIdeal.Launch
import proofs.«410933_j24077586661495_3_alg».proof.Proof.Gen.KernelIdeal.Skeleton
import proofs.«410933_j24077586661495_3_alg».proof.Proof.Gen.KernelIdeal.Points
import proofs.«410933_j24077586661495_3_alg».proof.Proof.KernelIdeal.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Elbo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The body's first condition: the grid coordinate is zero. -/
abbrev frFirst (i : grid1.Coords) : Prop := (Scalar.cmpi .ne (Scalar.extui (Scalar.cmpi .eq (BitVec.ofNat 32 (i 0).val) 0#32)) 0#32) = 1#1
/-- It holds at the first point only, and the second (`k1_cond2`) at the last point only. -/
theorem frFirst_iff : ∀ t : Fin cfg1.N, frFirst (grid1.coords t) ↔ t.val = 0 :=
  (by decide +kernel : ∀ t : Fin grid1.N, frFirst (grid1.coords t) ↔ t.val = 0)
theorem frLast_iff : ∀ t : Fin cfg1.N, k1_cond2 (grid1.coords t) = 1#1 ↔ t.val = 3 :=
  (by decide +kernel : ∀ t : Fin grid1.N, k1_cond2 (grid1.coords t) = 1#1 ↔ t.val = 3)

theorem hz11 : (![0, 0] : Fin S1x1.rank → Nat) = fun _ => 0 := by
  funext a; match a with | ⟨0, _⟩ => rfl | ⟨1, _⟩ => rfl
theorem hzFr : (![0, 0, 0] : Fin S32x32x1024.rank → Nat) = fun _ => 0 := by
  funext a; match a with | ⟨0, _⟩ => rfl | ⟨1, _⟩ => rfl | ⟨2, _⟩ => rfl

/-! ## The body on whole memrefs, case by case

`x0` is the tile, `o` what the output's buffer holds, `a` what the scratch holds. At the first point the scratch is
zeroed and then accumulated into; at the others it is accumulated into as found; at the last the sum is copied out. -/

set_option maxHeartbeats 1000000 in
theorem frKernelFirst (c : Dev nD) (E : Set ℕ) (i : grid1.Coords) (arg1 : Memref sig .tc .vmem S32x32x1024 .f32) (harg1 : arg1.IsWhole)
    (arg2 : Memref sig .tc .vmem S1x1 .f32) (harg2 : arg2.IsWhole) (arg3 : Memref sig .tc .vmem S1x1 .f32) (harg3 : arg3.IsWhole)
    (hc1 : frFirst i) (hc2 : ¬ k1_cond2 i = 1#1)
    (x0 : Vec F S32x32x1024 .f32) (o a : Vec F S1x1 .f32) (K : PUnit → sProp 𝕄) :
    iprop(owns (c : Thread nD τ) arg1 fullShare x0 ∗ owns (c : Thread nD τ) arg2 fullShare o ∗ owns (c : Thread nD τ) arg3 fullShare a
        ∗ (iprop(owns (c : Thread nD τ) arg1 fullShare x0 ∗ owns (c : Thread nD τ) arg2 fullShare (o)
            ∗ owns (c : Thread nD τ) arg3 fullShare (k1_pay2 x0 (k1_pay1 (F := F)))) -∗ K ⟨⟩))
      ⊢ wp frame (wpE (defs₀ (F := F)) Variants.none c none) E (cc1__fr_kernel i arg1 harg1 arg2 harg2 arg3 harg3) K := by
  simp only [cc1__fr_kernel_eq_skeleton]; unfold cc1__fr_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr
    swap; · iexact H1
    ipureintro
    exact harg2.read_unread _
  iexists _; isplitr
  swap; · iexact H2
  ipureintro
  sl_unfold_words
  rw [View.read_writes_eq_canon _ _ _ (fun y => ⟨_, List.mem_cons_self, View.mem_set_unit_zero (S := S1x1) hz11 inb_S1x1_S1x1_0_0 y⟩), View.canon_cons_unit_zero (S := S1x1) hz11]
  simp only [View.readCov_unit_zero (S := S1x1) _ hz11, View.readAt_eq_ld, harg1.read_unread, harg3.read_unread, View.ld_unit_zero (S := S32x32x1024) hzFr, View.ld_unit_zero (S := S1x1) hz11]

set_option maxHeartbeats 1000000 in
theorem frKernelMid (c : Dev nD) (E : Set ℕ) (i : grid1.Coords) (arg1 : Memref sig .tc .vmem S32x32x1024 .f32) (harg1 : arg1.IsWhole)
    (arg2 : Memref sig .tc .vmem S1x1 .f32) (harg2 : arg2.IsWhole) (arg3 : Memref sig .tc .vmem S1x1 .f32) (harg3 : arg3.IsWhole)
    (hc1 : ¬ frFirst i) (hc2 : ¬ k1_cond2 i = 1#1)
    (x0 : Vec F S32x32x1024 .f32) (o a : Vec F S1x1 .f32) (K : PUnit → sProp 𝕄) :
    iprop(owns (c : Thread nD τ) arg1 fullShare x0 ∗ owns (c : Thread nD τ) arg2 fullShare o ∗ owns (c : Thread nD τ) arg3 fullShare a
        ∗ (iprop(owns (c : Thread nD τ) arg1 fullShare x0 ∗ owns (c : Thread nD τ) arg2 fullShare (o)
            ∗ owns (c : Thread nD τ) arg3 fullShare (k1_pay2 x0 a)) -∗ K ⟨⟩))
      ⊢ wp frame (wpE (defs₀ (F := F)) Variants.none c none) E (cc1__fr_kernel i arg1 harg1 arg2 harg2 arg3 harg3) K := by
  simp only [cc1__fr_kernel_eq_skeleton]; unfold cc1__fr_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr
    swap; · iexact H1
    ipureintro
    exact harg2.read_unread _
  iexists _; isplitr
  swap; · iexact H2
  ipureintro
  sl_unfold_words
  rw [View.read_writes_eq_canon _ _ _ (fun y => ⟨_, List.mem_cons_self, View.mem_set_unit_zero (S := S1x1) hz11 inb_S1x1_S1x1_0_0 y⟩), View.canon_cons_unit_zero (S := S1x1) hz11]
  simp only [View.readCov_unit_zero (S := S1x1) _ hz11, View.readAt_eq_ld, harg1.read_unread, harg3.read_unread, View.ld_unit_zero (S := S32x32x1024) hzFr, View.ld_unit_zero (S := S1x1) hz11]

set_option maxHeartbeats 1000000 in
theorem frKernelLast (c : Dev nD) (E : Set ℕ) (i : grid1.Coords) (arg1 : Memref sig .tc .vmem S32x32x1024 .f32) (harg1 : arg1.IsWhole)
    (arg2 : Memref sig .tc .vmem S1x1 .f32) (harg2 : arg2.IsWhole) (arg3 : Memref sig .tc .vmem S1x1 .f32) (harg3 : arg3.IsWhole)
    (hc1 : ¬ frFirst i) (hc2 : k1_cond2 i = 1#1)
    (x0 : Vec F S32x32x1024 .f32) (o a : Vec F S1x1 .f32) (K : PUnit → sProp 𝕄) :
    iprop(owns (c : Thread nD τ) arg1 fullShare x0 ∗ owns (c : Thread nD τ) arg2 fullShare o ∗ owns (c : Thread nD τ) arg3 fullShare a
        ∗ (iprop(owns (c : Thread nD τ) arg1 fullShare x0 ∗ owns (c : Thread nD τ) arg2 fullShare (k1_pay2 x0 a)
            ∗ owns (c : Thread nD τ) arg3 fullShare (k1_pay2 x0 a)) -∗ K ⟨⟩))
      ⊢ wp frame (wpE (defs₀ (F := F)) Variants.none c none) E (cc1__fr_kernel i arg1 harg1 arg2 harg2 arg3 harg3) K := by
  simp only [cc1__fr_kernel_eq_skeleton]; unfold cc1__fr_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (fun y => ⟨_, List.mem_cons_self, View.mem_set_unit_zero (S := S1x1) hz11 inb_S1x1_S1x1_0_0 y⟩), View.canon_cons_unit_zero (S := S1x1) hz11]
    simp only [View.readCov_unit_zero (S := S1x1) _ hz11, View.readAt_eq_ld, harg1.read_unread, harg3.read_unread, View.ld_unit_zero (S := S32x32x1024) hzFr, View.ld_unit_zero (S := S1x1) hz11]
  iexists _; isplitr
  swap; · iexact H2
  ipureintro
  sl_unfold_words
  rw [View.read_writes_eq_canon _ _ _ (fun y => ⟨_, List.mem_cons_self, View.mem_set_unit_zero (S := S1x1) hz11 inb_S1x1_S1x1_0_0 y⟩), View.canon_cons_unit_zero (S := S1x1) hz11]
  simp only [View.readCov_unit_zero (S := S1x1) _ hz11, View.readAt_eq_ld, harg1.read_unread, harg3.read_unread, View.ld_unit_zero (S := S32x32x1024) hzFr, View.ld_unit_zero (S := S1x1) hz11]

/-! ## The running sum, and the proof data -/

/-- The tiles as the region finds them. -/
def frBlk (c : Dev nD) : Fin grid1.N → Vec F S32x32x1024 .f32 := fun t => iblk1 V c 0 t

theorem frAcc_step (blk : Fin grid1.N → Vec F S32x32x1024 .f32) (t : Fin grid1.N) :
    frAcc blk (t.val + 1) = k1_pay2 (blk t) (frAcc blk t.val) := by
  show (if h : t.val < grid1.N then k1_pay2 (blk ⟨t.val, h⟩) (frAcc blk t.val) else frAcc blk t.val) = _
  rw [dif_pos t.isLt]

/-- The scratch. -/
abbrev frScratch : Memref sig .tc .vmem S1x1 .f32 := Memref.whole cc1_scratch0

/-- The invariant after `k` points: the scratch holds the running sum of the first `k` tiles (anything before the
    first), beside the core's other scoped buffers, untouched. -/
def frΦ (c : Dev nD) (k : ℕ) : sProp 𝕄 :=
  iprop((∃ X, ⌜k ≠ 0 → X = frAcc (frBlk V c) k⌝ ∗ owns (c : Thread nD τ) frScratch fullShare X)
    ∗ Pipeline.scopedRestBut (Ix := Unit) (Name := ℕ) (U := UR sig nD τ) (Lvl := ℕ) (Val := Elt F) spec1 c [cc1_scratch0])

/-- The region's proof data on core `c`. -/
def frDat (c : Dev nD) : Dat τ (Elt F) Unit ℕ (UR sig nD τ) ℕ cfg1 c where
  A w := V c (Pipeline.arrRef spec1 w)
  after w t := match w with
    | ⟨0, _⟩ => iblk1 V c 0 t
    | ⟨1, _⟩ => frAcc (frBlk V c) 4
  Φ k := frΦ V c k.val
  q _ := fullShare
  owed _ := 0

theorem frA_eq (c : Dev nD) (w : Fin cfg1.W) : (frDat V c).A w = V c (Pipeline.arrRef spec1 w) := by
  dsimp only [frDat]
theorem frAfter_0 (c : Dev nD) (t : Fin cfg1.N) : (frDat V c).after 0 t = iblk1 V c 0 t := by dsimp only [frDat]
theorem frAfter_1 (c : Dev nD) (t : Fin cfg1.N) : (frDat V c).after 1 t = frAcc (frBlk V c) 4 := by dsimp only [frDat]
theorem frBefore_0 (c : Dev nD) (t : Fin cfg1.N) (d) : (frDat V c).before 0 t d = iblk1 V c 0 t :=
  before1_0_of V (frDat V c) (frA_eq V c 0) (frAfter_0 V c) t d

/-! ## The body obligation -/

/-- A point other than the last: the output's buffer comes back as found. -/
theorem frSoundNotLast (c : Dev nD) (t : Fin cfg1.N) (hl : t.val ≠ 3) :
    iprop((frDat V c).Φ t.castSucc ∗ (frDat V c).owesAt () t.castSucc
        ∗ (∃ d, owns (c : Thread nD τ) (st1_0 t) fullShare ((frDat V c).before 0 t d))
        ∗ (∃ d, owns (c : Thread nD τ) (st1_1 t) fullShare ((frDat V c).before 1 t d)))
      ⊢ wp frame (wpE (defs₀ (F := F)) Variants.none c none) Set.univ (bodyAt1 t) (fun _ =>
          iprop((frDat V c).Φ t.succ ∗ (frDat V c).owesAt () t.succ
            ∗ owns (c : Thread nD τ) (st1_0 t) fullShare ((frDat V c).after 0 t)
            ∗ (∃ d, owns (c : Thread nD τ) (st1_1 t) fullShare ((frDat V c).before 1 t d)))) := by
  unfold bodyAt1
  simp only [frBefore_0]
  rw [show (frDat V c).Φ t.succ = frΦ V c (t.val + 1) from rfl, show (frDat V c).Φ t.castSucc = frΦ V c t.val from rfl,
    show (frDat V c).owesAt () t.succ = (frDat V c).owesAt () t.castSucc from rfl, frAfter_0]
  unfold frΦ
  iintro ⟨⟨⟨%X, %hX, Hs⟩, Hrest⟩, Ho, ⟨%d0, H0⟩, ⟨%d1, H1⟩⟩
  have hnl : ¬ k1_cond2 (grid1.coords t) = 1#1 := fun h => hl ((frLast_iff t).mp h)
  by_cases h0 : t.val = 0
  · iapply (frKernelFirst c Set.univ _ _ _ _ _ _ _ ((frFirst_iff t).mpr h0) hnl (iblk1 V c 0 t) _ X _)
    isplitl [H0]; · iexact H0
    isplitl [H1]; · iexact H1
    isplitl [Hs]; · iexact Hs
    iintro ⟨H0, H1, Hs⟩
    isplitl [Hs Hrest]
    · isplitl [Hs]
      · iexists _; isplitr
        swap; · iexact Hs
        ipureintro; intro _
        have e : frAcc (frBlk V c) t.val = k1_pay1 (F := F) := by rw [h0]; rfl
        rw [frAcc_step, e]; rfl
      · iexact Hrest
    isplitl [Ho]; · iexact Ho
    isplitl [H0]; · iexact H0
    iexists _; iexact H1
  · iapply (frKernelMid c Set.univ _ _ _ _ _ _ _ (fun h => h0 ((frFirst_iff t).mp h)) hnl (iblk1 V c 0 t) _ X _)
    isplitl [H0]; · iexact H0
    isplitl [H1]; · iexact H1
    isplitl [Hs]; · iexact Hs
    iintro ⟨H0, H1, Hs⟩
    isplitl [Hs Hrest]
    · isplitl [Hs]
      · iexists _; isplitr
        swap; · iexact Hs
        ipureintro; intro _
        rw [frAcc_step, hX h0]; rfl
      · iexact Hrest
    isplitl [Ho]; · iexact Ho
    isplitl [H0]; · iexact H0
    iexists _; iexact H1

/-- The last point: the output's buffer holds the sum of the four tiles. -/
theorem frSoundLast (c : Dev nD) (t : Fin cfg1.N) (hl : t.val = 3) :
    iprop((frDat V c).Φ t.castSucc ∗ (frDat V c).owesAt () t.castSucc
        ∗ (∃ d, owns (c : Thread nD τ) (st1_0 t) fullShare ((frDat V c).before 0 t d))
        ∗ (∃ d, owns (c : Thread nD τ) (st1_1 t) fullShare ((frDat V c).before 1 t d)))
      ⊢ wp frame (wpE (defs₀ (F := F)) Variants.none c none) Set.univ (bodyAt1 t) (fun _ =>
          iprop((frDat V c).Φ t.succ ∗ (frDat V c).owesAt () t.succ
            ∗ owns (c : Thread nD τ) (st1_0 t) fullShare ((frDat V c).after 0 t)
            ∗ owns (c : Thread nD τ) (st1_1 t) fullShare ((frDat V c).after 1 t))) := by
  unfold bodyAt1
  simp only [frBefore_0]
  rw [show (frDat V c).Φ t.succ = frΦ V c (t.val + 1) from rfl, show (frDat V c).Φ t.castSucc = frΦ V c t.val from rfl,
    show (frDat V c).owesAt () t.succ = (frDat V c).owesAt () t.castSucc from rfl, frAfter_0, frAfter_1]
  unfold frΦ
  iintro ⟨⟨⟨%X, %hX, Hs⟩, Hrest⟩, Ho, ⟨%d0, H0⟩, ⟨%d1, H1⟩⟩
  have h0 : t.val ≠ 0 := by omega
  have e4 : k1_pay2 (iblk1 V c 0 t) X = frAcc (frBlk V c) 4 := by
    have := frAcc_step (frBlk V c) t
    rw [hl] at this
    rw [this, hX h0, hl]; rfl
  iapply (frKernelLast c Set.univ _ _ _ _ _ _ _ (fun h => h0 ((frFirst_iff t).mp h)) ((frLast_iff t).mpr hl) (iblk1 V c 0 t) _ X _)
  isplitl [H0]; · iexact H0
  isplitl [H1]; · iexact H1
  isplitl [Hs]; · iexact Hs
  rw [e4]
  iintro ⟨H0, H1, Hs⟩
  isplitl [Hs Hrest]
  · isplitl [Hs]
    · iexists _; isplitr
      swap; · iexact Hs
      ipureintro; intro _
      rw [hl]
    · iexact Hrest
  isplitl [Ho]; · iexact Ho
  isplitl [H0]; · iexact H0
  iexact H1

/-- The library's body obligation, at every point: the output window is idle but at the last point. -/
theorem frBodyObligation (c : Dev nD) : BodyObligation (frDat (F := F) V c) (defs₀ (F := F)) Variants.none () Set.univ := fun t => by
  rw [bigSep_W1, bigSep_W1]
  by_cases hl : t.val = 3
  · have hid : idle1 1 (grid1.coords t) = false := by
      show (!(k1_cond2 (grid1.coords t) == 1#1)) = false
      rw [(frLast_iff t).mpr hl]; rfl
    simp only [hid]
    exact frSoundLast V c t hl
  · have hid : idle1 1 (grid1.coords t) = true := by
      show (!(k1_cond2 (grid1.coords t) == 1#1)) = true
      have : ¬ k1_cond2 (grid1.coords t) = 1#1 := fun h => hl ((frLast_iff t).mp h)
      simp [this]
    have hfl : (win1 1).flush t = false := by
      have h1 := flush1_1 t
      have hN := N_1
      have ht : t.val < grid1.N := t.isLt
      cases h : (win1 1).flush t
      · rfl
      · exfalso; have := h1.mp h; omega
    simp only [hid, hfl]
    exact frSoundNotLast V c t hl

/-! ## Into the invariant and out of it -/

theorem frScopedSplit (c : Dev nD) :
    (Pipeline.scopedRest (Ix := Unit) (Name := ℕ) (U := UR sig nD τ) (Lvl := ℕ) (Val := Elt F) spec1 c : sProp 𝕄)
      = iprop((∃ X, owns (c : Thread nD τ) frScratch fullShare X)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [bigSepL, owns_whole]
  rfl

theorem frΦ_in (c : Dev nD) :
    (Pipeline.scopedRest (Ix := Unit) (Name := ℕ) (U := UR sig nD τ) (Lvl := ℕ) (Val := Elt F) spec1 c : sProp 𝕄) ⊢ (frDat V c).Φ 0 := by
  rw [frScopedSplit, show (frDat V c).Φ 0 = frΦ V c 0 from rfl]; unfold frΦ
  iintro ⟨⟨%X, Hs⟩, Hr⟩
  isplitl [Hs]
  · iexists X; isplitr; · ipureintro; intro h; exact absurd rfl h
    iexact Hs
  iexact Hr

theorem frΦ_out (c : Dev nD) :
    (frDat V c).Φ (Fin.last cfg1.N) ⊢ (Pipeline.scopedRest (Ix := Unit) (Name := ℕ) (U := UR sig nD τ) (Lvl := ℕ) (Val := Elt F) spec1 c : sProp 𝕄) := by
  rw [frScopedSplit, show (frDat V c).Φ (Fin.last cfg1.N) = frΦ V c (Fin.last cfg1.N).val from rfl]; unfold frΦ
  iintro ⟨⟨%X, -, Hs⟩, Hr⟩
  isplitl [Hs]
  · iexists X; iexact Hs
  iexact Hr

end Cert.KernelIdeal.Elbo

end
-- ==== Proof.KernelIdeal.RegionKl.lean ====
/-
  The Kullback–Leibler region (the third pallas_call): one grid point over two whole-array input windows (the means and
  the standard deviations) and a [1,1] output window. The body loads both arrays, computes the summed term and stores it
  whole; so the output's buffer after the body is that one value, and the region's proof data are the plain ones: the
  arrays as the region finds them, the inputs' buffers at their blocks, the invariant the scoped rest, nothing owed.
-/
import proofs.«410933_j24077586661495_3_alg».proof.Proof.Gen.KernelIdeal.Launch
import proofs.«410933_j24077586661495_3_alg».proof.Proof.Gen.KernelIdeal.Skeleton
import proofs.«410933_j24077586661495_3_alg».proof.Proof.Gen.KernelIdeal.Points
import proofs.«410933_j24077586661495_3_alg».proof.Proof.KernelIdeal.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Elbo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each whole buffer. -/
abbrev rKlIn : Rect S32x32x128 := Rect.unit (s := S32x32x128) ![0, 0, 0] S32x32x128.size inb_S32x32x128_S32x32x128_0_0_0
abbrev rKlOut : Rect S1x1 := Rect.unit (s := S1x1) ![0, 0] S1x1.size inb_S1x1_S1x1_0_0

/-- What the body leaves in the output's buffer, from the two input blocks: its one store. -/
def klOut (x0 x1 : Vec F S32x32x128 .f32) : Vec F S1x1 .f32 :=
  View.canon [⟨rKlOut, k2_pay1 (View.ld x0 rKlIn) (View.ld x1 rKlIn)⟩]

theorem klCover (p0 : Vec F S1x1 .f32) (y : S1x1.Idx) :
    ∃ pc ∈ ([⟨rKlOut, p0⟩] : List (View.Piece (Elt F) S1x1 .f32)), y ∈ pc.1.set :=
  View.cover_of_tiled [⟨rKlOut, p0⟩] S1x1.size (by rfl) y

set_option maxHeartbeats 1000000 in
/-- The body on whole staging memrefs: the inputs come back as they were, the output holds `klOut` of them. -/
theorem klKernel (c : Dev nD) (E : Set ℕ) (i : grid2.Coords) (arg1 : Memref sig .tc .vmem S32x32x128 .f32) (harg1 : arg1.IsWhole)
    (arg2 : Memref sig .tc .vmem S32x32x128 .f32) (harg2 : arg2.IsWhole) (arg3 : Memref sig .tc .vmem S1x1 .f32) (harg3 : arg3.IsWhole)
    (x0 x1 : Vec F S32x32x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (klOut x0 x1)) -∗ K ⟨⟩))
      ⊢ wp frame (wpE (defs₀ (F := F)) Variants.none c none) E (cc2__kl_kernel i arg1 harg1 arg2 harg2 arg3 harg3) K := by
  simp only [cc2__kl_kernel_eq_skeleton]; unfold cc2__kl_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (klCover _)

/-- The region's proof data on core `c`. -/
def klDat (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => klOut (iblk2 V c 0 t) (iblk2 V c 1 t)
  Φ _ := Pipeline.scopedRest (Ix := Unit) (Name := ℕ) (U := UR sig nD τ) (Lvl := ℕ) (Val := Elt F) spec2 c
  q _ := fullShare
  owed _ := 0

theorem klA_eq (c : Dev nD) (w : Fin cfg2.W) : (klDat V c).A w = V c (Pipeline.arrRef spec2 w) := by
  dsimp only [klDat]
theorem klAfter_0 (c : Dev nD) (t : Fin cfg2.N) : (klDat V c).after 0 t = iblk2 V c 0 t := by dsimp only [klDat]
theorem klAfter_1 (c : Dev nD) (t : Fin cfg2.N) : (klDat V c).after 1 t = iblk2 V c 1 t := by dsimp only [klDat]
theorem klAfter_2 (c : Dev nD) (t : Fin cfg2.N) : (klDat V c).after 2 t = klOut (iblk2 V c 0 t) (iblk2 V c 1 t) := by dsimp only [klDat]
theorem klBefore_0 (c : Dev nD) (t : Fin cfg2.N) (d) : (klDat V c).before 0 t d = iblk2 V c 0 t :=
  before2_0_of V (klDat V c) (klA_eq V c 0) (klAfter_0 V c) t d
theorem klBefore_1 (c : Dev nD) (t : Fin cfg2.N) (d) : (klDat V c).before 1 t d = iblk2 V c 1 t :=
  before2_1_of V (klDat V c) (klA_eq V c 1) (klAfter_1 V c) t d

/-- What the body is called with at point `t`, -/
def klBodyPre (c : Dev nD) (t : Fin cfg2.N) : sProp 𝕄 :=
  iprop((klDat V c).Φ t.castSucc ∗ (klDat V c).owesAt () t.castSucc
    ∗ (∃ d, owns (c : Thread nD τ) (st2_0 t) fullShare ((klDat V c).before 0 t d))
    ∗ (∃ d, owns (c : Thread nD τ) (st2_1 t) fullShare ((klDat V c).before 1 t d))
    ∗ (∃ d, owns (c : Thread nD τ) (st2_2 t) fullShare ((klDat V c).before 2 t d)))

/-- and what it returns. -/
def klBodyPost (c : Dev nD) (t : Fin cfg2.N) : sProp 𝕄 :=
  iprop((klDat V c).Φ t.succ ∗ (klDat V c).owesAt () t.succ
    ∗ owns (c : Thread nD τ) (st2_0 t) fullShare ((klDat V c).after 0 t)
    ∗ owns (c : Thread nD τ) (st2_1 t) fullShare ((klDat V c).after 1 t)
    ∗ owns (c : Thread nD τ) (st2_2 t) fullShare ((klDat V c).after 2 t))

theorem klSoundBody (c : Dev nD) (t : Fin cfg2.N) :
    klBodyPre V c t ⊢ wp frame (wpE (defs₀ (F := F)) Variants.none c none) Set.univ (bodyAt2 t) (fun _ => klBodyPost V c t) := by
  unfold klBodyPre klBodyPost bodyAt2
  simp only [klBefore_0, klBefore_1]
  rw [show (klDat V c).Φ t.succ = (klDat V c).Φ t.castSucc from rfl,
    show (klDat V c).owesAt () t.succ = (klDat V c).owesAt () t.castSucc from rfl,
    klAfter_0, klAfter_1, klAfter_2]
  iintro ⟨HΦ, Ho, ⟨%d0, H0⟩, ⟨%d1, H1⟩, ⟨%d2, H2⟩⟩
  iapply (klKernel c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem klBodyObligation (c : Dev nD) : BodyObligation (klDat (F := F) V c) (defs₀ (F := F)) Variants.none () Set.univ := fun t => by
  rw [bigSep_W2, bigSep_W2]
  exact klSoundBody V c t

/-- Into the invariant and out of it: it is the scoped rest itself. -/
theorem klΦ_in (c : Dev nD) :
    (Pipeline.scopedRest (Ix := Unit) (Name := ℕ) (U := UR sig nD τ) (Lvl := ℕ) (Val := Elt F) spec2 c : sProp 𝕄) ⊢ (klDat V c).Φ 0 := .rfl
theorem klΦ_out (c : Dev nD) :
    (klDat V c).Φ (Fin.last cfg2.N) ⊢ (Pipeline.scopedRest (Ix := Unit) (Name := ℕ) (U := UR sig nD τ) (Lvl := ℕ) (Val := Elt F) spec2 c : sProp 𝕄) := .rfl

end Cert.KernelIdeal.Elbo

end
-- ==== Proof.KernelIdeal.Run.lean ====
/-
  The whole program's run, from the launch to the return: three kernel regions (the English, the French and the
  Kullback–Leibler pallas_calls) with a reshape after each, then the final sum and difference. Between two items every
  unscoped buffer of the core is held at named contents: the launch memory, then each region's arrays at what its
  pipeline leaves and each host stretch's results. Every weakly fair execution terminates, and at the end every
  unscoped buffer holds the last of those contents.
-/
import proofs.«410933_j24077586661495_3_alg».proof.Proof.KernelIdeal.RegionEn
import proofs.«410933_j24077586661495_3_alg».proof.Proof.KernelIdeal.RegionFr
import proofs.«410933_j24077586661495_3_alg».proof.Proof.KernelIdeal.RegionKl
set_option maxRecDepth 16384

noncomputable section

namespace Cert.KernelIdeal.Elbo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (enDat (V0 m ρ) c).arrAt w cfg0.N
theorem W1_arr (c : Dev nD) (w : Fin cfg0.W) :
    W1 m ρ c (Proc.devRef .tc (Pipeline.arrRef spec0 w)) = (enDat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (enDat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first reshape. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (frDat (V2 m ρ) c).arrAt w cfg1.N
theorem W3_arr (c : Dev nD) (w : Fin cfg1.W) :
    W3 m ρ c (Proc.devRef .tc (Pipeline.arrRef spec1 w)) = (frDat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (frDat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second reshape. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves, every other buffer as entered. -/
def W5 (c : Dev nD) : Valuation τ sig (Elt F) :=
  Pipeline.withArrays spec2 c (W4 m ρ c) fun w => (klDat (V4 m ρ) c).arrAt w cfg2.N
theorem W5_arr (c : Dev nD) (w : Fin cfg2.W) :
    W5 m ρ c (Proc.devRef .tc (Pipeline.arrRef spec2 w)) = (klDat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (klDat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the third reshape, the sum and the difference: the end. -/
abbrev W6 : Dev nD → Valuation τ sig (Elt F) := fun c => StableHlo.after hostOps3 (W5 m ρ c)

/-! ## The proof data family and the thread state -/

/-- No host operation allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => enDat (V0 m ρ) c
  | ⟨1, _⟩ => fun c => frDat (V2 m ρ) c
  | ⟨2, _⟩ => fun c => klDat (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at the exit contents; the scoped
    rest goes into the region's invariant and comes back out of it; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (enBodyObligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := BI.emp
  Y _ := BI.emp
  Z c := iprop(Pipeline.unscopedRest (Ix := Unit) (Name := ℕ) (U := UR sig nD τ) (Lvl := ℕ) spec0 c (V0 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (enDat (V0 m ρ) c).Φ 0 from rfl]
    iintro ⟨-, -, Hr⟩
    iapply (enΦ_in (V0 m ρ) c)
    iexact Hr
  hout c := by
    rw [Pipeline.ownSems0_none, show (pdats m ρ 0 c).Φ (Fin.last _) = (enDat (V0 m ρ) c).Φ (Fin.last cfg0.N) from rfl]
    iintro Hr
    isplitr; · iempintro
    isplitr; · iempintro
    iapply (enΦ_out (V0 m ρ) c)
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the scoped
    rest goes into the region's invariant and comes back out of it; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (frBodyObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (frDat (V2 m ρ) c).Φ 0 from rfl]
    iintro ⟨-, -, Hr⟩
    iapply (frΦ_in (V2 m ρ) c)
    iexact Hr
  hout c := by
    rw [Pipeline.ownSems0_none, show (pdats m ρ 1 c).Φ (Fin.last _) = (frDat (V2 m ρ) c).Φ (Fin.last cfg1.N) from rfl]
    iintro Hr
    isplitr; · iempintro
    isplitr; · iempintro
    iapply (frΦ_out (V2 m ρ) c)
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the scoped
    rest goes into the region's invariant and comes back out of it; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (klBodyObligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X _ := BI.emp
  Y _ := BI.emp
  Z c := iprop(Pipeline.unscopedRest (Ix := Unit) (Name := ℕ) (U := UR sig nD τ) (Lvl := ℕ) spec2 c (V4 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = (klDat (V4 m ρ) c).Φ 0 from rfl]
    iintro ⟨-, -, Hr⟩
    iapply (klΦ_in (V4 m ρ) c)
    iexact Hr
  hout c := by
    rw [Pipeline.ownSems0_none, show (pdats m ρ 2 c).Φ (Fin.last _) = (klDat (V4 m ρ) c).Φ (Fin.last cfg2.N) from rfl]
    iintro Hr
    isplitr; · iempintro
    isplitr; · iempintro
    iapply (klΦ_out (V4 m ρ) c)
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Elbo

end
-- ==== Proof.KernelIdeal.RunArgs.lean ====
/-
  The fold of buffer contents through @main, read at the argument arrays.

  No host stretch and no region writes an argument array (a region reads it through an input window or leaves it alone),
  so at every boundary an argument's buffer holds its launch contents. The result is the last host stretch's difference
  of the Kullback–Leibler region's output and the sum of the English and French regions' outputs, each reshaped from
  [1,1] to a scalar.
-/
import proofs.«410933_j24077586661495_3_alg».proof.Proof.KernelIdeal.Run
set_option maxRecDepth 16384

noncomputable section

namespace Cert.KernelIdeal.Elbo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves of a buffer it does not write -/

/-- The first reshape writes `main_v1` only. -/
private theorem writes1 : (hostOps1 : List (HloOp τ sig (Elt F))).Forall fun op =>
    op.writes ⊆ (([main_v1] : List (Ref sig .tc)).map (Proc.devRef (τ := τ) .tc)).toFinset := by
  simp only [List.Forall, StableHlo.reshape_writes, Finset.singleton_subset_iff, List.mem_toFinset]
  exact List.mem_map_of_mem (by decide)
/-- The second reshape writes `main_v3` only. -/
private theorem writes2 : (hostOps2 : List (HloOp τ sig (Elt F))).Forall fun op =>
    op.writes ⊆ (([main_v3] : List (Ref sig .tc)).map (Proc.devRef (τ := τ) .tc)).toFinset := by
  simp only [List.Forall, StableHlo.reshape_writes, Finset.singleton_subset_iff, List.mem_toFinset]
  exact List.mem_map_of_mem (by decide)
/-- The last stretch writes `main_v5`, `main_v6` and `main_v7` only. -/
private theorem writes3 : (hostOps3 : List (HloOp τ sig (Elt F))).Forall fun op =>
    op.writes ⊆ (([main_v5, main_v6, main_v7] : List (Ref sig .tc)).map (Proc.devRef (τ := τ) .tc)).toFinset := by
  simp only [List.Forall, StableHlo.reshape_writes, StableHlo.binary_writes, Finset.singleton_subset_iff, List.mem_toFinset]
  exact ⟨List.mem_map_of_mem (by decide), List.mem_map_of_mem (by decide), List.mem_map_of_mem (by decide)⟩

/-- A host stretch leaves a reference it does not write. -/
private theorem W2_of (c : Dev nD) (r : Ref sig .tc) (h : r ∉ ([main_v1] : List (Ref sig .tc))) :
    W2 m ρ c (Proc.devRef .tc r) = W1 m ρ c (Proc.devRef .tc r) :=
  StableHlo.after_of_writes_sub hostOps1 _ writes1 h
private theorem W4_of (c : Dev nD) (r : Ref sig .tc) (h : r ∉ ([main_v3] : List (Ref sig .tc))) :
    W4 m ρ c (Proc.devRef .tc r) = W3 m ρ c (Proc.devRef .tc r) :=
  StableHlo.after_of_writes_sub hostOps2 _ writes2 h
private theorem W6_of (c : Dev nD) (r : Ref sig .tc) (h : r ∉ ([main_v5, main_v6, main_v7] : List (Ref sig .tc))) :
    W6 m ρ c (Proc.devRef .tc r) = W5 m ρ c (Proc.devRef .tc r) :=
  StableHlo.after_of_writes_sub hostOps3 _ writes3 h

/-- A region leaves the array of an input window as it found it. -/
private theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((enDat (V0 m ρ) c).arrAt_in w hin _).trans (enA_eq (V0 m ρ) c w))
private theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((frDat (V2 m ρ) c).arrAt_in w hin _).trans (frA_eq (V2 m ρ) c w))
private theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((klDat (V4 m ρ) c).arrAt_in w hin _).trans (klA_eq (V4 m ρ) c w))

/-! ## The arguments after each reshape -/

/-- After the first reshape: the English region staged `main_arg4` and `main_arg0` through input windows and has no
    window on the others. -/
private theorem W2_arg0 (c : Dev nD) : W2 m ρ c (Proc.devRef .tc main_arg0) = m ((c : Thread nD τ).loc main_arg0) :=
  (W2_of m ρ c main_arg0 (by decide)).trans (W1_in m ρ c 1 rfl)
private theorem W2_arg1 (c : Dev nD) : W2 m ρ c (Proc.devRef .tc main_arg1) = m ((c : Thread nD τ).loc main_arg1) :=
  (W2_of m ρ c main_arg1 (by decide)).trans (W1_of_ne m ρ c main_arg1 (by decide))
private theorem W2_arg2 (c : Dev nD) : W2 m ρ c (Proc.devRef .tc main_arg2) = m ((c : Thread nD τ).loc main_arg2) :=
  (W2_of m ρ c main_arg2 (by decide)).trans (W1_of_ne m ρ c main_arg2 (by decide))
private theorem W2_arg3 (c : Dev nD) : W2 m ρ c (Proc.devRef .tc main_arg3) = m ((c : Thread nD τ).loc main_arg3) :=
  (W2_of m ρ c main_arg3 (by decide)).trans (W1_of_ne m ρ c main_arg3 (by decide))
private theorem W2_arg4 (c : Dev nD) : W2 m ρ c (Proc.devRef .tc main_arg4) = m ((c : Thread nD τ).loc main_arg4) :=
  (W2_of m ρ c main_arg4 (by decide)).trans (W1_in m ρ c 0 rfl)
private theorem W2_arg5 (c : Dev nD) : W2 m ρ c (Proc.devRef .tc main_arg5) = m ((c : Thread nD τ).loc main_arg5) :=
  (W2_of m ρ c main_arg5 (by decide)).trans (W1_of_ne m ρ c main_arg5 (by decide))

/-- After the second reshape: the French region staged `main_arg5` through an input window and has no window on the others. -/
private theorem W4_arg0 (c : Dev nD) : W4 m ρ c (Proc.devRef .tc main_arg0) = m ((c : Thread nD τ).loc main_arg0) :=
  (W4_of m ρ c main_arg0 (by decide)).trans ((W3_of_ne m ρ c main_arg0 (by decide)).trans (W2_arg0 m ρ c))
private theorem W4_arg1 (c : Dev nD) : W4 m ρ c (Proc.devRef .tc main_arg1) = m ((c : Thread nD τ).loc main_arg1) :=
  (W4_of m ρ c main_arg1 (by decide)).trans ((W3_of_ne m ρ c main_arg1 (by decide)).trans (W2_arg1 m ρ c))
private theorem W4_arg2 (c : Dev nD) : W4 m ρ c (Proc.devRef .tc main_arg2) = m ((c : Thread nD τ).loc main_arg2) :=
  (W4_of m ρ c main_arg2 (by decide)).trans ((W3_of_ne m ρ c main_arg2 (by decide)).trans (W2_arg2 m ρ c))
private theorem W4_arg3 (c : Dev nD) : W4 m ρ c (Proc.devRef .tc main_arg3) = m ((c : Thread nD τ).loc main_arg3) :=
  (W4_of m ρ c main_arg3 (by decide)).trans ((W3_of_ne m ρ c main_arg3 (by decide)).trans (W2_arg3 m ρ c))
private theorem W4_arg4 (c : Dev nD) : W4 m ρ c (Proc.devRef .tc main_arg4) = m ((c : Thread nD τ).loc main_arg4) :=
  (W4_of m ρ c main_arg4 (by decide)).trans ((W3_of_ne m ρ c main_arg4 (by decide)).trans (W2_arg4 m ρ c))
private theorem W4_arg5 (c : Dev nD) : W4 m ρ c (Proc.devRef .tc main_arg5) = m ((c : Thread nD τ).loc main_arg5) :=
  (W4_of m ρ c main_arg5 (by decide)).trans ((W3_in m ρ c 0 rfl).trans (W2_arg5 m ρ c))

/-- The arguments at the end. -/
theorem W6_main_arg0 (c : Dev nD) : W6 m ρ c (Proc.devRef .tc main_arg0) = m ((c : Thread nD τ).loc main_arg0) :=
  (W6_of m ρ c main_arg0 (by decide)).trans ((W5_of_ne m ρ c main_arg0 (by decide)).trans (W4_arg0 m ρ c))
theorem W6_main_arg1 (c : Dev nD) : W6 m ρ c (Proc.devRef .tc main_arg1) = m ((c : Thread nD τ).loc main_arg1) :=
  (W6_of m ρ c main_arg1 (by decide)).trans ((W5_of_ne m ρ c main_arg1 (by decide)).trans (W4_arg1 m ρ c))
theorem W6_main_arg2 (c : Dev nD) : W6 m ρ c (Proc.devRef .tc main_arg2) = m ((c : Thread nD τ).loc main_arg2) :=
  (W6_of m ρ c main_arg2 (by decide)).trans ((W5_in m ρ c 0 rfl).trans (W4_arg2 m ρ c))
theorem W6_main_arg3 (c : Dev nD) : W6 m ρ c (Proc.devRef .tc main_arg3) = m ((c : Thread nD τ).loc main_arg3) :=
  (W6_of m ρ c main_arg3 (by decide)).trans ((W5_in m ρ c 1 rfl).trans (W4_arg3 m ρ c))
theorem W6_main_arg4 (c : Dev nD) : W6 m ρ c (Proc.devRef .tc main_arg4) = m ((c : Thread nD τ).loc main_arg4) :=
  (W6_of m ρ c main_arg4 (by decide)).trans ((W5_of_ne m ρ c main_arg4 (by decide)).trans (W4_arg4 m ρ c))
theorem W6_main_arg5 (c : Dev nD) : W6 m ρ c (Proc.devRef .tc main_arg5) = m ((c : Thread nD τ).loc main_arg5) :=
  (W6_of m ρ c main_arg5 (by decide)).trans ((W5_of_ne m ρ c main_arg5 (by decide)).trans (W4_arg5 m ρ c))

/-- The arguments each region finds. -/
theorem V0_main_arg0 (c : Dev nD) : V0 m ρ c main_arg0 = m ((c : Thread nD τ).loc main_arg0) := rfl
theorem V0_main_arg4 (c : Dev nD) : V0 m ρ c main_arg4 = m ((c : Thread nD τ).loc main_arg4) := rfl
theorem V2_main_arg5 (c : Dev nD) : V2 m ρ c main_arg5 = m ((c : Thread nD τ).loc main_arg5) := by
  exact W2_arg5 m ρ c
theorem V4_main_arg2 (c : Dev nD) : V4 m ρ c main_arg2 = m ((c : Thread nD τ).loc main_arg2) := by
  exact W4_arg2 m ρ c
theorem V4_main_arg3 (c : Dev nD) : V4 m ρ c main_arg3 = m ((c : Thread nD τ).loc main_arg3) := by
  exact W4_arg3 m ρ c

end Cert.KernelIdeal.Elbo

end
-- ==== Proof.KernelIdeal.ArrOut.lean ====
/-
  What each region leaves in its output array, and what each region's blocks are, read off the arrays the region finds.

  Each output is a [1,1] array written back once, at the region's last point, so after the run it holds what that point's
  body left in the staging buffer. The English and French inputs are cut into tiles along their last axis: tile `t` at
  local index `j` is the array at `t · (tile width) + j`; the word ids and the Kullback–Leibler inputs are one whole block.
-/
import proofs.«410933_j24077586661495_3_alg».proof.Proof.KernelIdeal.Run
import Idealize.ShloMosaic.Lib.ValueIdx
set_option maxRecDepth 16384

noncomputable section

namespace Cert.KernelIdeal.Elbo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The English output window's index map is constantly zero. -/
private theorem en_out_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Its one block covers the [1,1] array. -/
private theorem en_out_mem (t : Fin cfg0.N) (i : S1x1.Idx) : i ∈ ((cfg0.win 2).blk t).view.set := by
  show i ∈ ((View.whole main_v0).slice (win0_2.rect t)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index t (0 : Fin 2) * 1 ≤ (i 0 : Nat) ∧ (i 0 : Nat) < win0_2.index t (0 : Fin 2) * 1 + 1
    rw [(en_out_index t).1]; omega
  | ⟨1, _⟩ =>
    show win0_2.index t (1 : Fin 2) * 1 ≤ (i 1 : Nat) ∧ (i 1 : Nat) < win0_2.index t (1 : Fin 2) * 1 + 1
    rw [(en_out_index t).2]; omega

/-- The English region's output array after the run. -/
theorem en_arrAt (c : Dev nD) :
    ((enDat V c).arrAt 2 cfg0.N : Vec F S1x1 .f32) = k0_pay3 (enAcc (enW V c) (enBlk V c) 25) := by
  refine (enDat V c).arrAt_eq_of_cover 2 (k0_pay3 (enAcc (enW V c) (enBlk V c) 25)) ?_ ?_
  · intro t hf
    show (cfg0.win 2).cut (grid0.coords t) ((enDat V c).after 2 t) = _
    rw [enAfter_2]
    have hz' : (fun a => win0_2.index t a * main_v0.ty.shape.size a) = fun _ => 0 := by
      funext a
      match a with
      | ⟨0, _⟩ => show win0_2.index t (0 : Fin 2) * 1 = 0; rw [(en_out_index t).1]
      | ⟨1, _⟩ => show win0_2.index t (1 : Fin 2) * 1 = 0; rw [(en_out_index t).2]
    exact (Memref.read_access_unit_zero (Elt F) main_v0 hz' (fun a => by rw [congrFun hz' a]; simp) _).symm
  · intro i
    have ht : (24 : ℕ) < cfg0.N := by decide
    exact ⟨⟨24, ht⟩, (flush0_2 _).mpr rfl, en_out_mem _ i⟩

/-- The French output window's index map is constantly zero. -/
private theorem fr_out_index : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Its one block covers the [1,1] array. -/
private theorem fr_out_mem (t : Fin cfg1.N) (i : S1x1.Idx) : i ∈ ((cfg1.win 1).blk t).view.set := by
  show i ∈ ((View.whole main_v2).slice (win1_1.rect t)).set
  rw [View.set_slice_whole, Rect.mem_set_unit]
  intro a
  have h0 : (i 0 : Nat) < 1 := (i 0).isLt
  have h1 : (i 1 : Nat) < 1 := (i 1).isLt
  match a with
  | ⟨0, _⟩ =>
    show win1_1.index t (0 : Fin 2) * 1 ≤ (i 0 : Nat) ∧ (i 0 : Nat) < win1_1.index t (0 : Fin 2) * 1 + 1
    rw [(fr_out_index t).1]; omega
  | ⟨1, _⟩ =>
    show win1_1.index t (1 : Fin 2) * 1 ≤ (i 1 : Nat) ∧ (i 1 : Nat) < win1_1.index t (1 : Fin 2) * 1 + 1
    rw [(fr_out_index t).2]; omega

/-- The French region's output array after the run. -/
theorem fr_arrAt (c : Dev nD) :
    ((frDat V c).arrAt 1 cfg1.N : Vec F S1x1 .f32) = frAcc (frBlk V c) 4 := by
  refine (frDat V c).arrAt_eq_of_cover 1 (frAcc (frBlk V c) 4) ?_ ?_
  · intro t hf
    show (cfg1.win 1).cut (grid1.coords t) ((frDat V c).after 1 t) = _
    rw [frAfter_1]
    have hz' : (fun a => win1_1.index t a * main_v2.ty.shape.size a) = fun _ => 0 := by
      funext a
      match a with
      | ⟨0, _⟩ => show win1_1.index t (0 : Fin 2) * 1 = 0; rw [(fr_out_index t).1]
      | ⟨1, _⟩ => show win1_1.index t (1 : Fin 2) * 1 = 0; rw [(fr_out_index t).2]
    exact (Memref.read_access_unit_zero (Elt F) main_v2 hz' (fun a => by rw [congrFun hz' a]; simp) _).symm
  · intro i
    have ht : (3 : ℕ) < cfg1.N := by decide
    exact ⟨⟨3, ht⟩, (flush1_1 _).mpr rfl, fr_out_mem _ i⟩

/-- The Kullback–Leibler windows' index maps are constantly zero. -/
private theorem kl_index : ∀ t : Fin cfg2.N, (win2_0.index t (0 : Fin 3) = 0 ∧ win2_0.index t (1 : Fin 3) = 0 ∧ win2_0.index t (2 : Fin 3) = 0)
    ∧ (win2_1.index t (0 : Fin 3) = 0 ∧ win2_1.index t (1 : Fin 3) = 0 ∧ win2_1.index t (2 : Fin 3) = 0)
    ∧ (win2_2.index t (0 : Fin 2) = 0 ∧ win2_2.index t (1 : Fin 2) = 0) :=
  (by decide +kernel : ∀ t : Fin grid2.N, (win2_0.index t (0 : Fin 3) = 0 ∧ win2_0.index t (1 : Fin 3) = 0 ∧ win2_0.index t (2 : Fin 3) = 0)
    ∧ (win2_1.index t (0 : Fin 3) = 0 ∧ win2_1.index t (1 : Fin 3) = 0 ∧ win2_1.index t (2 : Fin 3) = 0)
    ∧ (win2_2.index t (0 : Fin 2) = 0 ∧ win2_2.index t (1 : Fin 2) = 0))

/-- The means' one block is the whole array. -/
private theorem kl_blk0 (c : Dev nD) (t : Fin cfg2.N) : iblk2 V c 0 t = (V c main_arg2 : Vec F S32x32x128 .f32) := by
  obtain ⟨⟨e0, e1, e2⟩, -, -⟩ := kl_index t
  unfold iblk2
  have hz' : (fun a => win2_0.index t a * main_arg2.ty.shape.size a) = fun _ => 0 := by
    funext a
    match a with
    | ⟨0, _⟩ => show win2_0.index t (0 : Fin 3) * 32 = 0; rw [e0]
    | ⟨1, _⟩ => show win2_0.index t (1 : Fin 3) * 32 = 0; rw [e1]
    | ⟨2, _⟩ => show win2_0.index t (2 : Fin 3) * 128 = 0; rw [e2]
  exact Memref.read_access_unit_zero (Elt F) main_arg2 hz' (fun a => by rw [congrFun hz' a]; simp) (V c main_arg2)

/-- The standard deviations' one block is the whole array. -/
private theorem kl_blk1 (c : Dev nD) (t : Fin cfg2.N) : iblk2 V c 1 t = (V c main_arg3 : Vec F S32x32x128 .f32) := by
  obtain ⟨-, ⟨e0, e1, e2⟩, -⟩ := kl_index t
  unfold iblk2
  have hz' : (fun a => win2_1.index t a * main_arg3.ty.shape.size a) = fun _ => 0 := by
    funext a
    match a with
    | ⟨0, _⟩ => show win2_1.index t (0 : Fin 3) * 32 = 0; rw [e0]
    | ⟨1, _⟩ => show win2_1.index t (1 : Fin 3) * 32 = 0; rw [e1]
    | ⟨2, _⟩ => show win2_1.index t (2 : Fin 3) * 128 = 0; rw [e2]
  exact Memref.read_access_unit_zero (Elt F) main_arg3 hz' (fun a => by rw [congrFun hz' a]; simp) (V c main_arg3)

/-- The Kullback–Leibler output's one block covers the [1,1] array. -/
private theorem kl_out_mem (t : Fin cfg2.N) (i : S1x1.Idx) : i ∈ ((cfg2.win 2).blk t).view.set := by
  obtain ⟨-, -, e0, e1⟩ := kl_index t
  show i ∈ ((View.whole main_v4).slice (win2_2.rect t)).set
  rw [View.set_slice_whole, Rect.mem_set_unit]
  intro a
  have h0 : (i 0 : Nat) < 1 := (i 0).isLt
  have h1 : (i 1 : Nat) < 1 := (i 1).isLt
  match a with
  | ⟨0, _⟩ =>
    show win2_2.index t (0 : Fin 2) * 1 ≤ (i 0 : Nat) ∧ (i 0 : Nat) < win2_2.index t (0 : Fin 2) * 1 + 1
    rw [e0]; omega
  | ⟨1, _⟩ =>
    show win2_2.index t (1 : Fin 2) * 1 ≤ (i 1 : Nat) ∧ (i 1 : Nat) < win2_2.index t (1 : Fin 2) * 1 + 1
    rw [e1]; omega

/-- The zero offsets of a rank-3 access, as the constant function. -/
private theorem hzKl : (![0, 0, 0] : Fin S32x32x128.rank → Nat) = fun _ => 0 := by
  funext a; match a with | ⟨0, _⟩ => rfl | ⟨1, _⟩ => rfl | ⟨2, _⟩ => rfl

/-- The Kullback–Leibler region's output array after the run. -/
theorem kl_arrAt (c : Dev nD) :
    ((klDat V c).arrAt 2 cfg2.N : Vec F S1x1 .f32) = k2_pay1 (V c main_arg2 : Vec F S32x32x128 .f32) (V c main_arg3 : Vec F S32x32x128 .f32) := by
  refine (klDat V c).arrAt_eq_of_cover 2 (k2_pay1 (V c main_arg2 : Vec F S32x32x128 .f32) (V c main_arg3 : Vec F S32x32x128 .f32)) ?_ ?_
  · intro t hf
    obtain ⟨-, -, e0, e1⟩ := kl_index t
    show (cfg2.win 2).cut (grid2.coords t) ((klDat V c).after 2 t) = _
    rw [klAfter_2, kl_blk0, kl_blk1]
    unfold klOut
    rw [View.canon_unit_zero hz11]
    simp only [View.ld_unit_zero (S := S32x32x128) hzKl]
    have hz' : (fun a => win2_2.index t a * main_v4.ty.shape.size a) = fun _ => 0 := by
      funext a
      match a with
      | ⟨0, _⟩ => show win2_2.index t (0 : Fin 2) * 1 = 0; rw [e0]
      | ⟨1, _⟩ => show win2_2.index t (1 : Fin 2) * 1 = 0; rw [e1]
    exact (Memref.read_access_unit_zero (Elt F) main_v4 hz' (fun a => by rw [congrFun hz' a]; simp) _).symm
  · intro i
    have ht : (0 : ℕ) < cfg2.N := by decide
    exact ⟨⟨0, ht⟩, flush2_2 _, kl_out_mem _ i⟩

/-- The English input window's index map: the tile number on the last axis, zero on the others. -/
private theorem en_in_index : ∀ t : Fin cfg0.N, win0_0.index t (0 : Fin 3) = 0 ∧ win0_0.index t (1 : Fin 3) = 0
    ∧ win0_0.index t (2 : Fin 3) = t.val :=
  (by decide +kernel : ∀ t : Fin grid0.N, win0_0.index t (0 : Fin 3) = 0 ∧ win0_0.index t (1 : Fin 3) = 0
    ∧ win0_0.index t (2 : Fin 3) = t.val)

/-- Tile `t` of the English probabilities at a local index is the array at the same sentence and position, and at
    `t · 1280` plus the local column. -/
private theorem enBlk_at (c : Dev nD) (t : Fin cfg0.N) (x : S32x32x1280.Idx) (k : S32x32x32000.Idx)
    (hk0 : (k 0).val = (x 0).val) (hk1 : (k 1).val = (x 1).val) (hk2 : (k 2).val = t.val * 1280 + (x 2).val) :
    (iblk0 V c 0 t : Vec F S32x32x1280 .f32) x = (V c main_arg4 : Vec F S32x32x32000 .f32) k := by
  obtain ⟨e0, e1, e2⟩ := en_in_index t
  unfold iblk0
  rw [View.read_apply]
  show V c main_arg4 _ = V c main_arg4 _
  congr 1
  funext a
  apply Fin.ext
  match a with
  | ⟨0, _⟩ => show win0_0.index t (0 : Fin 3) * 32 + 1 * (x 0).val = (k 0).val; rw [e0, hk0]; omega
  | ⟨1, _⟩ => show win0_0.index t (1 : Fin 3) * 32 + 1 * (x 1).val = (k 1).val; rw [e1, hk1]; omega
  | ⟨2, _⟩ => show win0_0.index t (2 : Fin 3) * 1280 + 1 * (x 2).val = (k 2).val; rw [e2, hk2]; omega

/-- Tile `t` of the English probabilities. -/
theorem enBlk_apply (c : Dev nD) (t : Fin grid0.N) (b l : Fin 32) (j : Fin 1280) (v : Fin 32000) (hv : v.val = t.val * 1280 + j.val) :
    enBlk V c t (ix3 b l j) = (V c main_arg4 : Vec F S32x32x32000 .f32) (ix3 b l v) :=
  enBlk_at V c t (ix3 b l j) (ix3 b l v) rfl rfl hv

/-- The word ids are the whole array. -/
theorem enW_eq (c : Dev nD) : enW V c = (V c main_arg0 : Vec F S32x32 .i32) := by
  unfold enW iblk0
  have hz' : (fun a => win0_1.index ⟨0, by decide⟩ a * main_arg0.ty.shape.size a) = fun _ => 0 :=
    funext fun a => by fin_cases a <;> decide
  exact Memref.read_access_unit_zero (Elt F) main_arg0 hz' (fun a => by rw [congrFun hz' a]; simp) (V c main_arg0)

/-- The French input window's index map: the tile number on the last axis, zero on the others. -/
private theorem fr_in_index : ∀ t : Fin cfg1.N, win1_0.index t (0 : Fin 3) = 0 ∧ win1_0.index t (1 : Fin 3) = 0
    ∧ win1_0.index t (2 : Fin 3) = t.val :=
  (by decide +kernel : ∀ t : Fin grid1.N, win1_0.index t (0 : Fin 3) = 0 ∧ win1_0.index t (1 : Fin 3) = 0
    ∧ win1_0.index t (2 : Fin 3) = t.val)

/-- Tile `t` of the French probabilities at a local index is the array at the same sentence and position, and at
    `t · 1024` plus the local column. -/
private theorem frBlk_at (c : Dev nD) (t : Fin cfg1.N) (x : S32x32x1024.Idx) (k : S32x32x4096.Idx)
    (hk0 : (k 0).val = (x 0).val) (hk1 : (k 1).val = (x 1).val) (hk2 : (k 2).val = t.val * 1024 + (x 2).val) :
    (iblk1 V c 0 t : Vec F S32x32x1024 .f32) x = (V c main_arg5 : Vec F S32x32x4096 .f32) k := by
  obtain ⟨e0, e1, e2⟩ := fr_in_index t
  unfold iblk1
  rw [View.read_apply]
  show V c main_arg5 _ = V c main_arg5 _
  congr 1
  funext a
  apply Fin.ext
  match a with
  | ⟨0, _⟩ => show win1_0.index t (0 : Fin 3) * 32 + 1 * (x 0).val = (k 0).val; rw [e0, hk0]; omega
  | ⟨1, _⟩ => show win1_0.index t (1 : Fin 3) * 32 + 1 * (x 1).val = (k 1).val; rw [e1, hk1]; omega
  | ⟨2, _⟩ => show win1_0.index t (2 : Fin 3) * 1024 + 1 * (x 2).val = (k 2).val; rw [e2, hk2]; omega

/-- Tile `t` of the French probabilities. -/
theorem frBlk_apply (c : Dev nD) (t : Fin grid1.N) (b l : Fin 32) (j : Fin 1024) (f : Fin 4096) (hf : f.val = t.val * 1024 + j.val) :
    frBlk V c t (ix3 b l j) = (V c main_arg5 : Vec F S32x32x4096 .f32) (ix3 b l f) :=
  frBlk_at V c t (ix3 b l j) (ix3 b l f) rfl rfl hf

end Cert.KernelIdeal.Elbo

end
-- ==== Proof.ElboSpec.lean ====
/-
  The quantity both programs compute, as one closed expression on the extended reals.

  For word ids `w[b,l]`, decoder probabilities `X[b,l,v]` (English, 32000 words) and `Y[b,l,f]` (French, 4096
  positions), and a diagonal Gaussian posterior with means `M[b,l,e]` and standard deviations `S[b,l,e]`:

    loss = KL − (logEn + logFr)
    logEn = ∑_{b,l} log (gold w X b l),   gold w X b l = ∑_v [w[b,l] = v] · X[b,l,v]      (the gold word's probability)
    logFr = ∑_{b,f} log ((∑_l Y[b,l,f]) · 2⁻⁵)                                          (the mean over the 32 positions)
    KL    = ∑_{b,l,e} ((0 − log S) + ½ (S² + M²) − ½)

  The gold word's probability is written as a one-hot sum over the vocabulary, so that it is total in `w`: for a
  word id inside the vocabulary it is the entry `X[b,l,w[b,l]]`, outside it is `0`.
-/
import Idealize.ShloMosaic.PureOps.Ideal
import Idealize.ShloMosaic.Lib.ValueIdx

noncomputable section

namespace Cert.Elbo

open Idealize.ShloMosaic Idealize.ShloMosaic.ValueIdx

/-- The two dyadic constants of the programs, as the words they are printed with. -/
abbrev half : EReal := Ideal.ofBits .f32 0x3F000000#32
abbrev inv32 : EReal := Ideal.ofBits .f32 0x3D000000#32

/-- The gold word's probability at sentence `b`, position `l`: the one-hot sum over the vocabulary. -/
def gold (w : (⟨2, ![32, 32]⟩ : Shape).Idx → BitVec 32) (X : (⟨3, ![32, 32, 32000]⟩ : Shape).Idx → EReal) (b l : Fin 32) : EReal :=
  ∑ v : Fin 32000, if w (ix2 b l) = BitVec.ofNat 32 v.val then X (ix3 b l v) else 0

/-- The English reconstruction term. -/
def logEn (w : (⟨2, ![32, 32]⟩ : Shape).Idx → BitVec 32) (X : (⟨3, ![32, 32, 32000]⟩ : Shape).Idx → EReal) : EReal :=
  ∑ b : Fin 32, ∑ l : Fin 32, Ideal.log (gold w X b l)

/-- The French term: the log of the mean over the English positions, summed over sentences and French positions. -/
def logFr (Y : (⟨3, ![32, 32, 4096]⟩ : Shape).Idx → EReal) : EReal :=
  ∑ b : Fin 32, ∑ f : Fin 4096, Ideal.log ((∑ l : Fin 32, Y (ix3 b l f)) * inv32)

/-- One coordinate's Kullback–Leibler term against the standard normal. -/
def klTerm (μ σ : EReal) : EReal := (0 - Ideal.log σ) + half * (σ * σ + μ * μ) - half

/-- The Kullback–Leibler term, summed over every coordinate. -/
def kl (M S : (⟨3, ![32, 32, 128]⟩ : Shape).Idx → EReal) : EReal :=
  ∑ b : Fin 32, ∑ l : Fin 32, ∑ e : Fin 128, klTerm (M (ix3 b l e)) (S (ix3 b l e))

/-- The loss. -/
def loss (w : (⟨2, ![32, 32]⟩ : Shape).Idx → BitVec 32) (M S : (⟨3, ![32, 32, 128]⟩ : Shape).Idx → EReal)
    (X : (⟨3, ![32, 32, 32000]⟩ : Shape).Idx → EReal) (Y : (⟨3, ![32, 32, 4096]⟩ : Shape).Idx → EReal) : EReal :=
  kl M S - (logEn w X + logFr Y)

end Cert.Elbo

end
-- ==== Proof.KernelIdeal.ValueEn.lean ====
/-
  The English kernel's result at the extended reals: after its 25 tiles the running sum holds each row's gold-word
  probability (the one-hot sum over the vocabulary, tile by tile), and the last point's log and two sums make `logEn`.
-/
import proofs.«410933_j24077586661495_3_alg».proof.Proof.KernelIdeal.Acc
import proofs.«410933_j24077586661495_3_alg».proof.Proof.ElboSpec
import Idealize.ShloMosaic.PureOps.Ideal.Laws
import Idealize.ShloMosaic.Lib.Pipeline.Value
import Idealize.ShloMosaic.Lib.ValueLayout

noncomputable section

namespace Cert.KernelIdeal.Elbo

open Cert.KernelIdeal Cert.KernelIdeal.Gen Idealize.ShloMosaic Idealize.ShloMosaic.ValueIdx

/-- On the one-axis grid a point's coordinate is its number. -/
private theorem coords0_val (t : Fin grid0.N) : (grid0.coords t 0).val = t.val := by
  have hN : grid0.N = 25 := by decide
  have ht : t.val < 25 := hN ▸ t.isLt
  show t.val / grid0.stride 0 % 25 = t.val
  have hs : grid0.stride 0 = 1 := by decide
  rw [hs, Nat.div_one, Nat.mod_eq_of_lt ht]

/-- Row `(b, l)` with lane `j` put back on the summed axis is the index `(b, l, j)`. -/
private theorem lift3 (b l : Fin 32) (j : Fin 1280) :
    reduces_S32x32x1280_S32x32.lift (ix2 b l) j = ix3 b l j := by
  funext c
  match c with
  | ⟨0, _⟩ => rfl
  | ⟨1, _⟩ => rfl
  | ⟨2, _⟩ => rfl

/-- The sum over the lanes of a tile, read at row `(b, l)`. -/
private theorem lane_sum (src : FVec Ideal S32x32x1280 .f32) (hφ : FKind.Formats .f32)
    (hacc : (0x00000000#32 : BitVec 32) = 0x00000000#32) (b l : Fin 32) :
    multiReduction .add [2] S32x32 src 0x00000000#32 reduces_S32x32x1280_S32x32 hφ hacc (ix2 b l)
      = ∑ j : Fin 1280, src (ix3 b l j) := by
  refine (Ideal.multiReduction_add_single src 0x00000000#32 reduces_S32x32x1280_S32x32 hφ hacc (ix2 b l)).trans ?_
  exact Finset.sum_congr rfl fun j _ => congrArg src (lift3 b l j)

/-- The mask at lane `j` of row `(b, l)`: the lane number against the row's word id less the tile's offset `c`. -/
private theorem mask_apply (c : BitVec 32) (w : Vec Ideal S32x32 .i32) (b l : Fin 32) (j : Fin 1280) :
    cmpi .eq (iota .tc S32x32x1280 32 [2] iota_S32x32x1280_d2_w32)
      (broadcastTo S32x32x1280 (shapeCast S32x32x1 (subi w (broadcast S32x32 c)) shapeCasts_S32x32_S32x32x1)
        broadcasts_S32x32x1_S32x32x1280) (ix3 b l j)
      = IntOp.cmpi .eq (BitVec.ofNat 32 j.val) (w (ix2 b l) - c) := by
  refine congrArg₂ (IntOp.cmpi .eq) (iota_single_apply _ _ _ _ _ _) ?_
  refine (broadcastTo_apply _ _ (ix3 b l j) (ix3 b l (0 : Fin 1)) fun a => ?_).trans ?_
  · match a with
    | ⟨0, _⟩ => rfl
    | ⟨1, _⟩ => rfl
    | ⟨2, _⟩ => rfl
  refine (shapeCast_apply _ _ (ix3 b l (0 : Fin 1)) (ix2 b l) ?_).trans rfl
  rw [Shape.rowMajor_val_two, Shape.rowMajor_val_three]
  show b.val * 32 + l.val = (b.val * 32 + l.val) * 1 + 0
  omega

/-- A select on an equality test is the `if` on the equality. -/
private theorem select_cmpi_eq {α : Type} (u v : BitVec 32) (a z : α) :
    Scalar.select (IntOp.cmpi .eq u v) a z = if u = v then a else z := by
  unfold Scalar.select IntOp.cmpi
  by_cases h : u = v
  · simp [h]
  · have hb : (u == v) = false := beq_eq_false_iff_ne.mpr h
    simp [h, hb]

/-- Lane `j` of tile `t` carries word `1280 t + j`: the test against the shifted word id is the test against that word. -/
private theorem word_iff (x : BitVec 32) (t j : ℕ) :
    BitVec.ofNat 32 j = x - Scalar.muli (BitVec.ofNat 32 t) 1280#32 ↔ x = BitVec.ofNat 32 (t * 1280 + j) := by
  have e : BitVec.ofNat 32 (t * 1280 + j) = BitVec.ofNat 32 j + BitVec.ofNat 32 t * 1280#32 := by
    rw [BitVec.ofNat_add, BitVec.ofNat_mul, BitVec.add_comm]
  rw [e, BitVec.eq_sub_iff_add_eq]
  exact eq_comm

/-- The second point's payload at row `(b, l)`: what was carried plus the tile's one-hot sum over its 1280 lanes. -/
private theorem pay2_apply (t : Fin grid0.N) (w : Vec Ideal S32x32 .i32) (x : Vec Ideal S32x32x1280 .f32)
    (acc : Vec Ideal S32x32 .f32) (b l : Fin 32) :
    k0_pay2 (F := Ideal) (grid0.coords t) w x acc (ix2 b l)
      = acc (ix2 b l) + ∑ j : Fin 1280,
          if w (ix2 b l) = BitVec.ofNat 32 (t.val * 1280 + j.val) then x (ix3 b l j) else 0 := by
  unfold k0_pay2
  dsimp only
  rw [shapeCast_self, coords0_val]
  refine congrArg (acc (ix2 b l) + ·) ?_
  refine (lane_sum _ _ _ b l).trans ?_
  refine Finset.sum_congr rfl fun j _ => ?_
  refine (congrArg (fun c => Scalar.select c (x (ix3 b l j)) (Ideal.ofBits .f32 0x00000000#32)) (mask_apply _ w b l j)).trans ?_
  rw [select_cmpi_eq, Ideal.ofBits_zero_f32]
  exact if_congr (word_iff _ _ _) rfl rfl

/-- Tile `t`'s share of row `(b, l)`'s one-hot sum: lane `j` of the tile counts where the row's word is `1280 t + j`
    (nothing past the grid's last tile). -/
private def tileSum (w : Vec Ideal S32x32 .i32) (blk : Fin grid0.N → Vec Ideal S32x32x1280 .f32) (b l : Fin 32) (t : ℕ) : EReal :=
  if h : t < grid0.N then
    ∑ j : Fin 1280, if w (ix2 b l) = BitVec.ofNat 32 (t * 1280 + j.val) then blk ⟨t, h⟩ (ix3 b l j) else 0
  else 0

/-- After `k` points the running sum at row `(b, l)` is the sum of the first `k` tiles' shares. -/
private theorem enAcc_apply (w : Vec Ideal S32x32 .i32) (blk : Fin grid0.N → Vec Ideal S32x32x1280 .f32) (k : ℕ) (b l : Fin 32) :
    enAcc w blk k (ix2 b l) = ∑ t ∈ Finset.range k, tileSum w blk b l t := by
  induction k with
  | zero =>
    rw [Finset.sum_range_zero, enAcc]
    unfold k0_pay1
    rw [shapeCast_self]
    exact Ideal.ofBits_zero_f32
  | succ k ih =>
    rw [Finset.sum_range_succ, ← ih, enAcc]
    by_cases h : k < grid0.N
    · rw [dif_pos h, tileSum, dif_pos h]
      exact pay2_apply ⟨k, h⟩ w (blk ⟨k, h⟩) (enAcc w blk k) b l
    · rw [dif_neg h, tileSum, dif_neg h, add_zero]

/-- A word of the vocabulary is a tile and a lane of it. -/
private def tileEquiv : Fin 25 × Fin 1280 ≃ Fin 32000 where
  toFun p := ⟨p.1.val * 1280 + p.2.val, by have := p.1.isLt; have := p.2.isLt; omega⟩
  invFun v := (⟨v.val / 1280, by have := v.isLt; omega⟩, ⟨v.val % 1280, Nat.mod_lt _ (by decide)⟩)
  left_inv p := by
    have := p.1.isLt; have := p.2.isLt
    refine Prod.ext (Fin.ext ?_) (Fin.ext ?_)
    · show (p.1.val * 1280 + p.2.val) / 1280 = p.1.val
      omega
    · show (p.1.val * 1280 + p.2.val) % 1280 = p.2.val
      omega
  right_inv v := Fin.ext (by show v.val / 1280 * 1280 + v.val % 1280 = v.val; omega)

/-- After all 25 tiles the running sum at row `(b, l)` is the gold word's probability. -/
private theorem enAcc_25 (w : Vec Ideal S32x32 .i32) (X : Vec Ideal S32x32x32000 .f32) (blk : Fin grid0.N → Vec Ideal S32x32x1280 .f32)
    (hblk : ∀ (t : Fin grid0.N) (b l : Fin 32) (j : Fin 1280) (v : Fin 32000), v.val = t.val * 1280 + j.val →
      blk t (ix3 b l j) = X (ix3 b l v)) (b l : Fin 32) :
    enAcc w blk 25 (ix2 b l) = Cert.Elbo.gold w X b l := by
  have hN : grid0.N = 25 := by decide
  rw [enAcc_apply, Finset.sum_range]
  unfold Cert.Elbo.gold
  refine Eq.trans ?_ (Equiv.sum_comp tileEquiv _)
  rw [Fintype.sum_prod_type]
  refine Finset.sum_congr rfl fun t _ => ?_
  have h : t.val < grid0.N := by rw [hN]; exact t.isLt
  rw [tileSum, dif_pos h]
  refine Finset.sum_congr rfl fun j _ => ?_
  rw [hblk ⟨t.val, h⟩ b l j (tileEquiv (t, j)) rfl]
  rfl

/-- Sentence `b` with position `l` put back on the summed axis is the index `(b, l)`. -/
private theorem lift2_row (b l : Fin 32) : reduces_S32x32_S32.lift (ix1 b) l = ix2 b l := by
  funext c
  match c with
  | ⟨0, _⟩ => rfl
  | ⟨1, _⟩ => rfl

/-- The one column with sentence `b` put back on the summed axis is the index `(b, 0)`. -/
private theorem lift2_col (z : Fin 1) (b : Fin 32) : reduces_S32x1_S1.lift (ix1 z) b = ix2 b z := by
  funext c
  match c with
  | ⟨0, _⟩ => rfl
  | ⟨1, _⟩ => rfl

/-- The sum over the positions, read at sentence `b`. -/
private theorem row_sum (src : FVec Ideal S32x32 .f32) (hφ : FKind.Formats .f32)
    (hacc : (0x00000000#32 : BitVec 32) = 0x00000000#32) (b : Fin 32) :
    multiReduction .add [1] S32 src 0x00000000#32 reduces_S32x32_S32 hφ hacc (ix1 b) = ∑ l : Fin 32, src (ix2 b l) := by
  refine (Ideal.multiReduction_add_single src 0x00000000#32 reduces_S32x32_S32 hφ hacc (ix1 b)).trans ?_
  exact Finset.sum_congr rfl fun l _ => congrArg src (lift2_row b l)

/-- The sum over the sentences, read at the one column. -/
private theorem col_sum (src : FVec Ideal S32x1 .f32) (hφ : FKind.Formats .f32)
    (hacc : (0x00000000#32 : BitVec 32) = 0x00000000#32) (z : Fin 1) :
    multiReduction .add [0] S1 src 0x00000000#32 reduces_S32x1_S1 hφ hacc (ix1 z) = ∑ b : Fin 32, src (ix2 b z) := by
  refine (Ideal.multiReduction_add_single src 0x00000000#32 reduces_S32x1_S1 hφ hacc (ix1 z)).trans ?_
  exact Finset.sum_congr rfl fun b _ => congrArg src (lift2_col z b)

/-- The last point's payload: the sum over sentences and positions of the logarithm of what was carried. -/
private theorem pay3_apply (a : Vec Ideal S32x32 .f32) (i : S1x1.Idx) :
    k0_pay3 (F := Ideal) a i = ∑ b : Fin 32, ∑ l : Fin 32, Ideal.log (a (ix2 b l)) := by
  unfold k0_pay3
  dsimp only
  refine (shapeCast_apply _ _ i (ix1 (0 : Fin 1)) ?_).trans ?_
  · rw [Shape.rowMajor_val_one, Shape.rowMajor_val_two]
    have h0 : (i 0).val < 1 := (i 0).isLt
    have h1 : (i 1).val < 1 := (i 1).isLt
    show 0 = (i 0).val * 1 + (i 1).val
    omega
  refine (col_sum _ _ _ 0).trans ?_
  refine Finset.sum_congr rfl fun b _ => ?_
  refine (shapeCast_apply _ _ (ix2 b (0 : Fin 1)) (ix1 b) ?_).trans ?_
  · rw [Shape.rowMajor_val_one, Shape.rowMajor_val_two]
    show b.val = b.val * 1 + 0
    omega
  exact row_sum _ _ _ b

/-- If tile `t` of the probabilities is the slice `[1280 t, 1280 (t+1))` of the vocabulary axis, the value the last
    point stores is `logEn`. -/
theorem en_value (w : Vec Ideal S32x32 .i32) (X : Vec Ideal S32x32x32000 .f32) (blk : Fin grid0.N → Vec Ideal S32x32x1280 .f32)
    (hblk : ∀ (t : Fin grid0.N) (b l : Fin 32) (j : Fin 1280) (v : Fin 32000), v.val = t.val * 1280 + j.val →
      blk t (ix3 b l j) = X (ix3 b l v)) :
    k0_pay3 (F := Ideal) (enAcc w blk 25) = fun _ => Cert.Elbo.logEn w X := by
  funext i
  rw [pay3_apply]
  unfold Cert.Elbo.logEn
  exact Finset.sum_congr rfl fun b _ => Finset.sum_congr rfl fun l _ => by rw [enAcc_25 w X blk hblk b l]

end Cert.KernelIdeal.Elbo

end
-- ==== Proof.KernelIdeal.ValueFr.lean ====
/-
  The French kernel's result at the extended reals: each of the 4 tiles adds its total of log-means to the running
  sum, which after the last tile is `logFr`.
-/
import proofs.«410933_j24077586661495_3_alg».proof.Proof.KernelIdeal.Acc
import proofs.«410933_j24077586661495_3_alg».proof.Proof.ElboSpec
import proofs.«410933_j24077586661495_3_alg».proof.Proof.Gen.KernelIdeal.Launch
import Idealize.ShloMosaic.PureOps.Ideal.Laws
import Idealize.ShloMosaic.Lib.Pipeline.Value
import Idealize.ShloMosaic.Lib.ValueLayout

noncomputable section

namespace Cert.KernelIdeal.Elbo

open Cert.KernelIdeal Cert.KernelIdeal.Gen Idealize.ShloMosaic Idealize.ShloMosaic.ValueIdx

/-! ## One tile's step, read at the one index of the running sum -/

/-- The sum over the 32 English positions, at sentence `b` and at French position `j` of the tile. -/
private theorem sumPos_apply (x : FVec Ideal S32x32x1024 .f32) (b : Fin 32) (j : Fin 1024) :
    multiReduction (F := Ideal) .add [1] S32x1024 x 0x00000000#32 reduces_S32x32x1024_S32x1024 (.inl rfl) rfl (ix2 b j)
      = ∑ l : Fin 32, x (ix3 b l j) :=
  (Ideal.multiReduction_add_single x _ reduces_S32x32x1024_S32x1024 _ _ (ix2 b j)).trans
    (Finset.sum_congr rfl fun l _ => congrArg x (funext fun a =>
      match a with | ⟨0, _⟩ => rfl | ⟨1, _⟩ => rfl | ⟨2, _⟩ => rfl))

/-- The sum along row `b` of a [32,1024] array. -/
private theorem rowSum_apply (y : FVec Ideal S32x1024 .f32) (b : Fin 32) :
    multiReduction (F := Ideal) .add [1] S32 y 0x00000000#32 reduces_S32x1024_S32 (.inl rfl) rfl (ix1 b)
      = ∑ j : Fin 1024, y (ix2 b j) :=
  (Ideal.multiReduction_add_single y _ reduces_S32x1024_S32 _ _ (ix1 b)).trans
    (Finset.sum_congr rfl fun j _ => congrArg y (funext fun a =>
      match a with | ⟨0, _⟩ => rfl | ⟨1, _⟩ => rfl))

/-- A vector of 32 entries viewed as a column: entry `b` of the column is entry `b` of the vector. -/
private theorem column_apply (z : FVec Ideal S32 .f32) (b : Fin 32) (u : Fin 1) :
    shapeCast S32x1 z shapeCasts_S32_S32x1 (ix2 b u) = z (ix1 b) :=
  shapeCast_apply z _ _ _ (by
    have hu : u.val = 0 := by omega
    rw [Shape.rowMajor_val_two, Shape.rowMajor_val_one]
    show b.val = b.val * 1 + u.val
    rw [hu, Nat.mul_one, Nat.add_zero])

/-- The sum down a column of 32 entries. -/
private theorem colSum_apply (w : FVec Ideal S32x1 .f32) (u : Fin 1) :
    multiReduction (F := Ideal) .add [0] S1 w 0x00000000#32 reduces_S32x1_S1 (.inl rfl) rfl (ix1 u)
      = ∑ b : Fin 32, w (ix2 b u) :=
  (Ideal.multiReduction_add_single w _ reduces_S32x1_S1 _ _ (ix1 u)).trans
    (Finset.sum_congr rfl fun b _ => congrArg w (funext fun a =>
      match a with | ⟨0, _⟩ => rfl | ⟨1, _⟩ => rfl))

/-- One tile's step: the running sum plus the tile's total, over sentences and French positions, of the logarithm of
    the mean over the English positions. -/
private theorem tile_value (x : Vec Ideal S32x32x1024 .f32) (acc : Vec Ideal S1x1 .f32) :
    k1_pay2 (F := Ideal) x acc (ix2 (0 : Fin 1) (0 : Fin 1))
      = acc (ix2 (0 : Fin 1) (0 : Fin 1))
        + ∑ b : Fin 32, ∑ j : Fin 1024, Ideal.log ((∑ l : Fin 32, x (ix3 b l j)) * Cert.Elbo.inv32) := by
  unfold k1_pay2
  refine (shapeCast_apply _ _ (ix2 (0 : Fin 1) (0 : Fin 1)) (ix2 (0 : Fin 1) (0 : Fin 1)) rfl).trans ?_
  refine congrArg (acc (ix2 (0 : Fin 1) (0 : Fin 1)) + ·) ?_
  refine (shapeCast_a_1a_apply _ _ (0 : Fin 1) (0 : Fin 1)).trans ?_
  refine (colSum_apply _ (0 : Fin 1)).trans ?_
  refine Finset.sum_congr rfl fun b _ => ?_
  refine (column_apply _ b (0 : Fin 1)).trans ?_
  refine (rowSum_apply _ b).trans ?_
  refine Finset.sum_congr rfl fun j _ => ?_
  exact congrArg (fun z => Ideal.log (z * Cert.Elbo.inv32)) (sumPos_apply x b j)

/-! ## The running sum, point by point -/

/-- The [1,1] running sum has one index. -/
private theorem idx_one (i : S1x1.Idx) : i = ix2 (0 : Fin 1) (0 : Fin 1) :=
  (eq_ix2 i).trans (congrArg₂ ix2 (Subsingleton.elim (α := Fin 1) _ _) (Subsingleton.elim (α := Fin 1) _ _))

/-- Before the first tile the running sum is zero. -/
private theorem frAcc_zero (blk : Fin grid1.N → Vec Ideal S32x32x1024 .f32) :
    frAcc (F := Ideal) blk 0 (ix2 (0 : Fin 1) (0 : Fin 1)) = 0 := by
  unfold frAcc k1_pay1
  exact Ideal.ofBits_zero_f32

/-- At a point of the grid the running sum takes that tile's step. -/
private theorem frAcc_succ (blk : Fin grid1.N → Vec Ideal S32x32x1024 .f32) (k : ℕ) (h : k < grid1.N) :
    frAcc (F := Ideal) blk (k + 1) = k1_pay2 (blk ⟨k, h⟩) (frAcc blk k) := by
  show (if h' : k < grid1.N then k1_pay2 (blk ⟨k, h'⟩) (frAcc blk k) else frAcc blk k) = _
  exact dif_pos h

/-! ## The French axis as four tiles of 1024 -/

/-- A French position is a tile and a position inside the tile. -/
private def tileEquiv : Fin 4 × Fin 1024 ≃ Fin 4096 where
  toFun p := ⟨p.1.val * 1024 + p.2.val, by have := p.1.isLt; have := p.2.isLt; omega⟩
  invFun f := (⟨f.val / 1024, by have := f.isLt; omega⟩, ⟨f.val % 1024, by omega⟩)
  left_inv p := by
    have h1 := p.1.isLt
    have h2 := p.2.isLt
    refine Prod.ext (Fin.ext ?_) (Fin.ext ?_)
    · show (p.1.val * 1024 + p.2.val) / 1024 = p.1.val
      omega
    · show (p.1.val * 1024 + p.2.val) % 1024 = p.2.val
      omega
  right_inv f := by
    refine Fin.ext ?_
    show f.val / 1024 * 1024 + f.val % 1024 = f.val
    omega

/-- Tile `t`'s total of log-means, read off the whole array. -/
private def tileTotal (Y : Vec Ideal S32x32x4096 .f32) (t : Fin 4) : EReal :=
  ∑ b : Fin 32, ∑ j : Fin 1024, Ideal.log ((∑ l : Fin 32, Y (ix3 b l (tileEquiv (t, j)))) * Cert.Elbo.inv32)

/-- The total of a tile that is the slice `[1024 t, 1024 (t+1))` of the French axis. -/
private theorem tile_sum (Y : Vec Ideal S32x32x4096 .f32) (blk : Fin grid1.N → Vec Ideal S32x32x1024 .f32)
    (hblk : ∀ (t : Fin grid1.N) (b l : Fin 32) (j : Fin 1024) (f : Fin 4096), f.val = t.val * 1024 + j.val →
      blk t (ix3 b l j) = Y (ix3 b l f)) (t : Fin 4) (ht : t.val < grid1.N) :
    (∑ b : Fin 32, ∑ j : Fin 1024, Ideal.log ((∑ l : Fin 32, blk ⟨t.val, ht⟩ (ix3 b l j)) * Cert.Elbo.inv32))
      = tileTotal Y t :=
  Finset.sum_congr rfl fun b _ => Finset.sum_congr rfl fun j _ =>
    congrArg (fun z => Ideal.log (z * Cert.Elbo.inv32))
      (Finset.sum_congr rfl fun l _ => hblk ⟨t.val, ht⟩ b l j (tileEquiv (t, j)) rfl)

/-- `logFr` is the four tiles' totals: the sum over the French axis is split by tile, and the sum over tiles is taken
    outermost. -/
private theorem logFr_split (Y : Vec Ideal S32x32x4096 .f32) :
    Cert.Elbo.logFr Y = tileTotal Y 0 + tileTotal Y 1 + tileTotal Y 2 + tileTotal Y 3 := by
  have hsplit : ∀ b : Fin 32,
      (∑ f : Fin 4096, Ideal.log ((∑ l : Fin 32, Y (ix3 b l f)) * Cert.Elbo.inv32))
        = ∑ t : Fin 4, ∑ j : Fin 1024, Ideal.log ((∑ l : Fin 32, Y (ix3 b l (tileEquiv (t, j)))) * Cert.Elbo.inv32) :=
    fun b => by
      rw [← Equiv.sum_comp tileEquiv, Fintype.sum_prod_type]
  unfold Cert.Elbo.logFr
  rw [Finset.sum_congr rfl fun b _ => hsplit b, Finset.sum_comm]
  exact Fin.sum_univ_four (tileTotal Y)

/-- If tile `t` of the probabilities is the slice `[1024 t, 1024 (t+1))` of the French axis, the running sum after the
    four tiles is `logFr`. -/
theorem fr_value (Y : Vec Ideal S32x32x4096 .f32) (blk : Fin grid1.N → Vec Ideal S32x32x1024 .f32)
    (hblk : ∀ (t : Fin grid1.N) (b l : Fin 32) (j : Fin 1024) (f : Fin 4096), f.val = t.val * 1024 + j.val →
      blk t (ix3 b l j) = Y (ix3 b l f)) :
    frAcc (F := Ideal) blk 4 = fun _ => Cert.Elbo.logFr Y := by
  have h0 : 0 < grid1.N := by rw [N_1]; omega
  have h1 : 1 < grid1.N := by rw [N_1]; omega
  have h2 : 2 < grid1.N := by rw [N_1]; omega
  have h3 : 3 < grid1.N := by rw [N_1]; omega
  have e1 : frAcc (F := Ideal) blk 1 = k1_pay2 (blk ⟨0, h0⟩) (frAcc blk 0) := frAcc_succ blk 0 h0
  have e2 : frAcc (F := Ideal) blk 2 = k1_pay2 (blk ⟨1, h1⟩) (frAcc blk 1) := frAcc_succ blk 1 h1
  have e3 : frAcc (F := Ideal) blk 3 = k1_pay2 (blk ⟨2, h2⟩) (frAcc blk 2) := frAcc_succ blk 2 h2
  have e4 : frAcc (F := Ideal) blk 4 = k1_pay2 (blk ⟨3, h3⟩) (frAcc blk 3) := frAcc_succ blk 3 h3
  funext i
  obtain rfl : i = ix2 (0 : Fin 1) (0 : Fin 1) := idx_one i
  rw [e4, tile_value, e3, tile_value, e2, tile_value, e1, tile_value, frAcc_zero, zero_add, logFr_split Y]
  exact congrArg₂ (· + ·) (congrArg₂ (· + ·) (congrArg₂ (· + ·) (tile_sum Y blk hblk 0 h0) (tile_sum Y blk hblk 1 h1))
    (tile_sum Y blk hblk 2 h2)) (tile_sum Y blk hblk 3 h3)

end Cert.KernelIdeal.Elbo

end
-- ==== Proof.KernelIdeal.ValueKl.lean ====
/-
  The Kullback–Leibler kernel's result at the extended reals: its three nested sums are the sum over every coordinate.
-/
import proofs.«410933_j24077586661495_3_alg».proof.Proof.KernelIdeal.Acc
import proofs.«410933_j24077586661495_3_alg».proof.Proof.ElboSpec
import Idealize.ShloMosaic.PureOps.Ideal.Laws
import Idealize.ShloMosaic.Lib.Pipeline.Value
import Idealize.ShloMosaic.Lib.ValueLayout

noncomputable section

namespace Cert.KernelIdeal.Elbo

open Cert.KernelIdeal Cert.KernelIdeal.Gen Idealize.ShloMosaic Idealize.ShloMosaic.ValueIdx

/-! ## The three sums and the casts between them, each read at an index given by coordinates -/

/-- The sum over the 128 latent coordinates, at sentence `b` and position `l`. -/
private theorem sumLatent_apply (x : FVec Ideal S32x32x128 .f32) (b l : Fin 32) :
    multiReduction (F := Ideal) .add [2] S32x32 x 0x00000000#32 reduces_S32x32x128_S32x32 (.inl rfl) rfl (ix2 b l)
      = ∑ e : Fin 128, x (ix3 b l e) :=
  (Ideal.multiReduction_add_single x _ reduces_S32x32x128_S32x32 _ _ (ix2 b l)).trans
    (Finset.sum_congr rfl fun e _ => congrArg x (funext fun a =>
      match a with | ⟨0, _⟩ => rfl | ⟨1, _⟩ => rfl | ⟨2, _⟩ => rfl))

/-- A [32,32] array viewed [32,32,1]: the entry at `(b, l, u)` is the entry at `(b, l)`. -/
private theorem keepLast_apply (y : FVec Ideal S32x32 .f32) (b l : Fin 32) (u : Fin 1) :
    shapeCast S32x32x1 y shapeCasts_S32x32_S32x32x1 (ix3 b l u) = y (ix2 b l) :=
  shapeCast_apply y _ _ _ (by
    have hu : u.val = 0 := by omega
    rw [Shape.rowMajor_val_three, Shape.rowMajor_val_two]
    show b.val * 32 + l.val = (b.val * 32 + l.val) * 1 + u.val
    rw [hu, Nat.mul_one, Nat.add_zero])

/-- The sum over the 32 positions of a [32,32,1] array, at sentence `b`. -/
private theorem sumPos_apply (z : FVec Ideal S32x32x1 .f32) (b : Fin 32) (u : Fin 1) :
    multiReduction (F := Ideal) .add [1] S32x1 z 0x00000000#32 reduces_S32x32x1_S32x1 (.inl rfl) rfl (ix2 b u)
      = ∑ l : Fin 32, z (ix3 b l u) :=
  (Ideal.multiReduction_add_single z _ reduces_S32x32x1_S32x1 _ _ (ix2 b u)).trans
    (Finset.sum_congr rfl fun l _ => congrArg z (funext fun a =>
      match a with | ⟨0, _⟩ => rfl | ⟨1, _⟩ => rfl | ⟨2, _⟩ => rfl))

/-- A [32,1] array viewed [32,1,1]: the entry at `(b, u, u')` is the entry at `(b, u)`. -/
private theorem keepMid_apply (w : FVec Ideal S32x1 .f32) (b : Fin 32) (u u' : Fin 1) :
    shapeCast S32x1x1 w shapeCasts_S32x1_S32x1x1 (ix3 b u u') = w (ix2 b u) :=
  shapeCast_apply w _ _ _ (by
    have hu' : u'.val = 0 := by omega
    rw [Shape.rowMajor_val_three, Shape.rowMajor_val_two]
    show b.val * 1 + u.val = (b.val * 1 + u.val) * 1 + u'.val
    rw [hu', Nat.mul_one, Nat.mul_one, Nat.add_zero])

/-- The sum over the 32 sentences of a [32,1,1] array. -/
private theorem sumSent_apply (v : FVec Ideal S32x1x1 .f32) (u u' : Fin 1) :
    multiReduction (F := Ideal) .add [0] S1x1 v 0x00000000#32 reduces_S32x1x1_S1x1 (.inl rfl) rfl (ix2 u u')
      = ∑ b : Fin 32, v (ix3 b u u') :=
  (Ideal.multiReduction_add_single v _ reduces_S32x1x1_S1x1 _ _ (ix2 u u')).trans
    (Finset.sum_congr rfl fun b _ => congrArg v (funext fun a =>
      match a with | ⟨0, _⟩ => rfl | ⟨1, _⟩ => rfl | ⟨2, _⟩ => rfl))

/-- The [1,1] result has one index. -/
private theorem idx_one (i : S1x1.Idx) : i = ix2 (0 : Fin 1) (0 : Fin 1) :=
  (eq_ix2 i).trans (congrArg₂ ix2 (Subsingleton.elim (α := Fin 1) _ _) (Subsingleton.elim (α := Fin 1) _ _))

/-- The value the kernel stores, from the means `M` and the standard deviations `S`. -/
theorem kl_value (M S : Vec Ideal S32x32x128 .f32) :
    k2_pay1 (F := Ideal) M S = fun _ => Cert.Elbo.kl M S := by
  funext i
  obtain rfl : i = ix2 (0 : Fin 1) (0 : Fin 1) := idx_one i
  unfold k2_pay1 Cert.Elbo.kl
  refine (shapeCast_1ab_ab_apply _ _ (0 : Fin 1) (0 : Fin 1)).trans ?_
  refine (shapeCast_ab_1ab_apply _ _ (0 : Fin 1) (0 : Fin 1) (0 : Fin 1)).trans ?_
  refine (sumSent_apply _ (0 : Fin 1) (0 : Fin 1)).trans ?_
  refine Finset.sum_congr rfl fun b _ => ?_
  refine (keepMid_apply _ b (0 : Fin 1) (0 : Fin 1)).trans ?_
  refine (sumPos_apply _ b (0 : Fin 1)).trans ?_
  refine Finset.sum_congr rfl fun l _ => ?_
  refine (keepLast_apply _ b l (0 : Fin 1)).trans ?_
  refine (sumLatent_apply _ b l).trans ?_
  refine Finset.sum_congr rfl fun e _ => ?_
  -- one coordinate: the printed term is `klTerm`, the zero word read as `0`
  show (Ideal.ofBits .f32 0x00000000#32 - Ideal.log (S (ix3 b l e)))
      + Cert.Elbo.half * (S (ix3 b l e) * S (ix3 b l e) + M (ix3 b l e) * M (ix3 b l e)) - Cert.Elbo.half
    = Cert.Elbo.klTerm (M (ix3 b l e)) (S (ix3 b l e))
  rw [Ideal.ofBits_zero_f32]
  rfl

end Cert.KernelIdeal.Elbo

end
-- ==== Proof.KernelIdeal.KernelValue.lean ====
/-
  The kernel program's result at the extended reals is the loss of its arguments.

  The last host stretch reshapes the three regions' [1,1] outputs to scalars and returns the Kullback–Leibler output minus
  the sum of the English and French outputs. Each output is its region's value at the arguments the region finds, which
  are the launch contents: the English running sum after its 25 tiles gives `logEn`, the French one after its 4 tiles
  `logFr`, the Kullback–Leibler body's store `kl`.
-/
import proofs.«410933_j24077586661495_3_alg».proof.Proof.KernelIdeal.ArrOut
import proofs.«410933_j24077586661495_3_alg».proof.Proof.KernelIdeal.RunArgs
import proofs.«410933_j24077586661495_3_alg».proof.Proof.KernelIdeal.ValueEn
import proofs.«410933_j24077586661495_3_alg».proof.Proof.KernelIdeal.ValueFr
import proofs.«410933_j24077586661495_3_alg».proof.Proof.KernelIdeal.ValueKl
import Idealize.ShloMosaic.Lib.StableHlo.Run

noncomputable section

namespace Cert.KernelIdeal.Elbo

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the last region the Kullback–Leibler output array holds `kl` of the means and the standard deviations. -/
private theorem W5_v4 (c : Dev nD) :
    (W5 (F := Ideal) m ρ c (Proc.devRef .tc main_v4) : Vec Ideal S1x1 .f32)
      = fun _ => Cert.Elbo.kl (m ((c : Thread nD τ).loc main_arg2)) (m ((c : Thread nD τ).loc main_arg3)) := by
  refine (W5_arr m ρ c 2).trans ?_
  refine (kl_arrAt (V4 m ρ) c).trans ?_
  rw [V4_main_arg2, V4_main_arg3]
  exact kl_value _ _

/-- After the first region the English output array holds `logEn` of the word ids and the English probabilities. -/
private theorem W1_v0 (c : Dev nD) :
    (W1 (F := Ideal) m ρ c (Proc.devRef .tc main_v0) : Vec Ideal S1x1 .f32)
      = fun _ => Cert.Elbo.logEn (m ((c : Thread nD τ).loc main_arg0)) (m ((c : Thread nD τ).loc main_arg4)) := by
  refine (W1_arr m ρ c 2).trans ?_
  refine (en_arrAt (V0 m ρ) c).trans ?_
  rw [enW_eq, V0_main_arg0]
  refine (en_value _ (V0 m ρ c main_arg4) (enBlk (V0 m ρ) c) fun t b l j v hv => enBlk_apply (V0 m ρ) c t b l j v hv).trans ?_
  rw [V0_main_arg4]
  rfl

/-- After the second region the French output array holds `logFr` of the French probabilities. -/
private theorem W3_v2 (c : Dev nD) :
    (W3 (F := Ideal) m ρ c (Proc.devRef .tc main_v2) : Vec Ideal S1x1 .f32)
      = fun _ => Cert.Elbo.logFr (m ((c : Thread nD τ).loc main_arg5)) := by
  refine (W3_arr m ρ c 1).trans ?_
  refine (fr_arrAt (V2 m ρ) c).trans ?_
  refine (fr_value (V2 m ρ c main_arg5) (frBlk (V2 m ρ) c) fun t b l j f hf => frBlk_apply (V2 m ρ) c t b l j f hf).trans ?_
  rw [V2_main_arg5]
  rfl

/-- The English scalar before the last host stretch. -/
private theorem W5_v1 (c : Dev nD) :
    (W5 (F := Ideal) m ρ c (Proc.devRef .tc main_v1) : Vec Ideal S_ .f32)
      = fun _ => Cert.Elbo.logEn (m ((c : Thread nD τ).loc main_arg0)) (m ((c : Thread nD τ).loc main_arg4)) := by
  refine (W5_of_ne m ρ c main_v1 (by decide)).trans ?_
  show StableHlo.after hostOps2 (W3 m ρ c) (Proc.devRef .tc main_v1) = _
  after_results
  refine (W3_of_ne m ρ c main_v1 (by decide)).trans ?_
  show StableHlo.after hostOps1 (W1 m ρ c) (Proc.devRef .tc main_v1) = _
  after_results
  rw [W1_v0 m ρ c]
  rfl

/-- The French scalar before the last host stretch. -/
private theorem W5_v3 (c : Dev nD) :
    (W5 (F := Ideal) m ρ c (Proc.devRef .tc main_v3) : Vec Ideal S_ .f32)
      = fun _ => Cert.Elbo.logFr (m ((c : Thread nD τ).loc main_arg5)) := by
  refine (W5_of_ne m ρ c main_v3 (by decide)).trans ?_
  show StableHlo.after hostOps2 (W3 m ρ c) (Proc.devRef .tc main_v3) = _
  after_results
  rw [W3_v2 m ρ c]
  rfl

/-- The result buffer at the end of the run. -/
theorem kernel_value (c : Dev nD) :
    (W6 (F := Ideal) m ρ c (Proc.devRef .tc main_v7) : Vec Ideal S_ .f32)
      = fun _ => Cert.Elbo.loss (m ((c : Thread nD τ).loc main_arg0)) (m ((c : Thread nD τ).loc main_arg2)) (m ((c : Thread nD τ).loc main_arg3))
          (m ((c : Thread nD τ).loc main_arg4)) (m ((c : Thread nD τ).loc main_arg5)) := by
  show StableHlo.after hostOps3 (W5 m ρ c) (Proc.devRef .tc main_v7) = _
  after_results
  rw [W5_v4 m ρ c, W5_v1 m ρ c, W5_v3 m ρ c]
  funext i
  unfold Cert.Elbo.loss
  rfl

end Cert.KernelIdeal.Elbo

end
-- ==== Proof.RefValue.lean ====
/-
  The reference's result at the extended reals is the loss, for word ids inside the vocabulary and nonnegative
  standard deviations: the gather reads the gold word's probability (the one-hot sum at an id in range), the mean is
  the sum times 2⁻⁵, and `log (1 / σ) = 0 − log σ` for `σ ≥ 0` (both are `+∞` at `σ = 0`).
-/
import proofs.«410933_j24077586661495_3_alg».proof.Proof.Gen.ReferenceIdeal.Run
import proofs.«410933_j24077586661495_3_alg».proof.Proof.Gen.ReferenceIdeal.Read
import proofs.«410933_j24077586661495_3_alg».proof.Proof.ElboSpec
import Idealize.ShloMosaic.PureOps.Ideal.Laws
import Idealize.ShloMosaic.Lib.ValueIdx
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx

/-- A sum over a rank-3 index set is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp e.symm f, Fintype.sum_prod_type]
  refine Finset.sum_congr rfl fun a _ => ?_
  rw [Fintype.sum_prod_type]
  rfl

/-- A fold of `and` from one over ones is one. -/
private theorem fold_andi_one {ι : Type} (S : Finset ι) : S.fold IntOp.andi 1#1 (fun _ => 1#1) = 1#1 := by
  induction S using Finset.cons_induction with
  | empty => rfl
  | cons a S ha ih => rw [Finset.fold_cons, ih]; rfl

/-- The gather reads the operand at the batch coordinates and the clamped start index. -/
private theorem gather_apply {α : Type} (x : S32x32x32000.Idx → α) (idx : IVec S32x32x1x1 32) (j : S32x32x1.Idx) :
    Host.gather gather_S32x32x32000_S32x32x1x1_S32x32x1_n_2_01_01_2_3_111 x idx j
      = x (ix3 (j 0) (j 1) ⟨min (idx (ix4 (j 0) (j 1) (j 2) 0)).toInt.toNat 31999, by omega⟩) := by
  have hm0 : (0 : Fin 3) ∉ gather_S32x32x32000_S32x32x1x1_S32x32x1_n_2_01_01_2_3_111.startIndexMap := by show (0 : Fin 3) ∉ [(2 : Fin 3)]; decide
  have hm1 : (1 : Fin 3) ∉ gather_S32x32x32000_S32x32x1x1_S32x32x1_n_2_01_01_2_3_111.startIndexMap := by show (1 : Fin 3) ∉ [(2 : Fin 3)]; decide
  have hb0 : (0 : Fin 3) ∈ gather_S32x32x32000_S32x32x1x1_S32x32x1_n_2_01_01_2_3_111.operandBatchingDims := by show (0 : Fin 3) ∈ [(0 : Fin 3), 1]; decide
  have hb1 : (1 : Fin 3) ∈ gather_S32x32x32000_S32x32x1x1_S32x32x1_n_2_01_01_2_3_111.operandBatchingDims := by show (1 : Fin 3) ∈ [(0 : Fin 3), 1]; decide
  have hb2 : (2 : Fin 3) ∉ gather_S32x32x32000_S32x32x1x1_S32x32x1_n_2_01_01_2_3_111.operandBatchingDims := by show (2 : Fin 3) ∉ [(0 : Fin 3), 1]; decide
  unfold Host.gather
  congr 1
  funext a
  refine Fin.ext ?_
  match a with
  | ⟨0, _⟩ =>
    show gather_S32x32x32000_S32x32x1x1_S32x32x1_n_2_01_01_2_3_111.start j idx 0 + gather_S32x32x32000_S32x32x1x1_S32x32x1_n_2_01_01_2_3_111.batchCoord j 0 + gather_S32x32x32000_S32x32x1x1_S32x32x1_n_2_01_01_2_3_111.offCoord j 0 = (j 0).val
    have hs : gather_S32x32x32000_S32x32x1x1_S32x32x1_n_2_01_01_2_3_111.start j idx 0 = 0 := by
      unfold GatherDims.start
      rw [dif_neg hm0]
    have ho : gather_S32x32x32000_S32x32x1x1_S32x32x1_n_2_01_01_2_3_111.offCoord j 0 = 0 :=
      GatherDims.offCoord_eq_zero _ _ _ (fun h => ((GatherDims.mem_sKept _ _).mp h).2 hb0)
    rw [hs, ho, Nat.zero_add, Nat.add_zero]
    unfold GatherDims.batchCoord
    rw [dif_pos hb0]
    rfl
  | ⟨1, _⟩ =>
    show gather_S32x32x32000_S32x32x1x1_S32x32x1_n_2_01_01_2_3_111.start j idx 1 + gather_S32x32x32000_S32x32x1x1_S32x32x1_n_2_01_01_2_3_111.batchCoord j 1 + gather_S32x32x32000_S32x32x1x1_S32x32x1_n_2_01_01_2_3_111.offCoord j 1 = (j 1).val
    have hs : gather_S32x32x32000_S32x32x1x1_S32x32x1_n_2_01_01_2_3_111.start j idx 1 = 0 := by
      unfold GatherDims.start
      rw [dif_neg hm1]
    have ho : gather_S32x32x32000_S32x32x1x1_S32x32x1_n_2_01_01_2_3_111.offCoord j 1 = 0 :=
      GatherDims.offCoord_eq_zero _ _ _ (fun h => ((GatherDims.mem_sKept _ _).mp h).2 hb1)
    rw [hs, ho, Nat.zero_add, Nat.add_zero]
    unfold GatherDims.batchCoord
    rw [dif_pos hb1]
    rfl
  | ⟨2, _⟩ =>
    show gather_S32x32x32000_S32x32x1x1_S32x32x1_n_2_01_01_2_3_111.start j idx 2 + gather_S32x32x32000_S32x32x1x1_S32x32x1_n_2_01_01_2_3_111.batchCoord j 2 + gather_S32x32x32000_S32x32x1x1_S32x32x1_n_2_01_01_2_3_111.offCoord j 2 = _
    rw [GatherDims.batchCoord_eq_zero _ _ _ hb2,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S32x32x32000_S32x32x1x1_S32x32x1_n_2_01_01_2_3_111.startIndexMap from List.mem_singleton.mpr rfl)]
    have hsi : gather_S32x32x32000_S32x32x1x1_S32x32x1_n_2_01_01_2_3_111.siIdx j ⟨List.idxOf (2 : Fin 3) gather_S32x32x32000_S32x32x1x1_S32x32x1_n_2_01_01_2_3_111.startIndexMap,
          List.idxOf_lt_length_iff.2 (List.mem_singleton.mpr rfl)⟩ = ix4 (j 0) (j 1) (j 2) 0 := by
      funext b; refine Fin.ext ?_
      match b with
      | ⟨0, _⟩ => rfl
      | ⟨1, _⟩ => rfl
      | ⟨2, _⟩ => rfl
      | ⟨3, _⟩ => rfl
    rw [hsi]
    rfl

/-- The word `1.0` is the real one. -/
private theorem ofBits_one : Ideal.ofBits .f32 0x3F800000#32 = 1 := by
  simp [Ideal.ofBits, Ideal.ieee, -EReal.coe_mul]; norm_num

/-- The word `32.0` is the real thirty-two. -/
private theorem ofBits_32 : Ideal.ofBits .f32 0x42000000#32 = ((32 : ℝ) : EReal) := by
  simp [Ideal.ofBits, Ideal.ieee, -EReal.coe_mul]; norm_num

/-- The word `2⁻⁵` is the real one over thirty-two. -/
private theorem inv32_eq : Cert.Elbo.inv32 = ((1 / 32 : ℝ) : EReal) := by
  simp [Cert.Elbo.inv32, Ideal.ofBits, Ideal.ieee, -EReal.coe_mul]; norm_num

/-- Dividing by thirty-two is multiplying by its reciprocal, at the infinities too. -/
private theorem div_32 (s : EReal) : Ideal.div s (Ideal.ofBits .f32 0x42000000#32) = s * Cert.Elbo.inv32 := by
  rw [ofBits_32, inv32_eq, Ideal.div_coe (by norm_num)]

/-- The logarithm of zero is `⊥`. -/
private theorem log_zero : Ideal.log 0 = ⊥ := by
  rw [← EReal.coe_zero, Ideal.log_coe, if_pos le_rfl]

/-- On the nonnegative extended reals the logarithm of the reciprocal is minus the logarithm: both sides are
    `⊤` at zero and `⊥` at `⊤`. -/
private theorem log_inv (σ : EReal) (h : 0 ≤ σ) : Ideal.log (Ideal.div 1 σ) = 0 - Ideal.log σ := by
  induction σ using EReal.rec with
  | bot => exact absurd h (by simp)
  | top => simp [Ideal.div, log_zero]
  | coe r =>
    have hr : 0 ≤ r := by exact_mod_cast h
    rcases hr.eq_or_lt with h0 | hpos
    · subst h0
      simp [Ideal.div, log_zero]
    · rw [Ideal.div_coe hpos.ne', one_mul, Ideal.log_coe, Ideal.log_coe,
        if_neg (not_le.mpr (one_div_pos.mpr hpos)), if_neg (not_le.mpr hpos), one_div, Real.log_inv, zero_sub,
        EReal.coe_neg]

/-- One coordinate's term of the printed program is the specification's. -/
private theorem kl_term (μ σ : EReal) (h : 0 ≤ σ) :
    Ideal.log (Ideal.div (Ideal.ofBits .f32 0x3F800000#32) σ) + (σ * σ + μ * μ) * Cert.Elbo.half - Cert.Elbo.half
      = Cert.Elbo.klTerm μ σ := by
  rw [ofBits_one, log_inv σ h, Cert.Elbo.klTerm, mul_comm (σ * σ + μ * μ) Cert.Elbo.half]

/-- For a word id inside the vocabulary the one-hot sum is the entry at the id. -/
private theorem gold_eq (w : (⟨S32x32, .i32⟩ : BufTy).Contents (Elt Ideal)) (X : (⟨S32x32x32000, .f32⟩ : BufTy).Contents (Elt Ideal))
    (b l : Fin 32) (h0 : 0 ≤ (w (ix2 b l)).toInt) (h1 : (w (ix2 b l)).toInt < 32000) :
    Cert.Elbo.gold w X b l = X (ix3 b l ⟨(w (ix2 b l)).toInt.toNat, by omega⟩) := by
  unfold Cert.Elbo.gold
  have hwn : (w (ix2 b l)).toInt = ((w (ix2 b l)).toNat : Int) := by
    have e := BitVec.toInt_eq_toNat_cond (w (ix2 b l)); have := (w (ix2 b l)).isLt; omega
  have key : ∀ v : Fin 32000, (w (ix2 b l) = BitVec.ofNat 32 v.val) ↔ v = (⟨(w (ix2 b l)).toInt.toNat, by omega⟩ : Fin 32000) := by
    intro v
    constructor
    · intro e
      apply Fin.ext
      show v.val = (w (ix2 b l)).toInt.toNat
      have : (w (ix2 b l)).toNat = v.val := by rw [e, BitVec.toNat_ofNat]; have := v.isLt; omega
      omega
    · intro e
      apply BitVec.eq_of_toNat_eq
      rw [BitVec.toNat_ofNat, e]
      show _ = (w (ix2 b l)).toInt.toNat % 2 ^ 32
      omega
  simp only [key]
  rw [Finset.sum_ite_eq', if_pos (Finset.mem_univ _)]

/-- The start index the gather reads is the word id itself: a nonnegative id is kept by the wrap-around select. -/
private theorem v5_eq (x0 : (⟨S32x32, .i32⟩ : BufTy).Contents (Elt Ideal)) (hw : ∀ j, 0 ≤ (x0 j).toInt ∧ (x0 j).toInt < 32000) (k : S32x32x1x1.Idx) :
    val_main_call0_v5 (F := Ideal) x0 k = x0 (idx_main_v0 (idx_main_call0_v5 k)) := by
  rw [val_main_call0_v5_apply, val_main_call0_v4_apply, val_main_call0_v1_apply, val_main_v0_apply,
    val_main_call0_v0_apply, val_main_call0_c_apply]
  have h := (hw (idx_main_v0 (idx_main_call0_v5 k))).1
  have hc : IntOp.cmpi .slt (x0 (idx_main_v0 (idx_main_call0_v5 k))) 0#32 = 0#1 := by
    apply eq_zero_of_ne_one
    rw [IntOp.cmpi_slt]
    have : (0#32 : BitVec 32).toInt = 0 := by decide
    omega
  rw [hc, select_zero]

/-- The in-bounds mask is all ones: every id lies in `[0, 31999]`. -/
private theorem v11_eq (x0 : (⟨S32x32, .i32⟩ : BufTy).Contents (Elt Ideal)) (hw : ∀ j, 0 ≤ (x0 j).toInt ∧ (x0 j).toInt < 32000) :
    val_main_call0_v11 (F := Ideal) x0 = fun _ => 1#1 := by
  funext k
  rw [val_main_call0_v11_apply, val_main_call0_v7_apply, val_main_call0_v10_apply, v5_eq x0 hw k,
    val_main_call0_v6_apply, val_main_call0_c_2_apply, val_main_call0_v9_apply, val_main_call0_v8_apply,
    val_main_call0_c_1_apply]
  obtain ⟨h0, h1⟩ := hw (idx_main_v0 (idx_main_call0_v5 k))
  rw [IntOp.andi_eq_one]
  refine ⟨IntOp.cmpi_sge.mpr ?_, IntOp.cmpi_sle.mpr ?_⟩
  · have : (0#32 : BitVec 32).toInt = 0 := by decide
    omega
  · have : (31999#32 : BitVec 32).toInt = 31999 := by decide
    omega

/-- So is its reduction over the unit axis. -/
private theorem v12_eq (x0 : (⟨S32x32, .i32⟩ : BufTy).Contents (Elt Ideal)) (hw : ∀ j, 0 ≤ (x0 j).toInt ∧ (x0 j).toInt < 32000) (i : S32x32x1.Idx) :
    val_main_call0_v12 (F := Ideal) x0 i = 1#1 := by
  unfold val_main_call0_v12
  rw [v11_eq x0 hw, Host.reduce_eq_fold]
  exact fold_andi_one _

/-- The gathered value at sentence `b`, position `l`: the decoder's probability of the word there. -/
private theorem v1_eq (x0 : (⟨S32x32, .i32⟩ : BufTy).Contents (Elt Ideal)) (x4 : (⟨S32x32x32000, .f32⟩ : BufTy).Contents (Elt Ideal)) (hw : ∀ j, 0 ≤ (x0 j).toInt ∧ (x0 j).toInt < 32000)
    (b l : Fin 32) (c : Fin 1) :
    val_main_v1 (F := Ideal) x0 x4 (ix3 b l c)
      = x4 (ix3 b l ⟨(x0 (ix2 b l)).toInt.toNat, by have := hw (ix2 b l); omega⟩) := by
  have hv5 : val_main_call0_v5 (F := Ideal) x0 (ix4 b l c 0) = x0 (ix2 b l) := by
    rw [v5_eq x0 hw]
    congr 1
    funext a
    refine Fin.ext ?_
    have hb := b.isLt
    have hl := l.isLt
    have hc := c.isLt
    match a with
    | ⟨0, _⟩ => show (((b.val * 32 + l.val) * 1 + c.val) * 1 + 0) / 32 = b.val; omega
    | ⟨1, _⟩ => show (((b.val * 32 + l.val) * 1 + c.val) * 1 + 0) / 1 % 32 = l.val; omega
  rw [val_main_v1_apply, v12_eq x0 hw, select_one]
  unfold val_main_call0_v13
  rw [gather_apply]
  refine congrArg x4 ?_
  funext a
  refine Fin.ext ?_
  match a with
  | ⟨0, _⟩ => rfl
  | ⟨1, _⟩ => rfl
  | ⟨2, _⟩ =>
    show min (val_main_call0_v5 (F := Ideal) x0 (ix4 b l c 0)).toInt.toNat 31999 = (x0 (ix2 b l)).toInt.toNat
    rw [hv5]
    have := hw (ix2 b l)
    omega

/-- The English term: the whole-array sum of the logarithms of the gathered values is the sum over sentences and
    positions of the logarithm of the gold word's probability. -/
private theorem en_sum (x0 : (⟨S32x32, .i32⟩ : BufTy).Contents (Elt Ideal)) (x4 : (⟨S32x32x32000, .f32⟩ : BufTy).Contents (Elt Ideal)) (hw : ∀ j, 0 ≤ (x0 j).toInt ∧ (x0 j).toInt < 32000) :
    ∑ j : S32x32x1.Idx, val_main_v2 (F := Ideal) x0 x4 j = Cert.Elbo.logEn x0 x4 := by
  rw [sum_idx3]
  unfold Cert.Elbo.logEn
  refine Finset.sum_congr rfl fun b _ => Finset.sum_congr rfl fun l _ => ?_
  rw [Fin.sum_univ_one, val_main_v2_apply, v1_eq x0 x4 hw, gold_eq x0 x4 b l (hw _).1 (hw _).2]
  rfl

/-- The French term: the sum over the positions divided by thirty-two is the sum times `2⁻⁵`. -/
private theorem fr_sum (x5 : (⟨S32x32x4096, .f32⟩ : BufTy).Contents (Elt Ideal)) :
    ∑ j : S32x4096.Idx, val_main_v7 (F := Ideal) x5 j = Cert.Elbo.logFr x5 := by
  rw [sum_idx2]
  unfold Cert.Elbo.logFr
  refine Finset.sum_congr rfl fun b _ => Finset.sum_congr rfl fun f _ => ?_
  have hk : ∀ k : Fin 32, idx_main_v4 (ix2 b f) k = ix3 b k f := by
    intro k
    funext a
    refine Fin.ext ?_
    match a with
    | ⟨0, _⟩ => rfl
    | ⟨1, _⟩ => rfl
    | ⟨2, _⟩ => rfl
  rw [val_main_v7_apply, val_main_v6_apply, val_main_v4_apply, val_main_v5_apply, val_main_cst_1_apply,
    val_main_cst_0_apply]
  simp only [Ideal.hostUnary_log_def, Ideal.hostDivf_def, Ideal.ofBits_def, Ideal.ofBits_zero_f32, zero_add, hk]
  rw [div_32]

/-- The Kullback–Leibler term: coordinate by coordinate. -/
private theorem kl_sum (x2 x3 : (⟨S32x32x128, .f32⟩ : BufTy).Contents (Elt Ideal)) (hS : ∀ j, (0 : EReal) ≤ x3 j) :
    ∑ j : S32x32x128.Idx, val_main_v19 (F := Ideal) x2 x3 j = Cert.Elbo.kl x2 x3 := by
  rw [sum_idx3]
  unfold Cert.Elbo.kl
  refine Finset.sum_congr rfl fun b _ => Finset.sum_congr rfl fun l _ => Finset.sum_congr rfl fun e _ => ?_
  rw [val_main_v19_apply, val_main_v17_apply, val_main_v11_apply, val_main_v10_apply, val_main_v9_apply,
    val_main_cst_3_apply, val_main_v16_apply, val_main_v14_apply, val_main_v12_apply, val_main_v13_apply,
    val_main_v15_apply, val_main_cst_4_apply, val_main_v18_apply, val_main_cst_5_apply]
  exact kl_term _ _ (hS _)

/-- The reference run's term is the loss of its arguments. -/
theorem ref_value (x0 : (⟨S32x32, .i32⟩ : BufTy).Contents (Elt Ideal)) (x2 x3 : (⟨S32x32x128, .f32⟩ : BufTy).Contents (Elt Ideal))
    (x4 : (⟨S32x32x32000, .f32⟩ : BufTy).Contents (Elt Ideal)) (x5 : (⟨S32x32x4096, .f32⟩ : BufTy).Contents (Elt Ideal))
    (hw : ∀ j, 0 ≤ (x0 j).toInt ∧ (x0 j).toInt < 32000) (hS : ∀ j, (0 : EReal) ≤ x3 j) :
    val_main_v22 (F := Ideal) x0 x2 x3 x4 x5 = fun _ => Cert.Elbo.loss x0 x2 x3 x4 x5 := by
  funext i
  rw [val_main_v22_apply, val_main_v21_apply, val_main_v20_apply, val_main_v3_apply, val_main_v8_apply,
    val_main_cst_6_apply, val_main_cst_apply, val_main_cst_2_apply, kl_sum x2 x3 hS, en_sum x0 x4 hw, fr_sum x5]
  simp only [Ideal.subf_def, Ideal.addf_def, Ideal.ofBits_def, Ideal.ofBits_zero_f32, zero_add]
  rfl

end Cert.ReferenceIdeal.RefValue

end
-- ==== Proof.PreDecode.lean ====
/-
  What the precondition says of the inputs the proof uses: every word id lies in the vocabulary `[0, 32000)`, and every
  standard deviation is nonnegative.
-/
import proofs.«410933_j24077586661495_3_alg».proof.Pre_finite_inputs
import Idealize.ShloMosaic.PureOps.Ideal
import Idealize.ShloMosaic.PureOps.Ideal.Laws
import Idealize.ShloMosaic.Lib.ReduceAll
import Idealize.ShloMosaic.Lib.StableHlo.Predicate

noncomputable section

namespace Cert.Pre_finite_inputs.Decode

open Cert.Pre_finite_inputs Idealize.ShloMosaic

/-- From the printed precondition at the extended reals: the word ids' range and the standard deviations' sign. -/
theorem pre_decode [Cert.Pre_finite_inputs.Facts] (a0 : IVec S32x32 32) (a1 : IVec S4096 32) (a2 a3 : FVec Ideal S32x32x128 .f32)
    (a4 : FVec Ideal S32x32x32000 .f32) (a5 : FVec Ideal S32x32x4096 .f32)
    (h : Cert.Pre_finite_inputs.fn (F := Ideal) a0 a1 a2 a3 a4 a5 = fun _ => 1#1) :
    (∀ j, 0 ≤ (a0 j).toInt ∧ (a0 j).toInt < 32000) ∧ (∀ j, (0 : EReal) ≤ a3 j) := by
  -- the scalar shape has one index
  haveI : Subsingleton S_.Idx := ⟨fun a b => funext fun d => d.elim0⟩
  have e := congrFun h (fun a => a.elim0)
  unfold Cert.Pre_finite_inputs.fn at e
  dsimp only at e
  unfold Cert.Pre_finite_inputs.fn_part1 at e
  dsimp only at e
  -- the conjunction is 1: so are its last two conjuncts, the word ids' range and the standard deviations' sign
  obtain ⟨e5, e6⟩ := IntOp.andi_eq_one.1 e
  obtain ⟨-, e5⟩ := IntOp.andi_eq_one.1 e5
  refine ⟨fun j => ?_, fun j => ?_⟩
  · -- an "all" that is 1 is 1 at every element; there it compares the word with 0 and with 32000, signed
    have hj : IntOp.andi (IntOp.cmpi .sge (a0 j) 0#32) (IntOp.cmpi .slt (a0 j) 32000#32) = 1#1 :=
      Host.reduce_andi_all _ _ _ _ _ e5 j
    obtain ⟨h0, h1⟩ := IntOp.andi_eq_one.1 hj
    rw [IntOp.cmpi_sge] at h0
    rw [IntOp.cmpi_slt] at h1
    exact ⟨h0, h1⟩
  · -- likewise the entry is compared with the zero word, which is the extended real 0
    have hj : Ideal.cmp .oge (a3 j) (Ideal.ofBits .f32 0x00000000#32) = 1#1 :=
      Host.reduce_andi_all _ _ _ _ _ e6 j
    rw [Ideal.ofBits_zero_f32] at hj
    unfold Ideal.cmp at hj
    exact of_decide_eq_true ((StableHlo.Predicate.ofBool_eq_one_iff _).1 hj)

end Cert.Pre_finite_inputs.Decode

end
-- ==== Proof.lean ====
/-
  The certificate: the kernel program (three pallas_calls: an English reconstruction term accumulated over 25 vocabulary
  tiles, a French term accumulated over 4 tiles, a Kullback–Leibler term, then `KL − (logEn + logFr)` on the host) against
  the jnp reference, under the precondition that every word id lies in the vocabulary and every standard deviation is
  nonnegative.

  Frames: each kernel program's run is its three regions and the host stretches between them, every unscoped buffer held
  at named contents between items; no item writes an argument array. The reference's frame is its generated run.
  Value: at the extended reals the kernel's result buffer holds `loss` of the arguments (each region's running sum read
  after its last tile) and so does the reference's (the gather reads the gold word's probability for an id in range;
  `log (1/σ) = 0 − log σ` for `σ ≥ 0`; `s / 32 = s · 2⁻⁵`).
-/
import proofs.«410933_j24077586661495_3_alg».proof.Defs
import proofs.«410933_j24077586661495_3_alg».proof.Proof.Gen.Kernel
import proofs.«410933_j24077586661495_3_alg».proof.Proof.Gen.KernelIdeal
import proofs.«410933_j24077586661495_3_alg».proof.Proof.Gen.ReferenceIdeal
import proofs.«410933_j24077586661495_3_alg».proof.Proof.Gen.Pre_finite_inputs
import proofs.«410933_j24077586661495_3_alg».proof.Proof.Gen.ReferenceIdeal.Run
import proofs.«410933_j24077586661495_3_alg».proof.Proof.Gen.ReferenceIdeal.Read
import proofs.«410933_j24077586661495_3_alg».proof.Proof.Kernel.RunArgs
import proofs.«410933_j24077586661495_3_alg».proof.Proof.KernelIdeal.RunArgs
import proofs.«410933_j24077586661495_3_alg».proof.Proof.KernelIdeal.KernelValue
import proofs.«410933_j24077586661495_3_alg».proof.Proof.RefValue
import proofs.«410933_j24077586661495_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ =>
  (θ_run Cert.Kernel.defs _ _).mono (fun r h c =>
    ⟨(h c _ (Cert.Kernel.Elbo.mem_uc Cert.Kernel.main_arg0 (by decide))).trans (Cert.Kernel.Elbo.W6_main_arg0 m ρ c),
      (h c _ (Cert.Kernel.Elbo.mem_uc Cert.Kernel.main_arg1 (by decide))).trans (Cert.Kernel.Elbo.W6_main_arg1 m ρ c),
      (h c _ (Cert.Kernel.Elbo.mem_uc Cert.Kernel.main_arg2 (by decide))).trans (Cert.Kernel.Elbo.W6_main_arg2 m ρ c),
      (h c _ (Cert.Kernel.Elbo.mem_uc Cert.Kernel.main_arg3 (by decide))).trans (Cert.Kernel.Elbo.W6_main_arg3 m ρ c),
      (h c _ (Cert.Kernel.Elbo.mem_uc Cert.Kernel.main_arg4 (by decide))).trans (Cert.Kernel.Elbo.W6_main_arg4 m ρ c),
      (h c _ (Cert.Kernel.Elbo.mem_uc Cert.Kernel.main_arg5 (by decide))).trans (Cert.Kernel.Elbo.W6_main_arg5 m ρ c)⟩)
    (Cert.Kernel.Elbo.run_all (F := Bits) m ρ)

/-- So does its idealization. -/
theorem frame_pi : Cert.frame_KernelIdeal := fun m ρ _ =>
  (θ_run Cert.KernelIdeal.defs _ _).mono (fun r h c =>
    ⟨(h c _ (Cert.KernelIdeal.Elbo.mem_uc Cert.KernelIdeal.main_arg0 (by decide))).trans (Cert.KernelIdeal.Elbo.W6_main_arg0 m ρ c),
      (h c _ (Cert.KernelIdeal.Elbo.mem_uc Cert.KernelIdeal.main_arg1 (by decide))).trans (Cert.KernelIdeal.Elbo.W6_main_arg1 m ρ c),
      (h c _ (Cert.KernelIdeal.Elbo.mem_uc Cert.KernelIdeal.main_arg2 (by decide))).trans (Cert.KernelIdeal.Elbo.W6_main_arg2 m ρ c),
      (h c _ (Cert.KernelIdeal.Elbo.mem_uc Cert.KernelIdeal.main_arg3 (by decide))).trans (Cert.KernelIdeal.Elbo.W6_main_arg3 m ρ c),
      (h c _ (Cert.KernelIdeal.Elbo.mem_uc Cert.KernelIdeal.main_arg4 (by decide))).trans (Cert.KernelIdeal.Elbo.W6_main_arg4 m ρ c),
      (h c _ (Cert.KernelIdeal.Elbo.mem_uc Cert.KernelIdeal.main_arg5 (by decide))).trans (Cert.KernelIdeal.Elbo.W6_main_arg5 m ρ c)⟩)
    (Cert.KernelIdeal.Elbo.run_all (F := Ideal) m ρ)

/-- The reference: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the loss of the arguments in their result buffer. -/
theorem algebraic : Cert.algebraic_KernelIdeal_ReferenceIdeal := by
  intro m ρ m' ρ' hpre hagree
  refine ⟨fun c => fun _ => Cert.Elbo.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Elbo.mem_uc Cert.KernelIdeal.main_v7 (by decide))).trans (Cert.KernelIdeal.Elbo.kernel_value m ρ c),
      (h c _ (Cert.KernelIdeal.Elbo.mem_uc Cert.KernelIdeal.main_arg0 (by decide))).trans (Cert.KernelIdeal.Elbo.W6_main_arg0 m ρ c),
      (h c _ (Cert.KernelIdeal.Elbo.mem_uc Cert.KernelIdeal.main_arg1 (by decide))).trans (Cert.KernelIdeal.Elbo.W6_main_arg1 m ρ c),
      (h c _ (Cert.KernelIdeal.Elbo.mem_uc Cert.KernelIdeal.main_arg2 (by decide))).trans (Cert.KernelIdeal.Elbo.W6_main_arg2 m ρ c),
      (h c _ (Cert.KernelIdeal.Elbo.mem_uc Cert.KernelIdeal.main_arg3 (by decide))).trans (Cert.KernelIdeal.Elbo.W6_main_arg3 m ρ c),
      (h c _ (Cert.KernelIdeal.Elbo.mem_uc Cert.KernelIdeal.main_arg4 (by decide))).trans (Cert.KernelIdeal.Elbo.W6_main_arg4 m ρ c),
      (h c _ (Cert.KernelIdeal.Elbo.mem_uc Cert.KernelIdeal.main_arg5 (by decide))).trans (Cert.KernelIdeal.Elbo.W6_main_arg5 m ρ c)⟩)
      (Cert.KernelIdeal.Elbo.run_all (F := Ideal) m ρ)
  · refine (θ_run Cert.ReferenceIdeal.defs _ _).mono (fun r h c => ⟨?_, (h c).2⟩)
      (Cert.ReferenceIdeal.Value.run (F := Ideal) m' ρ')
    obtain ⟨hw, hS⟩ := Cert.Pre_finite_inputs.Decode.pre_decode _ _ _ _ _ _ (hpre c)
    rw [(h c).1, Cert.ReferenceIdeal.Read.val_main_v22_eq, (hagree c).1, (hagree c).2.2.1, (hagree c).2.2.2.1, (hagree c).2.2.2.2.1, (hagree c).2.2.2.2.2]
    exact Cert.ReferenceIdeal.RefValue.ref_value _ _ _ _ _ hw hS

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
